-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S128x128 .f32) (main_arg17 : FVec F S128x128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x256 .f32 := Host.absf main_arg12
  let main_cst_18 : FVec F S_ .f32 := constant S_ .f32 0x7F800000#32
  let main_v50 : FVec F S384x256 .f32 := broadcastInDim S384x256 ![] bcast_S_S384x256 main_cst_18
  fn_part3 (F := F) main_arg13 main_arg14 main_arg15 main_arg16 main_arg17 main_arg18 main_arg19 main_v48 main_v49 main_v50

def fn_part1 {F : FTy → Type} [FloatOps F] (main_arg6 : FVec F S256x128 .f32) (main_arg7 : FVec F S128 .f32) (main_arg8 : FVec F S256x256 .f32) (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S600000x128 .f32) (main_arg2 : IVec S600000 32) (main_arg3 : IVec S600000 32) (main_arg4 : FVec F S384x256 .f32) (main_arg5 : FVec F S256 .f32) (main_arg6 : FVec F S256x128 .f32) (main_arg7 : FVec F S128 .f32) (main_arg8 : FVec F S256x256 .f32) (main_arg9 : FVec F S256 .f32) (main_arg10 : FVec F S256x128 .f32) (main_arg11 : FVec F S128 .f32) (main_arg12 : FVec F S384x256 .f32) (main_arg13 : FVec F S256 .f32) (main_arg14 : FVec F S256x128 .f32) (main_arg15 : FVec F S128 .f32) (main_arg16 : FVec F S128x128 .f32) (main_arg17 : FVec F S128x128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S_ : Shape := ⟨0, ![]⟩
abbrev S600000x1 : Shape := ⟨2, ![600000, 1]⟩
abbrev S600064x128 : Shape := ⟨2, ![600064, 128]⟩
abbrev S1x256 : Shape := ⟨2, ![1, 256]⟩
abbrev S1x128 : Shape := ⟨2, ![1, 128]⟩
abbrev S1024x128 : Shape := ⟨2, ![1024, 128]⟩
abbrev S1024x384 : Shape := ⟨2, ![1024, 384]⟩
abbrev S1024x256 : Shape := ⟨2, ![1024, 256]⟩
abbrev S1024 : Shape := ⟨1, ![1024]⟩
abbrev S1024x1 : Shape := ⟨2, ![1024, 1]⟩
abbrev S1000x128 : Shape := ⟨2, ![1000, 128]⟩
abbrev S1000x256 : Shape := ⟨2, ![1000, 256]⟩
abbrev S1000 : Shape := ⟨1, ![1000]⟩
abbrev S1000x1 : Shape := ⟨2, ![1000, 1]⟩

abbrev nBuf : Space → Nat
  | .hbm => 64
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S384x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .i32⟩
  | .hbm, ⟨39, _⟩ => ⟨S_, .f32⟩
  | .hbm, ⟨40, _⟩ => ⟨S600064x128, .f32⟩
  | .hbm, ⟨41, _⟩ => ⟨S_, .i32⟩
  | .hbm, ⟨42, _⟩ => ⟨S_, .f32⟩
  | .hbm, ⟨43, _⟩ => ⟨S600064x128, .f32⟩
  | .hbm, ⟨44, _⟩ => ⟨S_, .i32⟩
  | .hbm, ⟨45, _⟩ => ⟨S_, .f32⟩
  | .hbm, ⟨46, _⟩ => ⟨S600064x128, .f32⟩
  | .hbm, ⟨47, _⟩ => ⟨S1x256, .f32⟩
  | .hbm, ⟨48, _⟩ => ⟨S1x128, .f32⟩
  | .hbm, ⟨49, _⟩ => ⟨S1x256, .f32⟩
  | .hbm, ⟨50, _⟩ => ⟨S1x128, .f32⟩
  | .hbm, ⟨51, _⟩ => ⟨S1x256, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S600064x128, .f32⟩
  | .hbm, ⟨56, _⟩ => ⟨S600064x128, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S50000x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S384x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S384x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S256x256, .f32⟩
  | .local _ .vmem, ⟨26, _⟩ => ⟨S1x256, .f32⟩
  | .local _ .vmem, ⟨27, _⟩ => ⟨S256x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1000x128, .f32⟩
  | .local _ .vmem, ⟨33, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_call0_v0 : Ref sig .tc := ⟨.hbm, 39, rfl⟩
abbrev main_v14 : Ref sig .tc := ⟨.hbm, 40, rfl⟩
abbrev main_c_4 : Ref sig .tc := ⟨.hbm, 41, rfl⟩
abbrev main_call1_v0 : Ref sig .tc := ⟨.hbm, 42, rfl⟩
abbrev main_v15 : Ref sig .tc := ⟨.hbm, 43, rfl⟩
abbrev main_c_5 : Ref sig .tc := ⟨.hbm, 44, rfl⟩
abbrev main_call2_v0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25_0 : Ref sig .tc := ⟨.hbm, 55, rfl⟩
abbrev main_v25_1 : Ref sig .tc := ⟨.hbm, 56, rfl⟩
abbrev main_v26 : Ref sig .tc := ⟨.hbm, 57, rfl⟩
abbrev main_v27 : Ref sig .tc := ⟨.hbm, 58, rfl⟩
abbrev main_cst : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33

abbrev nD : Nat := 1
abbrev τ : Topo := Topo.v7x

variable {F : FTy → Type} [FloatOps F]

abbrev grid0 : Pipeline.Grid := ⟨1, ![586], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  pads_S600000x128_S600064x128_0640_000 : S600000x128.Pads (![0, 0] : Fin 2 → Nat) ![64, 0] ![0, 0] S600064x128
  h_S_ : 0 < S_.numel
  shapeCasts_S256_S1x256 : S256.ShapeCasts S1x256
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S1024x128_S1024x128_S1024x128_S1024x384_d1 : Shape.Concatenates [S1024x128, S1024x128, S1024x128] S1024x384 1
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  reduces_S1024x128_S1024 : S1024x128.Reduces [1] S1024
  shapeCasts_S1024_S1024x1 : S1024.ShapeCasts S1024x1
  broadcasts_S1024x1_S1024x128 : S1024x1.Broadcasts S1024x128
  slices_S600064x128_S600000x128_0_0 : S600064x128.Slices ![0, 0] S600000x128
  bcast_S_S50000x128 : S_.BroadcastsInDim S50000x128 (![] : Fin 0 → Fin S50000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S256x256_S256x256_0_0 : ∀ a, (![0, 0] : Fin 2 → Nat) a + S256x256.size a ≤ S256x256.size a
  h_S256x256 : 0 < S256x256.numel
  broadcasts_S1x256_S1000x256 : S1x256.Broadcasts S1000x256
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  gather_S50000x128_S600000x1_S600000x128_1_0_n_n_0_1_1128_wf : GatherDims.WF S50000x128 S600000x1 S600000x128 [1] [0] [] [0] [] 1 ![1, 128]
  dot_S1024x384_S384x256_S1024x256_1_0_0_1_n_n_wf : DotDims.WF S1024x384 S384x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  scatter_S50000x128_S600000x1_S600000x128_1_0_0_1_wf : ScatterDims.WF S50000x128 S600000x1 S600000x128 [1] [0] [0] 1
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S600064x128.size a
  hwx0_0 : ∀ i : grid0.Coords, EltTy.bits .f32 = 32 ∨ (Rect.block (s := S600064x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S600064x128.size a
  hwx0_1 : ∀ i : grid0.Coords, EltTy.bits .f32 = 32 ∨ (Rect.block (s := S600064x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S600064x128.size a
  hwx0_2 : ∀ i : grid0.Coords, EltTy.bits .f32 = 32 ∨ (Rect.block (s := S600064x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x256.size a ≤ S384x256.size a
  hwx0_7 : ∀ i : grid0.Coords, EltTy.bits .f32 = 32 ∨ (Rect.block (s := S384x256) S384x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x128.size a ≤ S600064x128.size a
  hwx0_14 : ∀ i : grid0.Coords, EltTy.bits .f32 = 32 ∨ (Rect.block (s := S600064x128) S1024x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S600064x128.size a
  hwx0_15 : ∀ i : grid0.Coords, EltTy.bits .f32 = 32 ∨ (Rect.block (s := S600064x128) S1024x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S50000x128.size a
  hwx1_9 : ∀ i : grid1.Coords, EltTy.bits .f32 = 32 ∨ (Rect.block (s := S50000x128) S1000x128.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v14) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S384x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25_0) S1024x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v25_1) S1024x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x128 : Shape := ⟨2, ![128, 128]⟩
abbrev S_ : Shape := ⟨0, ![]⟩
abbrev S600000x1 : Shape := ⟨2, ![600000, 1]⟩
abbrev S600000x384 : Shape := ⟨2, ![600000, 384]⟩
abbrev S600000x256 : Shape := ⟨2, ![600000, 256]⟩
abbrev S1x256 : Shape := ⟨2, ![1, 256]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S600000x128, .f32⟩
  | 2 => ⟨S600000, .i32⟩
  | 3 => ⟨S600000, .i32⟩
  | 4 => ⟨S384x256, .f32⟩
  | 5 => ⟨S256, .f32⟩
  | 6 => ⟨S256x128, .f32⟩
  | 7 => ⟨S128, .f32⟩
  | 8 => ⟨S256x256, .f32⟩
  | 9 => ⟨S256, .f32⟩
  | 10 => ⟨S256x128, .f32⟩
  | 11 => ⟨S128, .f32⟩
  | 12 => ⟨S384x256, .f32⟩
  | 13 => ⟨S256, .f32⟩
  | 14 => ⟨S256x128, .f32⟩
  | 15 => ⟨S128, .f32⟩
  | 16 => ⟨S128x128, .f32⟩
  | 17 => ⟨S128x128, .f32⟩
  | 18 => ⟨S128, .f32⟩
  | 19 => ⟨S128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S600000x384, .f32⟩
  | 39 => ⟨S600000x256, .f32⟩
  | 40 => ⟨S1x256, .f32⟩
  | 41 => ⟨S600000x256, .f32⟩
  | 42 => ⟨S600000x256, .f32⟩
  | 43 => ⟨S_, .f32⟩
  | 44 => ⟨S600000x256, .f32⟩
  | 45 => ⟨S600000x256, .f32⟩
  | 46 => ⟨S600000x128, .f32⟩
  | 47 => ⟨S1x128, .f32⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S50000x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S_, .f32⟩
  | 86 => ⟨S50000x1, .f32⟩
  | 87 => ⟨S50000x1, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S600000x256, .f32⟩
  | 98 => ⟨S1x256, .f32⟩
  | 99 => ⟨S600000x256, .f32⟩
  | 100 => ⟨S600000x256, .f32⟩
  | 101 => ⟨S_, .f32⟩
  | 102 => ⟨S600000x256, .f32⟩
  | 103 => ⟨S600000x256, .f32⟩
  | 104 => ⟨S600000x128, .f32⟩
  | 105 => ⟨S1x128, .f32⟩
  | 106 => ⟨S600000x128, .f32⟩
  | 107 => ⟨S600000x128, .f32⟩
  | 108 => ⟨S600000x128, .f32⟩
  | 109 => ⟨S600000x128, .f32⟩
  | 110 => ⟨S_, .f32⟩
  | 111 => ⟨S600000, .f32⟩
  | 112 => ⟨S600000x1, .f32⟩
  | 113 => ⟨S_, .f32⟩
  | 114 => ⟨S600000x1, .f32⟩
  | 115 => ⟨S600000x1, .f32⟩
  | 116 => ⟨S600000x128, .f32⟩
  | 117 => ⟨S600000x128, .f32⟩
  | 118 => ⟨S600000x128, .f32⟩
  | 119 => ⟨S_, .f32⟩
  | 120 => ⟨S600000, .f32⟩
  | 121 => ⟨S600000x1, .f32⟩
  | 122 => ⟨S_, .f32⟩
  | 123 => ⟨S600000x1, .f32⟩
  | 124 => ⟨S600000x1, .f32⟩
  | 125 => ⟨S600000x128, .f32⟩
  | 126 => ⟨S600000x128, .f32⟩
  | 127 => ⟨S_, .f32⟩
  | _ => ⟨S50000x128, .f32⟩

abbrev hbmTy0_1 (i : Nat) : BufTy := match i % 128 with
  | 0 => ⟨S600000x1, .f32⟩
  | 1 => ⟨S600000x1, .f32⟩
  | 2 => ⟨S600000x1, .f32⟩
  | 3 => ⟨S600000x128, .f32⟩
  | 4 => ⟨S600000x128, .f32⟩
  | 5 => ⟨S1x128, .f32⟩
  | 6 => ⟨S600000x128, .f32⟩
  | 7 => ⟨S600000x128, .f32⟩
  | 8 => ⟨S1x128, .f32⟩
  | 9 => ⟨S600000x128, .f32⟩
  | 10 => ⟨S600000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_cst : Ref sig .tc := ⟨.hbm, 43, rfl⟩
abbrev main_call0_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_cst : Ref sig .tc := ⟨.hbm, 59, rfl⟩
abbrev main_call1_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_8 : Ref sig .tc := ⟨.hbm, 110, rfl⟩
abbrev main_v74 : Ref sig .tc := ⟨.hbm, 111, rfl⟩
abbrev main_v75 : Ref sig .tc := ⟨.hbm, 112, rfl⟩
abbrev main_cst_9 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_10 : Ref sig .tc := ⟨.hbm, 119, rfl⟩
abbrev main_v81 : Ref sig .tc := ⟨.hbm, 120, rfl⟩
abbrev main_v82 : Ref sig .tc := ⟨.hbm, 121, rfl⟩
abbrev main_cst_11 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_12 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S600000x128_S600000_d1 : S600000x128.ReducesTo [1] S600000
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  gather_S50000x128_S600000x1_S600000x128_1_0_n_n_0_1_1128_wf : GatherDims.WF S50000x128 S600000x1 S600000x128 [1] [0] [] [0] [] 1 ![1, 128]
  dot_S600000x384_S384x256_S600000x256_1_0_0_1_n_n_wf : DotDims.WF S600000x384 S384x256 S600000x256 [1] [0] [0] [1] [] []
  dot_S600000x256_S256x128_S600000x128_1_0_0_1_n_n_wf : DotDims.WF S600000x256 S256x128 S600000x128 [1] [0] [0] [1] [] []
  scatter_S50000x128_S600000x1_S600000x128_1_0_0_1_wf : ScatterDims.WF S50000x128 S600000x1 S600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x256_S600000x256_1_0_0_1_n_n : DotDims S600000x384 S384x256 S600000x256 where
  lhsContracting := [1]
  rhsContracting := [0]
  lhsNonContracting := [0]
  rhsNonContracting := [1]
  lhsBatch := []
  rhsBatch := []
  wf := dot_S600000x384_S384x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf

class Facts : Prop extends Facts₀ where

variable [Facts]
-- ==== Proof.Stretch.lean ====
import proofs.«113904_j32109175505235_1_alg».proof.Proof.Gen.KernelIdeal.Frame
import Idealize.ShloMosaic.Lib.Pipeline.Value
import Idealize.ShloMosaic.PureOps.Ideal

noncomputable section

namespace Cert.KernelIdeal.Stretch

open Cert.KernelIdeal Cert.KernelIdeal.Gen Idealize.ShloMosaic Idealize.ShloMosaic.TcCoe Idealize.SL.Sem

/-- The column of row numbers a table is read at: a negative word counts from the table's end (50000 is added),
    any other word is kept; the words are then laid as an [M, 1] column. -/
def idxCol (x : IVec S600000 32) : IVec S600000x1 32 :=
  broadcastInDim S600000x1 ![0] bcast_S600000_S600000x1_0
    (select (cmpi .slt x (broadcastInDim S600000 ![] bcast_S_S600000 (constantI S_ 32 0#32)))
      (addi x (broadcastInDim S600000 ![] bcast_S_S600000 (constantI S_ 32 50000#32))) x)

/-- The node table's rows at the row numbers of a word vector. -/
def gath (nodes : FVec Ideal S50000x128 .f32) (x : IVec S600000 32) : FVec Ideal S600000x128 .f32 :=
  Host.gather gather_S50000x128_S600000x1_S600000x128_1_0_n_n_0_1_1128 nodes (idxCol x)

/-- An [600000, 128] array with 64 rows of the converted integer 0 appended. -/
def padRows (x : FVec Ideal S600000x128 .f32) : FVec Ideal S600064x128 .f32 :=
  pad S600064x128 ![0, 0] ![64, 0] ![0, 0] x (sitofp (F := Ideal) .f32 (constantI S_ 32 0#32))
    pads_S600000x128_S600064x128_0640_000 h_S_

/-- The first 600000 rows of an [600064, 128] array. -/
def cutRows (y : FVec Ideal S600064x128 .f32) : FVec Ideal S600000x128 .f32 :=
  extractStridedSlice S600000x128 ![0, 0] y slices_S600064x128_S600000x128_0_0

/-- The messages added up per receiving node: the accumulating scatter of the message rows into an all-zero table. -/
def aggregate (recv : IVec S600000 32) (msgs : FVec Ideal S600000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 recv) msgs

/-! ## Which buffers each host stretch writes -/

/-- The buffers written by the index arithmetic and the two gathers. -/
abbrev wr0 : List (Ref sig .tc) := [main_c, main_v0, main_v1, main_c_0, main_v2, main_v3, main_v4, main_v5, main_v6,
  main_c_1, main_v7, main_v8, main_c_2, main_v9, main_v10, main_v11, main_v12, main_v13, main_c_3]
/-- The buffers written by the first padding. -/
abbrev wr0_1 : List (Ref sig .tc) := [main_call0_v0, main_v14]
abbrev wr0_2 : List (Ref sig .tc) := [main_c_4]
/-- The buffers written by the second padding. -/
abbrev wr0_3 : List (Ref sig .tc) := [main_call1_v0, main_v15]
abbrev wr0_4 : List (Ref sig .tc) := [main_c_5]
/-- The buffers written by the third padding. -/
abbrev wr0_5 : List (Ref sig .tc) := [main_call2_v0, main_v16]
/-- The buffers written by the eight reshapes. -/
abbrev wr0_6 : List (Ref sig .tc) := [main_v17, main_v18, main_v19, main_v20, main_v21, main_v22, main_v23, main_v24]
/-- The buffers written between the two regions. -/
abbrev wr1 : List (Ref sig .tc) := [main_v26, main_v27, main_cst, main_v28, main_v29, main_v30]

/-- Every operation of a literal stretch writes one buffer, and that buffer is in the stretch's list. -/
macro "writes_in" : tactic => `(tactic| (
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)))

theorem writes0 : (hostOps0 : List (HloOp τ sig (Elt Ideal))).Forall fun op => op.writes ⊆ (wr0.map (Proc.devRef (τ := τ) .tc)).toFinset := by writes_in
theorem writes0_1 : (hostOps0_1 : List (HloOp τ sig (Elt Ideal))).Forall fun op => op.writes ⊆ (wr0_1.map (Proc.devRef (τ := τ) .tc)).toFinset := by writes_in
theorem writes0_2 : (hostOps0_2 : List (HloOp τ sig (Elt Ideal))).Forall fun op => op.writes ⊆ (wr0_2.map (Proc.devRef (τ := τ) .tc)).toFinset := by writes_in
theorem writes0_3 : (hostOps0_3 : List (HloOp τ sig (Elt Ideal))).Forall fun op => op.writes ⊆ (wr0_3.map (Proc.devRef (τ := τ) .tc)).toFinset := by writes_in
theorem writes0_4 : (hostOps0_4 : List (HloOp τ sig (Elt Ideal))).Forall fun op => op.writes ⊆ (wr0_4.map (Proc.devRef (τ := τ) .tc)).toFinset := by writes_in
theorem writes0_5 : (hostOps0_5 : List (HloOp τ sig (Elt Ideal))).Forall fun op => op.writes ⊆ (wr0_5.map (Proc.devRef (τ := τ) .tc)).toFinset := by writes_in
theorem writes0_6 : (hostOps0_6 : List (HloOp τ sig (Elt Ideal))).Forall fun op => op.writes ⊆ (wr0_6.map (Proc.devRef (τ := τ) .tc)).toFinset := by writes_in
theorem writes1 : (hostOps1 : List (HloOp τ sig (Elt Ideal))).Forall fun op => op.writes ⊆ (wr1.map (Proc.devRef (τ := τ) .tc)).toFinset := by writes_in

/-! ## What each stretch computes, from any contents X of the buffers before it -/

section Results
variable (X : Valuation τ sig (Elt Ideal))

theorem res1_v6 : StableHlo.after hostOps0 X (Proc.devRef .tc main_v6)
    = gath (X (Proc.devRef .tc main_arg0)) (X (Proc.devRef .tc main_arg2)) := by
  after_results; rfl
theorem res1_v13 : StableHlo.after hostOps0 X (Proc.devRef .tc main_v13)
    = gath (X (Proc.devRef .tc main_arg0)) (X (Proc.devRef .tc main_arg3)) := by
  after_results; rfl
theorem res1_c_3 : StableHlo.after hostOps0 X (Proc.devRef .tc main_c_3) = constantI S_ 32 0#32 := by
  after_results
theorem res3_c_4 : StableHlo.after hostOps0_2 X (Proc.devRef .tc main_c_4) = constantI S_ 32 0#32 := by
  after_results
theorem res5_c_5 : StableHlo.after hostOps0_4 X (Proc.devRef .tc main_c_5) = constantI S_ 32 0#32 := by
  after_results

end Results

section Results2
variable (X : Valuation τ sig (Elt Ideal))

/-- The pad stretches: the appended rows hold the conversion of whatever word the constant's buffer holds. -/
theorem res2_v14 : StableHlo.after hostOps0_1 X (Proc.devRef .tc main_v14)
    = pad S600064x128 ![0, 0] ![64, 0] ![0, 0] (X (Proc.devRef .tc main_v6))
        (sitofp (F := Ideal) .f32 (X (Proc.devRef .tc main_c_3))) pads_S600000x128_S600064x128_0640_000 h_S_ := by
  after_results; rfl
theorem res4_v15 : StableHlo.after hostOps0_3 X (Proc.devRef .tc main_v15)
    = pad S600064x128 ![0, 0] ![64, 0] ![0, 0] (X (Proc.devRef .tc main_v13))
        (sitofp (F := Ideal) .f32 (X (Proc.devRef .tc main_c_4))) pads_S600000x128_S600064x128_0640_000 h_S_ := by
  after_results; rfl
theorem res6_v16 : StableHlo.after hostOps0_5 X (Proc.devRef .tc main_v16)
    = pad S600064x128 ![0, 0] ![64, 0] ![0, 0] (X (Proc.devRef .tc main_arg1))
        (sitofp (F := Ideal) .f32 (X (Proc.devRef .tc main_c_5))) pads_S600000x128_S600064x128_0640_000 h_S_ := by
  after_results; rfl

/-- The reshapes: a vector laid as a one-row matrix. -/
theorem res7_v17 : StableHlo.after hostOps0_6 X (Proc.devRef .tc main_v17)
    = shapeCast S1x256 (X (Proc.devRef .tc main_arg5)) shapeCasts_S256_S1x256 := by
  after_results; rfl
theorem res7_v18 : StableHlo.after hostOps0_6 X (Proc.devRef .tc main_v18)
    = shapeCast S1x128 (X (Proc.devRef .tc main_arg7)) shapeCasts_S128_S1x128 := by
  after_results; rfl
theorem res7_v19 : StableHlo.after hostOps0_6 X (Proc.devRef .tc main_v19)
    = shapeCast S1x256 (X (Proc.devRef .tc main_arg13)) shapeCasts_S256_S1x256 := by
  after_results; rfl
theorem res7_v20 : StableHlo.after hostOps0_6 X (Proc.devRef .tc main_v20)
    = shapeCast S1x128 (X (Proc.devRef .tc main_arg15)) shapeCasts_S128_S1x128 := by
  after_results; rfl
theorem res7_v21 : StableHlo.after hostOps0_6 X (Proc.devRef .tc main_v21)
    = shapeCast S1x256 (X (Proc.devRef .tc main_arg9)) shapeCasts_S256_S1x256 := by
  after_results; rfl
theorem res7_v22 : StableHlo.after hostOps0_6 X (Proc.devRef .tc main_v22)
    = shapeCast S1x128 (X (Proc.devRef .tc main_arg11)) shapeCasts_S128_S1x128 := by
  after_results; rfl
theorem res7_v23 : StableHlo.after hostOps0_6 X (Proc.devRef .tc main_v23)
    = shapeCast S1x128 (X (Proc.devRef .tc main_arg18)) shapeCasts_S128_S1x128 := by
  after_results; rfl
theorem res7_v24 : StableHlo.after hostOps0_6 X (Proc.devRef .tc main_v24)
    = shapeCast S1x128 (X (Proc.devRef .tc main_arg19)) shapeCasts_S128_S1x128 := by
  after_results; rfl

/-- Between the regions: the two cuts and the accumulating scatter. -/
theorem res9_v27 : StableHlo.after hostOps1 X (Proc.devRef .tc main_v27) = cutRows (X (Proc.devRef .tc main_v25_1)) := by
  after_results; rfl
theorem res9_v30 : StableHlo.after hostOps1 X (Proc.devRef .tc main_v30)
    = aggregate (X (Proc.devRef .tc main_arg3)) (cutRows (X (Proc.devRef .tc main_v25_0))) := by
  after_results; rfl

end Results2

variable (m : (ℓ : Loc nD τ sig) → Buf (Elt Ideal) ℓ) (ρ : Dev nD → PrngReg)

/-! ## A buffer a stretch does not write is carried over it -/

theorem keep1 (c : Dev nD) (r : Ref sig .tc) (h : r ∉ wr0) : W1 m ρ c (Proc.devRef .tc r) = W0 m ρ c (Proc.devRef .tc r) :=
  StableHlo.after_of_writes_sub hostOps0 _ writes0 h
theorem keep2 (c : Dev nD) (r : Ref sig .tc) (h : r ∉ wr0_1) : W2 m ρ c (Proc.devRef .tc r) = W1 m ρ c (Proc.devRef .tc r) :=
  StableHlo.after_of_writes_sub hostOps0_1 _ writes0_1 h
theorem keep3 (c : Dev nD) (r : Ref sig .tc) (h : r ∉ wr0_2) : W3 m ρ c (Proc.devRef .tc r) = W2 m ρ c (Proc.devRef .tc r) :=
  StableHlo.after_of_writes_sub hostOps0_2 _ writes0_2 h
theorem keep4 (c : Dev nD) (r : Ref sig .tc) (h : r ∉ wr0_3) : W4 m ρ c (Proc.devRef .tc r) = W3 m ρ c (Proc.devRef .tc r) :=
  StableHlo.after_of_writes_sub hostOps0_3 _ writes0_3 h
theorem keep5 (c : Dev nD) (r : Ref sig .tc) (h : r ∉ wr0_4) : W5 m ρ c (Proc.devRef .tc r) = W4 m ρ c (Proc.devRef .tc r) :=
  StableHlo.after_of_writes_sub hostOps0_4 _ writes0_4 h
theorem keep6 (c : Dev nD) (r : Ref sig .tc) (h : r ∉ wr0_5) : W6 m ρ c (Proc.devRef .tc r) = W5 m ρ c (Proc.devRef .tc r) :=
  StableHlo.after_of_writes_sub hostOps0_5 _ writes0_5 h
theorem keep7 (c : Dev nD) (r : Ref sig .tc) (h : r ∉ wr0_6) : W7 m ρ c (Proc.devRef .tc r) = W6 m ρ c (Proc.devRef .tc r) :=
  StableHlo.after_of_writes_sub hostOps0_6 _ writes0_6 h
theorem keep9 (c : Dev nD) (r : Ref sig .tc) (h : r ∉ wr1) : W9 m ρ c (Proc.devRef .tc r) = W8 m ρ c (Proc.devRef .tc r) :=
  StableHlo.after_of_writes_sub hostOps1 _ writes1 h

/-! ## A buffer nothing has written yet holds its launch contents -/

theorem launch0 (c : Dev nD) (r : Ref sig .tc) : W0 m ρ c (Proc.devRef .tc r) = m ((c : Thread nD τ).loc r) := rfl
theorem launch5 (c : Dev nD) (r : Ref sig .tc) (h0 : r ∉ wr0) (h1 : r ∉ wr0_1) (h2 : r ∉ wr0_2) (h3 : r ∉ wr0_3) (h4 : r ∉ wr0_4) :
    W5 m ρ c (Proc.devRef .tc r) = m ((c : Thread nD τ).loc r) :=
  (keep5 m ρ c r h4).trans ((keep4 m ρ c r h3).trans ((keep3 m ρ c r h2).trans ((keep2 m ρ c r h1).trans (keep1 m ρ c r h0))))
theorem launch6 (c : Dev nD) (r : Ref sig .tc) (h0 : r ∉ wr0) (h1 : r ∉ wr0_1) (h2 : r ∉ wr0_2) (h3 : r ∉ wr0_3) (h4 : r ∉ wr0_4)
    (h5 : r ∉ wr0_5) : W6 m ρ c (Proc.devRef .tc r) = m ((c : Thread nD τ).loc r) :=
  (keep6 m ρ c r h5).trans (launch5 m ρ c r h0 h1 h2 h3 h4)
theorem launch7 (c : Dev nD) (r : Ref sig .tc) (h0 : r ∉ wr0) (h1 : r ∉ wr0_1) (h2 : r ∉ wr0_2) (h3 : r ∉ wr0_3) (h4 : r ∉ wr0_4)
    (h5 : r ∉ wr0_5) (h6 : r ∉ wr0_6) : W7 m ρ c (Proc.devRef .tc r) = m ((c : Thread nD τ).loc r) :=
  (keep7 m ρ c r h6).trans (launch6 m ρ c r h0 h1 h2 h3 h4 h5)
/-- Over the edge region too, for a buffer that is none of its arrays. -/
theorem launch8 (c : Dev nD) (r : Ref sig .tc) (hne : ∀ w, Pipeline.arrRef spec0 w ≠ r) (h0 : r ∉ wr0) (h1 : r ∉ wr0_1) (h2 : r ∉ wr0_2)
    (h3 : r ∉ wr0_3) (h4 : r ∉ wr0_4) (h5 : r ∉ wr0_5) (h6 : r ∉ wr0_6) :
    W8 m ρ c (Proc.devRef .tc r) = m ((c : Thread nD τ).loc r) :=
  (W8_of_ne m ρ c r hne).trans (launch7 m ρ c r h0 h1 h2 h3 h4 h5 h6)
theorem launch9 (c : Dev nD) (r : Ref sig .tc) (hne : ∀ w, Pipeline.arrRef spec0 w ≠ r) (h0 : r ∉ wr0) (h1 : r ∉ wr0_1) (h2 : r ∉ wr0_2)
    (h3 : r ∉ wr0_3) (h4 : r ∉ wr0_4) (h5 : r ∉ wr0_5) (h6 : r ∉ wr0_6) (h9 : r ∉ wr1) :
    W9 m ρ c (Proc.devRef .tc r) = m ((c : Thread nD τ).loc r) :=
  (keep9 m ρ c r h9).trans (launch8 m ρ c r hne h0 h1 h2 h3 h4 h5 h6)

/-! ## Region 0's entry contents -/

/-- A gathered and padded array: the gather and the constant are computed by the first stretch, the pad by the second,
    and the five stretches after it leave the padded array alone. -/
theorem V7_v14 (c : Dev nD) : V7 m ρ c main_v14 = padRows (gath (m ((c : Thread nD τ).loc main_arg0)) (m ((c : Thread nD τ).loc main_arg2))) :=
  calc W7 m ρ c (Proc.devRef .tc main_v14)
    _ = W6 m ρ c (Proc.devRef .tc main_v14) := keep7 m ρ c main_v14 (by decide)
    _ = W5 m ρ c (Proc.devRef .tc main_v14) := keep6 m ρ c main_v14 (by decide)
    _ = W4 m ρ c (Proc.devRef .tc main_v14) := keep5 m ρ c main_v14 (by decide)
    _ = W3 m ρ c (Proc.devRef .tc main_v14) := keep4 m ρ c main_v14 (by decide)
    _ = W2 m ρ c (Proc.devRef .tc main_v14) := keep3 m ρ c main_v14 (by decide)
    _ = pad S600064x128 ![0, 0] ![64, 0] ![0, 0] (W1 m ρ c (Proc.devRef .tc main_v6))
          (sitofp (F := Ideal) .f32 (W1 m ρ c (Proc.devRef .tc main_c_3))) pads_S600000x128_S600064x128_0640_000 h_S_ :=
        res2_v14 (W1 m ρ c)
    _ = padRows (gath (m ((c : Thread nD τ).loc main_arg0)) (m ((c : Thread nD τ).loc main_arg2))) :=
        congrArg₂ (fun (x : FVec Ideal S600000x128 .f32) (v : IVec S_ 32) =>
            pad S600064x128 ![0, 0] ![64, 0] ![0, 0] x (sitofp (F := Ideal) .f32 v) pads_S600000x128_S600064x128_0640_000 h_S_)
          (res1_v6 (W0 m ρ c)) (res1_c_3 (W0 m ρ c))

/-- The second gathered and padded array: gathered by the first stretch and carried over two more, padded with the
    constant of the third stretch by the fourth, then left alone. -/
theorem V7_v15 (c : Dev nD) : V7 m ρ c main_v15 = padRows (gath (m ((c : Thread nD τ).loc main_arg0)) (m ((c : Thread nD τ).loc main_arg3))) :=
  calc W7 m ρ c (Proc.devRef .tc main_v15)
    _ = W6 m ρ c (Proc.devRef .tc main_v15) := keep7 m ρ c main_v15 (by decide)
    _ = W5 m ρ c (Proc.devRef .tc main_v15) := keep6 m ρ c main_v15 (by decide)
    _ = W4 m ρ c (Proc.devRef .tc main_v15) := keep5 m ρ c main_v15 (by decide)
    _ = pad S600064x128 ![0, 0] ![64, 0] ![0, 0] (W3 m ρ c (Proc.devRef .tc main_v13))
          (sitofp (F := Ideal) .f32 (W3 m ρ c (Proc.devRef .tc main_c_4))) pads_S600000x128_S600064x128_0640_000 h_S_ :=
        res4_v15 (W3 m ρ c)
    _ = padRows (gath (m ((c : Thread nD τ).loc main_arg0)) (m ((c : Thread nD τ).loc main_arg3))) :=
        congrArg₂ (fun (x : FVec Ideal S600000x128 .f32) (v : IVec S_ 32) =>
            pad S600064x128 ![0, 0] ![64, 0] ![0, 0] x (sitofp (F := Ideal) .f32 v) pads_S600000x128_S600064x128_0640_000 h_S_)
          ((keep3 m ρ c main_v13 (by decide)).trans ((keep2 m ρ c main_v13 (by decide)).trans (res1_v13 (W0 m ρ c))))
          (res3_c_4 (W2 m ρ c))

/-- The padded edge array: the launch array padded with the constant of the fifth stretch by the sixth. -/
theorem V7_v16 (c : Dev nD) : V7 m ρ c main_v16 = padRows (m ((c : Thread nD τ).loc main_arg1)) :=
  calc W7 m ρ c (Proc.devRef .tc main_v16)
    _ = W6 m ρ c (Proc.devRef .tc main_v16) := keep7 m ρ c main_v16 (by decide)
    _ = pad S600064x128 ![0, 0] ![64, 0] ![0, 0] (W5 m ρ c (Proc.devRef .tc main_arg1))
          (sitofp (F := Ideal) .f32 (W5 m ρ c (Proc.devRef .tc main_c_5))) pads_S600000x128_S600064x128_0640_000 h_S_ :=
        res6_v16 (W5 m ρ c)
    _ = padRows (m ((c : Thread nD τ).loc main_arg1)) :=
        congrArg₂ (fun (x : FVec Ideal S600000x128 .f32) (v : IVec S_ 32) =>
            pad S600064x128 ![0, 0] ![64, 0] ![0, 0] x (sitofp (F := Ideal) .f32 v) pads_S600000x128_S600064x128_0640_000 h_S_)
          (launch5 m ρ c main_arg1 (by decide) (by decide) (by decide) (by decide) (by decide)) (res5_c_5 (W4 m ρ c))

/-- A vector laid as a one-row matrix by the last stretch, the vector itself never written. -/
theorem V7_v17 (c : Dev nD) : V7 m ρ c main_v17 = shapeCast S1x256 (m ((c : Thread nD τ).loc main_arg5)) shapeCasts_S256_S1x256 :=
  (res7_v17 (W6 m ρ c)).trans
    (congrArg (fun (x : FVec Ideal S256 .f32) => shapeCast S1x256 x shapeCasts_S256_S1x256) (launch6 m ρ c main_arg5 (by decide) (by decide) (by decide) (by decide) (by decide) (by decide)))
theorem V7_v18 (c : Dev nD) : V7 m ρ c main_v18 = shapeCast S1x128 (m ((c : Thread nD τ).loc main_arg7)) shapeCasts_S128_S1x128 :=
  (res7_v18 (W6 m ρ c)).trans
    (congrArg (fun (x : FVec Ideal S128 .f32) => shapeCast S1x128 x shapeCasts_S128_S1x128) (launch6 m ρ c main_arg7 (by decide) (by decide) (by decide) (by decide) (by decide) (by decide)))
theorem V7_v19 (c : Dev nD) : V7 m ρ c main_v19 = shapeCast S1x256 (m ((c : Thread nD τ).loc main_arg13)) shapeCasts_S256_S1x256 :=
  (res7_v19 (W6 m ρ c)).trans
    (congrArg (fun (x : FVec Ideal S256 .f32) => shapeCast S1x256 x shapeCasts_S256_S1x256) (launch6 m ρ c main_arg13 (by decide) (by decide) (by decide) (by decide) (by decide) (by decide)))
theorem V7_v20 (c : Dev nD) : V7 m ρ c main_v20 = shapeCast S1x128 (m ((c : Thread nD τ).loc main_arg15)) shapeCasts_S128_S1x128 :=
  (res7_v20 (W6 m ρ c)).trans
    (congrArg (fun (x : FVec Ideal S128 .f32) => shapeCast S1x128 x shapeCasts_S128_S1x128) (launch6 m ρ c main_arg15 (by decide) (by decide) (by decide) (by decide) (by decide) (by decide)))
theorem V7_v23 (c : Dev nD) : V7 m ρ c main_v23 = shapeCast S1x128 (m ((c : Thread nD τ).loc main_arg18)) shapeCasts_S128_S1x128 :=
  (res7_v23 (W6 m ρ c)).trans
    (congrArg (fun (x : FVec Ideal S128 .f32) => shapeCast S1x128 x shapeCasts_S128_S1x128) (launch6 m ρ c main_arg18 (by decide) (by decide) (by decide) (by decide) (by decide) (by decide)))
theorem V7_v24 (c : Dev nD) : V7 m ρ c main_v24 = shapeCast S1x128 (m ((c : Thread nD τ).loc main_arg19)) shapeCasts_S128_S1x128 :=
  (res7_v24 (W6 m ρ c)).trans
    (congrArg (fun (x : FVec Ideal S128 .f32) => shapeCast S1x128 x shapeCasts_S128_S1x128) (launch6 m ρ c main_arg19 (by decide) (by decide) (by decide) (by decide) (by decide) (by decide)))

/-- The weight matrices the edge region reads are never written. -/
theorem V7_arg4 (c : Dev nD) : V7 m ρ c main_arg4 = m ((c : Thread nD τ).loc main_arg4) := launch7 m ρ c main_arg4 (by decide) (by decide) (by decide) (by decide) (by decide) (by decide) (by decide)
theorem V7_arg6 (c : Dev nD) : V7 m ρ c main_arg6 = m ((c : Thread nD τ).loc main_arg6) := launch7 m ρ c main_arg6 (by decide) (by decide) (by decide) (by decide) (by decide) (by decide) (by decide)
theorem V7_arg12 (c : Dev nD) : V7 m ρ c main_arg12 = m ((c : Thread nD τ).loc main_arg12) := launch7 m ρ c main_arg12 (by decide) (by decide) (by decide) (by decide) (by decide) (by decide) (by decide)
theorem V7_arg14 (c : Dev nD) : V7 m ρ c main_arg14 = m ((c : Thread nD τ).loc main_arg14) := launch7 m ρ c main_arg14 (by decide) (by decide) (by decide) (by decide) (by decide) (by decide) (by decide)
theorem V7_arg17 (c : Dev nD) : V7 m ρ c main_arg17 = m ((c : Thread nD τ).loc main_arg17) := launch7 m ρ c main_arg17 (by decide) (by decide) (by decide) (by decide) (by decide) (by decide) (by decide)

/-! ## Region 1's entry contents -/

/-- The node table and the weight matrices the node region reads are never written, and are no array of the edge region. -/
theorem V9_arg0 (c : Dev nD) : V9 m ρ c main_arg0 = m ((c : Thread nD τ).loc main_arg0) :=
  launch9 m ρ c main_arg0 (by decide) (by decide) (by decide) (by decide) (by decide) (by decide) (by decide) (by decide) (by decide)
theorem V9_arg8 (c : Dev nD) : V9 m ρ c main_arg8 = m ((c : Thread nD τ).loc main_arg8) :=
  launch9 m ρ c main_arg8 (by decide) (by decide) (by decide) (by decide) (by decide) (by decide) (by decide) (by decide) (by decide)
theorem V9_arg10 (c : Dev nD) : V9 m ρ c main_arg10 = m ((c : Thread nD τ).loc main_arg10) :=
  launch9 m ρ c main_arg10 (by decide) (by decide) (by decide) (by decide) (by decide) (by decide) (by decide) (by decide) (by decide)
theorem V9_arg16 (c : Dev nD) : V9 m ρ c main_arg16 = m ((c : Thread nD τ).loc main_arg16) :=
  launch9 m ρ c main_arg16 (by decide) (by decide) (by decide) (by decide) (by decide) (by decide) (by decide) (by decide) (by decide)

/-- Two one-row matrices made before the edge region, which has them in no window, and not written after it. -/
theorem V9_v21 (c : Dev nD) : V9 m ρ c main_v21 = shapeCast S1x256 (m ((c : Thread nD τ).loc main_arg9)) shapeCasts_S256_S1x256 :=
  calc W9 m ρ c (Proc.devRef .tc main_v21)
    _ = W8 m ρ c (Proc.devRef .tc main_v21) := keep9 m ρ c main_v21 (by decide)
    _ = W7 m ρ c (Proc.devRef .tc main_v21) := W8_of_ne m ρ c main_v21 (by decide)
    _ = shapeCast S1x256 (W6 m ρ c (Proc.devRef .tc main_arg9)) shapeCasts_S256_S1x256 := res7_v21 (W6 m ρ c)
    _ = shapeCast S1x256 (m ((c : Thread nD τ).loc main_arg9)) shapeCasts_S256_S1x256 :=
        congrArg (fun (x : FVec Ideal S256 .f32) => shapeCast S1x256 x shapeCasts_S256_S1x256) (launch6 m ρ c main_arg9 (by decide) (by decide) (by decide) (by decide) (by decide) (by decide))
theorem V9_v22 (c : Dev nD) : V9 m ρ c main_v22 = shapeCast S1x128 (m ((c : Thread nD τ).loc main_arg11)) shapeCasts_S128_S1x128 :=
  calc W9 m ρ c (Proc.devRef .tc main_v22)
    _ = W8 m ρ c (Proc.devRef .tc main_v22) := keep9 m ρ c main_v22 (by decide)
    _ = W7 m ρ c (Proc.devRef .tc main_v22) := W8_of_ne m ρ c main_v22 (by decide)
    _ = shapeCast S1x128 (W6 m ρ c (Proc.devRef .tc main_arg11)) shapeCasts_S128_S1x128 := res7_v22 (W6 m ρ c)
    _ = shapeCast S1x128 (m ((c : Thread nD τ).loc main_arg11)) shapeCasts_S128_S1x128 :=
        congrArg (fun (x : FVec Ideal S128 .f32) => shapeCast S1x128 x shapeCasts_S128_S1x128) (launch6 m ρ c main_arg11 (by decide) (by decide) (by decide) (by decide) (by decide) (by decide))

/-- Two one-row matrices the edge region reads through input windows: it leaves them as it found them. -/
theorem V9_v23 (c : Dev nD) : V9 m ρ c main_v23 = shapeCast S1x128 (m ((c : Thread nD τ).loc main_arg18)) shapeCasts_S128_S1x128 :=
  calc W9 m ρ c (Proc.devRef .tc main_v23)
    _ = W8 m ρ c (Proc.devRef .tc main_v23) := keep9 m ρ c main_v23 (by decide)
    _ = V7 m ρ c main_v23 := (W8_arr m ρ c 12).trans (((dat0 (V7 m ρ) c).arrAt_in 12 rfl _).trans (A_eq0 (V7 m ρ) c 12))
    _ = shapeCast S1x128 (m ((c : Thread nD τ).loc main_arg18)) shapeCasts_S128_S1x128 := V7_v23 m ρ c
theorem V9_v24 (c : Dev nD) : V9 m ρ c main_v24 = shapeCast S1x128 (m ((c : Thread nD τ).loc main_arg19)) shapeCasts_S128_S1x128 :=
  calc W9 m ρ c (Proc.devRef .tc main_v24)
    _ = W8 m ρ c (Proc.devRef .tc main_v24) := keep9 m ρ c main_v24 (by decide)
    _ = V7 m ρ c main_v24 := (W8_arr m ρ c 13).trans (((dat0 (V7 m ρ) c).arrAt_in 13 rfl _).trans (A_eq0 (V7 m ρ) c 13))
    _ = shapeCast S1x128 (m ((c : Thread nD τ).loc main_arg19)) shapeCasts_S128_S1x128 := V7_v24 m ρ c

/-- The aggregated messages: the stretch between the regions cuts the edge region's first result to its 600000 rows and
    scatters them, accumulating, into a zero table at the receivers' column; the receivers' vector is as launched. -/
theorem V9_v30 (c : Dev nD) : V9 m ρ c main_v30
    = aggregate (m ((c : Thread nD τ).loc main_arg3)) (cutRows ((dat0 (V7 m ρ) c).arrAt 14 cfg0.N)) :=
  calc W9 m ρ c (Proc.devRef .tc main_v30)
    _ = aggregate (W8 m ρ c (Proc.devRef .tc main_arg3)) (cutRows (W8 m ρ c (Proc.devRef .tc main_v25_0))) := res9_v30 (W8 m ρ c)
    _ = aggregate (m ((c : Thread nD τ).loc main_arg3)) (cutRows ((dat0 (V7 m ρ) c).arrAt 14 cfg0.N)) :=
        congrArg₂ (fun (r : IVec S600000 32) (y : FVec Ideal S600064x128 .f32) => aggregate r (cutRows y))
          (launch8 m ρ c main_arg3 (by decide) (by decide) (by decide) (by decide) (by decide) (by decide) (by decide) (by decide)) (W8_arr m ρ c 14)

/-! ## The result buffers at the last boundary -/

/-- The new node table is the node region's one output array. -/
theorem W10_v31 (c : Dev nD) : W10 m ρ c (Proc.devRef .tc main_v31) = (dat1 (V9 m ρ) c).arrAt 9 cfg1.N := W10_arr m ρ c 9

/-- The new edge array is the cut of the edge region's second result; the node region has it in no window. -/
theorem W10_v27 (c : Dev nD) : W10 m ρ c (Proc.devRef .tc main_v27) = cutRows ((dat0 (V7 m ρ) c).arrAt 15 cfg0.N) :=
  calc W10 m ρ c (Proc.devRef .tc main_v27)
    _ = W9 m ρ c (Proc.devRef .tc main_v27) := W10_of_ne m ρ c main_v27 (by decide)
    _ = cutRows (W8 m ρ c (Proc.devRef .tc main_v25_1)) := res9_v27 (W8 m ρ c)
    _ = cutRows ((dat0 (V7 m ρ) c).arrAt 15 cfg0.N) := congrArg cutRows (W8_arr m ρ c 15)

end Cert.KernelIdeal.Stretch

end
-- ==== Proof.Spec.lean ====
/-
  One message-passing layer of a graph network over the extended reals, row by row.

  Every result row depends on a few rows only.  A message is a two-layer perceptron (a dense layer, the positive part,
  a second dense layer) of the concatenation [sender row | receiver row | edge row].  A new edge row is the layer
  normalisation of  (edge row)·We + perceptron'(concatenation), and a new node row is the layer normalisation of
  (node row)·Wn + perceptron''([node row | aggregated messages of the node]).  The layer normalisation of a row p of
  length L, with the literal n standing for L and the literal eps, is
      (p - mean p) * rsqrt (mean ((p - mean p)²) + eps) * scale + bias,     mean q = (Σ q) / n,
  spelt exactly in this order; the quotient is the ideal quotient of the extended reals.
  The arrays are functions of an index; `row`, `mat` and `vec` read a row of a matrix, a matrix and a vector
  at natural coordinates.
-/
import Idealize.ShloMosaic.PureOps.Ideal
import Idealize.ShloMosaic.Lib.ValueIdx

noncomputable section

namespace Cert.Gnn

open Idealize.ShloMosaic Idealize.ShloMosaic.ValueIdx
open scoped BigOperators

/-- The index set of an [R, C] array. -/
abbrev Ix2 (R C : Nat) := (⟨2, ![R, C]⟩ : Shape).Idx
/-- The index set of a [C] array. -/
abbrev Ix1 (C : Nat) := (⟨1, ![C]⟩ : Shape).Idx

/-- Row r of an [R, C] array. -/
def row {R C : Nat} (x : Ix2 R C → EReal) (r : Fin R) : Fin C → EReal := fun k => x (ix2 r k)
/-- An [K, H] array at natural coordinates. -/
def mat {K H : Nat} (w : Ix2 K H → EReal) : Fin K → Fin H → EReal := fun k h => w (ix2 k h)
/-- A [C] array at a natural coordinate. -/
def vec {C : Nat} (b : Ix1 C → EReal) : Fin C → EReal := fun h => b (ix1 h)
/-- The one row of a [1, C] array. -/
def row0 {C : Nat} (b : Ix2 1 C → EReal) : Fin C → EReal := fun h => b (ix2 (0 : Fin 1) h)

/-- The literal 128.0, the length of a feature row as the programs divide by it. -/
def c128 : EReal := Ideal.ofBits .f32 0x43000000#32
/-- The literal 9.99999997e-7 added to the variance. -/
def ceps : EReal := Ideal.ofBits .f32 0x358637BD#32

/-- A dense layer on one row: x·w + b. -/
def dense {K H : Nat} (x : Fin K → EReal) (w : Fin K → Fin H → EReal) (b : Fin H → EReal) : Fin H → EReal :=
  fun h => (∑ k : Fin K, x k * w k h) + b h
/-- The positive part of a row. -/
def relu {H : Nat} (v : Fin H → EReal) : Fin H → EReal := fun h => max (v h) 0
/-- The two-layer perceptron on one row. -/
def mlp {K H D : Nat} (x : Fin K → EReal) (w1 : Fin K → Fin H → EReal) (b1 : Fin H → EReal)
    (w2 : Fin H → Fin D → EReal) (b2 : Fin D → EReal) : Fin D → EReal :=
  dense (relu (dense x w1 b1)) w2 b2
/-- A projection with no bias on one row: x·w. -/
def proj {K D : Nat} (x : Fin K → EReal) (w : Fin K → Fin D → EReal) : Fin D → EReal := fun d => ∑ k : Fin K, x k * w k d
/-- The mean of a row as the programs take it: the sum divided by the literal n. -/
def mean {L : Nat} (p : Fin L → EReal) (n : EReal) : EReal := Ideal.div (∑ l : Fin L, p l) n
/-- The layer normalisation of one row. -/
def layerNorm {L : Nat} (p : Fin L → EReal) (n eps : EReal) (sc bi : Fin L → EReal) : Fin L → EReal :=
  fun l => (p l - mean p n) * Ideal.rsqrt (mean (fun l' => (p l' - mean p n) * (p l' - mean p n)) n + eps) * sc l + bi l

/-- Three rows of length 128 laid end to end. -/
def cat3 (a b c : Fin 128 → EReal) : Fin 384 → EReal := fun k =>
  if h : k.val < 128 then a ⟨k.val, h⟩ else if h2 : k.val < 256 then b ⟨k.val - 128, by omega⟩ else c ⟨k.val - 256, by omega⟩
/-- Two rows of length 128 laid end to end. -/
def cat2 (a b : Fin 128 → EReal) : Fin 256 → EReal := fun k =>
  if h : k.val < 128 then a ⟨k.val, h⟩ else b ⟨k.val - 128, by omega⟩

/-- The message of one edge. -/
def msgRow (s r e : Fin 128 → EReal) (w1 : Fin 384 → Fin 256 → EReal) (b1 : Fin 256 → EReal)
    (w2 : Fin 256 → Fin 128 → EReal) (b2 : Fin 128 → EReal) : Fin 128 → EReal :=
  mlp (cat3 s r e) w1 b1 w2 b2
/-- The new features of one edge. -/
def edgeRow (s r e : Fin 128 → EReal) (w1 : Fin 384 → Fin 256 → EReal) (b1 : Fin 256 → EReal)
    (w2 : Fin 256 → Fin 128 → EReal) (b2 : Fin 128 → EReal) (We : Fin 128 → Fin 128 → EReal)
    (sc bi : Fin 128 → EReal) : Fin 128 → EReal :=
  layerNorm (fun d => proj e We d + mlp (cat3 s r e) w1 b1 w2 b2 d) c128 ceps sc bi
/-- The new features of one node. -/
def nodeRow (nd ag : Fin 128 → EReal) (w1 : Fin 256 → Fin 256 → EReal) (b1 : Fin 256 → EReal)
    (w2 : Fin 256 → Fin 128 → EReal) (b2 : Fin 128 → EReal) (Wn : Fin 128 → Fin 128 → EReal)
    (sc bi : Fin 128 → EReal) : Fin 128 → EReal :=
  layerNorm (fun d => proj nd Wn d + mlp (cat2 nd ag) w1 b1 w2 b2 d) c128 ceps sc bi

/-- The messages of R edges: row i 0 of the three feature arrays through `msgRow`. -/
def MsgOut {R : Nat} (S Rc E : Ix2 R 128 → EReal) (w1 : Fin 384 → Fin 256 → EReal) (b1 : Fin 256 → EReal)
    (w2 : Fin 256 → Fin 128 → EReal) (b2 : Fin 128 → EReal) : Ix2 R 128 → EReal :=
  fun i => msgRow (row S (i 0)) (row Rc (i 0)) (row E (i 0)) w1 b1 w2 b2 (i 1)
/-- The new features of R edges. -/
def EdgeOut {R : Nat} (S Rc E : Ix2 R 128 → EReal) (w1 : Fin 384 → Fin 256 → EReal) (b1 : Fin 256 → EReal)
    (w2 : Fin 256 → Fin 128 → EReal) (b2 : Fin 128 → EReal) (We : Fin 128 → Fin 128 → EReal)
    (sc bi : Fin 128 → EReal) : Ix2 R 128 → EReal :=
  fun i => edgeRow (row S (i 0)) (row Rc (i 0)) (row E (i 0)) w1 b1 w2 b2 We sc bi (i 1)
/-- The new features of R nodes. -/
def NodeOut {R : Nat} (Nd Ag : Ix2 R 128 → EReal) (w1 : Fin 256 → Fin 256 → EReal) (b1 : Fin 256 → EReal)
    (w2 : Fin 256 → Fin 128 → EReal) (b2 : Fin 128 → EReal) (Wn : Fin 128 → Fin 128 → EReal)
    (sc bi : Fin 128 → EReal) : Ix2 R 128 → EReal :=
  fun i => nodeRow (row Nd (i 0)) (row Ag (i 0)) w1 b1 w2 b2 Wn sc bi (i 1)

/-- At natural coordinates the three array functions read the rows named. -/
theorem MsgOut_apply {R : Nat} (S Rc E : Ix2 R 128 → EReal) (w1 : Fin 384 → Fin 256 → EReal) (b1 : Fin 256 → EReal)
    (w2 : Fin 256 → Fin 128 → EReal) (b2 : Fin 128 → EReal) (p : Fin R) (q : Fin 128) :
    MsgOut S Rc E w1 b1 w2 b2 (ix2 p q) = msgRow (row S p) (row Rc p) (row E p) w1 b1 w2 b2 q := rfl
theorem EdgeOut_apply {R : Nat} (S Rc E : Ix2 R 128 → EReal) (w1 : Fin 384 → Fin 256 → EReal) (b1 : Fin 256 → EReal)
    (w2 : Fin 256 → Fin 128 → EReal) (b2 : Fin 128 → EReal) (We : Fin 128 → Fin 128 → EReal)
    (sc bi : Fin 128 → EReal) (p : Fin R) (q : Fin 128) :
    EdgeOut S Rc E w1 b1 w2 b2 We sc bi (ix2 p q) = edgeRow (row S p) (row Rc p) (row E p) w1 b1 w2 b2 We sc bi q := rfl
theorem NodeOut_apply {R : Nat} (Nd Ag : Ix2 R 128 → EReal) (w1 : Fin 256 → Fin 256 → EReal) (b1 : Fin 256 → EReal)
    (w2 : Fin 256 → Fin 128 → EReal) (b2 : Fin 128 → EReal) (Wn : Fin 128 → Fin 128 → EReal)
    (sc bi : Fin 128 → EReal) (p : Fin R) (q : Fin 128) :
    NodeOut Nd Ag w1 b1 w2 b2 Wn sc bi (ix2 p q) = nodeRow (row Nd p) (row Ag p) w1 b1 w2 b2 Wn sc bi q := rfl

end Cert.Gnn

end
-- ==== Proof.LibRowOps.lean ====
/-
  Reductions along the rows of an [R, L] array, and the column they leave, read at an index over the extended reals.
  A kernel reduces a block's rows with a lane reduction into an [R] vector, casts it to a column [R, 1] and broadcasts the
  column back over the L lanes; a host program reduces the array over axis 1. Each spelling is read here at a row p (and a
  lane c) as a fold or a sum over the row's entries x (p, k), for any extents.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

variable {R L : Nat} {φ : FTy}

/-- The source index over the reduced index p with k inserted on axis 1 is (p, k). -/
theorem lift_row (h : Shape.Reduces ⟨2, ![R, L]⟩ [1] ⟨1, ![R]⟩) (p : Fin R) (k : Fin L) :
    h.lift (ix1 p) k = ix2 p k := by
  funext a
  apply Fin.ext
  match a with
  | ⟨0, _⟩ => rfl
  | ⟨1, _⟩ => rfl

/-- A lane maximum of an [R, L] block at row p: the fold of max from the accumulator's value over the row. -/
theorem laneMax_apply (x : FVec Ideal ⟨2, ![R, L]⟩ φ) (acc : BitVec φ.bits)
    (h : Shape.Reduces ⟨2, ![R, L]⟩ [1] ⟨1, ![R]⟩) (hφ : FKind.Formats φ) (hacc : acc = FKind.maximumf.neutral φ hφ)
    (p : Fin R) :
    multiReduction .maximumf [1] ⟨1, ![R]⟩ x acc h hφ hacc (ix1 p)
      = (Finset.univ : Finset (Fin L)).fold max (Ideal.ofBits φ acc) (fun k => x (ix2 p k)) := by
  rw [Ideal.multiReduction_maximumf_single]
  have e : (x ∘ h.lift (ix1 p)) = fun k : Fin ((⟨2, ![R, L]⟩ : Shape).size 1) => x (ix2 p k) :=
    funext fun k => congrArg x (lift_row h p k)
  rw [e]
  rfl

/-- A lane sum of an [R, L] block at row p: the sum of the row. -/
theorem laneSum_apply (x : FVec Ideal ⟨2, ![R, L]⟩ φ) (acc : BitVec φ.bits)
    (h : Shape.Reduces ⟨2, ![R, L]⟩ [1] ⟨1, ![R]⟩) (hφ : FKind.Formats φ) (hacc : acc = FKind.add.neutral φ hφ)
    (p : Fin R) :
    multiReduction .add [1] ⟨1, ![R]⟩ x acc h hφ hacc (ix1 p) = ∑ k : Fin L, x (ix2 p k) := by
  rw [Ideal.multiReduction_add_single]
  show ∑ k : Fin L, x (h.lift (ix1 p) k) = _
  exact Finset.sum_congr rfl fun k _ => congrArg x (lift_row h p k)

/-- The host's maximum over axis 1 at row p: the fold of max from the initial value over the row. -/
theorem hostRowMax_apply {u : Shape} (x : (⟨2, ![R, L]⟩ : Shape).Idx → Ideal φ) (init : u.Idx → Ideal φ)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduce FloatOps.maximumf x init h' hu (ix1 p)
      = (Finset.univ : Finset (Fin L)).fold max (init (Shape.Idx.first hu)) (fun k => x (ix2 p k)) := by
  rw [Host.reduce_eq_fold_single FloatOps.maximumf x init h' h hu]
  have e : (x ∘ h.lift (ix1 p)) = fun k : Fin ((⟨2, ![R, L]⟩ : Shape).size 1) => x (ix2 p k) :=
    funext fun k => congrArg x (lift_row h p k)
  rw [e]
  rfl

/-- An [R] vector cast to a column [R, 1], at (p, 0). -/
theorem shapeCast_column_apply {α : Type} (v : (⟨1, ![R]⟩ : Shape).Idx → α)
    (h : (⟨1, ![R]⟩ : Shape).ShapeCasts ⟨2, ![R, 1]⟩) (p : Fin R) (z : Fin 1) :
    shapeCast ⟨2, ![R, 1]⟩ v h (ix2 p z) = v (ix1 p) := by
  refine shapeCast_apply v h (ix2 p z) (ix1 p) ?_
  rw [Shape.rowMajor_val_two, Shape.rowMajor_val_one]
  show p.val = p.val * 1 + z.val
  have := z.isLt
  omega

/-- A column [R, 1] broadcast over L lanes, at (p, c): the column's entry at row p. -/
theorem broadcastTo_column_apply {α : Type} (v : (⟨2, ![R, 1]⟩ : Shape).Idx → α)
    (h : (⟨2, ![R, 1]⟩ : Shape).Broadcasts ⟨2, ![R, L]⟩) (p : Fin R) (c : Fin L) :
    broadcastTo ⟨2, ![R, L]⟩ v h (ix2 p c) = v (ix2 p (0 : Fin 1)) := by
  refine broadcastTo_apply v h (ix2 p c) (ix2 p (0 : Fin 1)) fun ax => ?_
  match ax with
  | ⟨0, _⟩ =>
    show p.val = if R = 1 then 0 else p.val
    split
    · have := p.isLt; omega
    · rfl
  | ⟨1, _⟩ => rfl

/-- A one-entry array [1, 1] broadcast to [R, L], at any index: its entry. -/
theorem broadcastTo_one_apply {α : Type} (v : (⟨2, ![1, 1]⟩ : Shape).Idx → α)
    (h : (⟨2, ![1, 1]⟩ : Shape).Broadcasts ⟨2, ![R, L]⟩) (p : Fin R) (c : Fin L) :
    broadcastTo ⟨2, ![R, L]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib

end
-- ==== Proof.LibHostRead.lean ====
/- Host operations of the two programs read at an index, at the ideal instance: a gather of whole rows by a column
   of index words, the accumulating scatter of whole rows (and of single entries) by a column of index words, the
   concatenation of two vectors, the host's column sum and matrix product.  Every statement is over literal-rank
   shapes of arbitrary extents, so both programs (edge lists of 1600000 and of 1700000 entries) use the same lemma. -/
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value

noncomputable section

namespace Cert.HostRead

open Idealize.ShloMosaic Idealize.ShloMosaic.ValueIdx
open scoped BigOperators

/-- A gather of whole rows of an [N × D] table by an [M × 1] column of index words (a table read at a vector of row numbers): row `p` of
    the result is the table's row at the word read signed and clamped into [0, N-1]. -/
theorem rowGather_apply {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![M, 1]⟩ w) (p : Fin M) (q : Fin D) (hN : 0 < N) :
    Host.gather d x idx (ix2 p q) = x (ix2 ⟨min (idx (ix2 p 0)).toInt.toNat (N - 1), by omega⟩ q) := by
  obtain ⟨od, cd, ob, sb, sm, ivd, ss, wf⟩ := d
  subst hoff hcoll hob hsb hsim hivd
  set d : GatherDims ⟨2, ![N, D]⟩ ⟨2, ![M, 1]⟩ ⟨2, ![M, D]⟩ := ⟨[1], [0], [], [], [0], 1, ss, wf⟩ with hd
  have hsl : ss 0 = 1 := d.slice_collapsed 0 (List.mem_singleton.mpr rfl)
  have hb : ∀ a : Fin 2, a ∉ d.operandBatchingDims := fun a => List.not_mem_nil
  unfold Host.gather
  congr 1
  funext a
  refine Fin.ext ?_
  match a with
  | ⟨0, _⟩ =>
    show d.start (ix2 p q) idx 0 + d.batchCoord (ix2 p q) 0 + d.offCoord (ix2 p q) 0 = min (idx (ix2 p 0)).toInt.toNat (N - 1)
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 p q) ⟨List.idxOf (0 : Fin 2) d.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    show min (idx (ix2 p 0)).toInt.toNat (N - ss 0) = _
    rw [hsl]
  | ⟨1, _⟩ =>
    show d.start (ix2 p q) idx 1 + d.batchCoord (ix2 p q) 1 + d.offCoord (ix2 p q) 1 = q.val
    rw [GatherDims.batchCoord_eq_zero _ _ _ (hb 1)]
    have hst : d.start (ix2 p q) idx 1 = 0 := by
      unfold GatherDims.start
      rw [dif_neg (show (1 : Fin 2) ∉ [(0 : Fin 2)] by decide)]
    rw [hst]
    unfold GatherDims.offCoord
    have hk : (1 : Fin 2) ∈ d.sKept := (by decide : (1 : Fin 2) ∈ (List.finRange 2).filter (· ∉ [(0 : Fin 2)] ++ []))
    rw [dif_pos hk]
    simp only [Nat.zero_add]
    rfl

/-- Where an update entry (p, q') of the row scatter lands: on operand axis 0 the start is the index word of row `p`
    read signed and the window coordinate is 0 (the axis is inserted); on axis 1 the start is 0 and the window
    coordinate is `q'`. So it lands at (n, q) exactly when the word is `n` and `q' = q`. -/
theorem row_resultIdx_iff {N M D w : Nat}
    (wf : ScatterDims.WF ⟨2, ![N, D]⟩ ⟨2, ![M, 1]⟩ ⟨2, ![M, D]⟩ [1] [0] [0] 1)
    (idx : IVec ⟨2, ![M, 1]⟩ w) (p : Fin M) (q' : Fin D) (n : Fin N) (q : Fin D) :
    (⟨[1], [0], [0], 1, wf⟩ : ScatterDims ⟨2, ![N, D]⟩ ⟨2, ![M, 1]⟩ ⟨2, ![M, D]⟩).resultIdx? (ix2 p q') idx = some (ix2 n q)
      ↔ (idx (ix2 p 0)).toInt = (n.val : Int) ∧ q' = q := by
  set d : ScatterDims ⟨2, ![N, D]⟩ ⟨2, ![M, 1]⟩ ⟨2, ![M, D]⟩ := ⟨[1], [0], [0], 1, wf⟩ with hd
  have hs0 : d.start (ix2 p q') idx 0 = (idx (ix2 p 0)).toInt := by
    unfold ScatterDims.start
    rw [dif_pos (show (0 : Fin 2) ∈ d.scatterDimsToOperandDims from List.mem_singleton.mpr rfl)]
    congr 2
    funext b; refine Fin.ext ?_
    match b with
    | ⟨0, _⟩ => rfl
    | ⟨1, _⟩ => rfl
  have hs1 : d.start (ix2 p q') idx 1 = 0 := by
    unfold ScatterDims.start
    rw [dif_neg (show (1 : Fin 2) ∉ [(0 : Fin 2)] by decide)]
  have hw0 : d.window (ix2 p q') 0 = 0 := by
    unfold ScatterDims.window
    have hk : (0 : Fin 2) ∉ d.sKept := (by decide : (0 : Fin 2) ∉ (List.finRange 2).filter (· ∉ [(0 : Fin 2)]))
    rw [dif_neg hk]
  have hw1 : d.window (ix2 p q') 1 = q'.val := by
    unfold ScatterDims.window
    have hk : (1 : Fin 2) ∈ d.sKept := (by decide : (1 : Fin 2) ∈ (List.finRange 2).filter (· ∉ [(0 : Fin 2)]))
    rw [dif_pos hk]
    rfl
  unfold ScatterDims.resultIdx?
  split
  · rename_i h
    rw [Option.some.injEq, funext_iff, Fin.forall_fin_two]
    have h0 := h 0
    have h1 := h 1
    rw [hs0, hw0] at h0
    rw [hs1, hw1] at h1
    simp only [Fin.ext_iff, hs0, hs1, hw0, hw1]
    show ((idx (ix2 p 0)).toInt + ((0 : Nat) : Int)).toNat = n.val ∧ ((0 : Int) + (q'.val : Int)).toNat = q.val ↔ _
    constructor
    · rintro ⟨a, b⟩; constructor <;> omega
    · rintro ⟨a, b⟩; constructor <;> omega
  · rename_i h
    constructor
    · intro hh; exact absurd hh (by simp)
    · rintro ⟨a, b⟩
      exfalso; apply h
      rw [Fin.forall_fin_two, hs0, hs1, hw0, hw1]
      have hn : n.val < N := n.isLt
      have hq : q'.val < D := q'.isLt
      refine ⟨⟨by omega, ?_⟩, ⟨by omega, ?_⟩⟩
      · show (idx (ix2 p 0)).toInt + ((0 : Nat) : Int) < (N : Int); omega
      · show (0 : Int) + (q'.val : Int) < (D : Int); omega

/-- The accumulating scatter of the rows of an [M × D] update into an [N × D] operand by an [M × 1] column of index
    words: entry (n, q) gains every update entry (p, q) whose word, read signed, is `n`. -/
theorem rowScatterAdd_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hivd : d.indexVectorDim = 1)
    (x : (⟨2, ![N, D]⟩ : Shape).Idx → EReal) (idx : IVec ⟨2, ![M, 1]⟩ w) (upd : (⟨2, ![M, D]⟩ : Shape).Idx → EReal)
    (n : Fin N) (q : Fin D) :
    Ideal.hostScatterAdd d x idx upd (ix2 n q)
      = x (ix2 n q) + ∑ p : Fin M, if (idx (ix2 p 0)).toInt = (n.val : Int) then upd (ix2 p q) else 0 := by
  obtain ⟨uw, iw, sd, ivd, wf⟩ := d
  subst huw hiw hsd hivd
  unfold Ideal.hostScatterAdd
  congr 1
  rw [Finset.sum_filter, sum_idx2]
  refine Finset.sum_congr rfl fun p _ => ?_
  rw [Finset.sum_congr rfl (fun b _ => if_congr (row_resultIdx_iff wf idx p b n q) rfl rfl)]
  by_cases hI : (idx (ix2 p 0)).toInt = (n.val : Int)
  · simp [hI]
  · simp [hI]

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {R : Type*} [AddCommMonoid R] {n : Nat} (f : (⟨1, ![n]⟩ : Shape).Idx → R) :
    ∑ i, f i = ∑ a : Fin n, f (ix1 a) := by
  rw [← Equiv.sum_comp (idxEquiv1 (n := n)).symm f]
  rfl

/-- Where update entry `p` of the vector scatter lands: the start on the operand's one axis is the index word of row
    `p` read signed, the window coordinate 0. So it lands at `n` exactly when the word is `n`. -/
theorem vec_resultIdx_iff {N M w : Nat}
    (wf : ScatterDims.WF ⟨1, ![N]⟩ ⟨2, ![M, 1]⟩ ⟨1, ![M]⟩ [] [0] [0] 1)
    (idx : IVec ⟨2, ![M, 1]⟩ w) (p : Fin M) (n : Fin N) :
    (⟨[], [0], [0], 1, wf⟩ : ScatterDims ⟨1, ![N]⟩ ⟨2, ![M, 1]⟩ ⟨1, ![M]⟩).resultIdx? (ix1 p) idx = some (ix1 n)
      ↔ (idx (ix2 p 0)).toInt = (n.val : Int) := by
  set d : ScatterDims ⟨1, ![N]⟩ ⟨2, ![M, 1]⟩ ⟨1, ![M]⟩ := ⟨[], [0], [0], 1, wf⟩ with hd
  have hs0 : d.start (ix1 p) idx 0 = (idx (ix2 p 0)).toInt := by
    unfold ScatterDims.start
    rw [dif_pos (show (0 : Fin 1) ∈ d.scatterDimsToOperandDims from List.mem_singleton.mpr rfl)]
    congr 2
    funext b; refine Fin.ext ?_
    match b with
    | ⟨0, _⟩ => rfl
    | ⟨1, _⟩ => rfl
  have hw0 : d.window (ix1 p) 0 = 0 := by
    unfold ScatterDims.window
    have hk : (0 : Fin 1) ∉ d.sKept := (by decide : (0 : Fin 1) ∉ (List.finRange 1).filter (· ∉ [(0 : Fin 1)]))
    rw [dif_neg hk]
  unfold ScatterDims.resultIdx?
  split
  · rename_i h
    rw [Option.some.injEq, funext_iff, Fin.forall_fin_one]
    have h0 := h 0
    rw [hs0, hw0] at h0
    simp only [Fin.ext_iff, hs0, hw0]
    show ((idx (ix2 p 0)).toInt + ((0 : Nat) : Int)).toNat = n.val ↔ _
    constructor
    · intro a; omega
    · intro a; omega
  · rename_i h
    constructor
    · intro hh; exact absurd hh (by simp)
    · intro a
      exfalso; apply h
      rw [Fin.forall_fin_one, hs0, hw0]
      have hn : n.val < N := n.isLt
      refine ⟨by omega, ?_⟩
      show (idx (ix2 p 0)).toInt + ((0 : Nat) : Int) < (N : Int); omega

/-- The same for a vector operand and a vector of updates. -/
theorem vecScatterAdd_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ p : Fin M, if (idx (ix2 p 0)).toInt = (n.val : Int) then upd (ix1 p) else 0 := by
  obtain ⟨uw, iw, sd, ivd, wf⟩ := d
  subst huw hiw hsd hivd
  unfold Ideal.hostScatterAdd
  congr 1
  rw [Finset.sum_filter, sum_idx1]
  exact Finset.sum_congr rfl fun p _ => if_congr (vec_resultIdx_iff wf idx p n) rfl rfl

/-- Two vectors laid end to end, read at a position: the first below its length, the second from there on. -/
theorem concat2_apply {α : Type} {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (j : Fin (A + B)) :
    concatenate (⟨1, ![A + B]⟩ : Shape) 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    exact concatenate_pair_apply_left 0 a b h (ix1 j) rfl (ix1 ⟨j.val, hj⟩) (fun c => by
      match c with
      | ⟨0, _⟩ => rfl)
  · rename_i hj
    exact concatenate_pair_apply_right 0 a b h (ix1 j) rfl rfl (ix1 ⟨j.val - A, by omega⟩)
      (fun c hc => absurd (Subsingleton.elim _ _) hc) (by show j.val - A + A = j.val; omega)

/-- The host's sum of an [N × D] array over its first axis, from the initial value `init`. -/
theorem colReduceAdd_apply {N D : Nat} (h' : (⟨2, ![N, D]⟩ : Shape).ReducesTo [0] ⟨1, ![D]⟩)
    (x : (⟨2, ![N, D]⟩ : Shape).Idx → EReal) (init : EReal) (q : Fin D) :
    Ideal.hostReduceAdd h' x init (ix1 q) = init + ∑ n : Fin N, x (ix2 n q) := by
  have h : (⟨2, ![N, D]⟩ : Shape).Reduces [0] ⟨1, ![D]⟩ := ⟨h'.1, Nat.one_pos, h'.2⟩
  rw [Ideal.hostReduceAdd_single h' h]
  show init + ∑ k : Fin N, x (h.lift (ix1 q) k) = _
  congr 1
  refine Finset.sum_congr rfl fun k _ => ?_
  congr 1
  funext c; refine Fin.ext ?_
  match c with
  | ⟨0, _⟩ => rfl
  | ⟨1, _⟩ => rfl

/-- The host's product of an [N × K] by a [K × D] array (contracting the first's axis 1 with the second's axis 0). -/
theorem dot_apply {N K D : Nat} (d : DotDims ⟨2, ![N, K]⟩ ⟨2, ![K, D]⟩ ⟨2, ![N, D]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, D]⟩ : Shape).Idx → EReal) (n : Fin N) (q : Fin D) :
    (∑ k : d.contr.Idx, l (d.lhsIdx (ix2 n q) k) * r (d.rhsIdx (ix2 n q) k)) = ∑ k : Fin K, l (ix2 n k) * r (ix2 k q) := by
  obtain ⟨lc, rc, ln, rn, lb, rb, wf⟩ := d
  subst hlc hrc hln hrn hlb hrb
  set d : DotDims ⟨2, ![N, K]⟩ ⟨2, ![K, D]⟩ ⟨2, ![N, D]⟩ := ⟨[1], [0], [0], [1], [], [], wf⟩ with hd
  have hr : d.contr.rank = 1 := rfl
  have hs : d.contr.size ⟨0, by omega⟩ = K := rfl
  rw [← Equiv.sum_comp (contrEquiv1 d K hr hs).symm]
  refine Finset.sum_congr rfl fun k _ => ?_
  have hl : d.lhsIdx (ix2 n q) ((contrEquiv1 d K hr hs).symm k) = ix2 n k := by
    funext a; refine Fin.ext ?_
    match a with
    | ⟨0, _⟩ => rfl
    | ⟨1, _⟩ => rfl
  have hr' : d.rhsIdx (ix2 n q) ((contrEquiv1 d K hr hs).symm k) = ix2 k q := by
    funext a; refine Fin.ext ?_
    match a with
    | ⟨0, _⟩ => rfl
    | ⟨1, _⟩ => rfl
  rw [hl, hr']

end Cert.HostRead

end
-- ==== Proof.EdgePay.lean ====
import proofs.«113904_j32109175505235_1_alg».proof.Proof.Gen.KernelIdeal.Skeleton
import proofs.«113904_j32109175505235_1_alg».proof.Proof.Spec
import proofs.«113904_j32109175505235_1_alg».proof.Proof.LibRowOps
import proofs.«113904_j32109175505235_1_alg».proof.Proof.LibHostRead
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgePay

open Cert.KernelIdeal Cert.KernelIdeal.Gen Cert.Gnn Idealize.ShloMosaic Idealize.ShloMosaic.ValueIdx

/-- A product into the zero splat, read at (p, q): the sum over the contracted coordinate. -/
theorem mm_apply {R K D : Nat} {φ₁ φ₂ : FTy} (d : DotDims ⟨2, ![R, K]⟩ ⟨2, ![K, D]⟩ ⟨2, ![R, D]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, D]⟩ φ₂) (p : Fin R) (q : Fin D) :
    matmul d none x w (constant ⟨2, ![R, D]⟩ .f32 0x00000000#32) (ix2 p q) = ∑ k : Fin K, x (ix2 p k) * w (ix2 k q) := by
  refine (Ideal.matmul_constant_zero_apply d none x w (ix2 p q)).trans ?_
  exact Cert.HostRead.dot_apply d hlc hrc hln hrn hlb hrb x w p q

/-- A one-row block cast to itself and broadcast over R rows, read at (p, q): the block's entry (0, q). -/
theorem bias_apply {α : Type} {R H : Nat} (v : (⟨2, ![1, H]⟩ : Shape).Idx → α)
    (h1 : (⟨2, ![1, H]⟩ : Shape).ShapeCasts ⟨2, ![1, H]⟩) (h2 : (⟨2, ![1, H]⟩ : Shape).Broadcasts ⟨2, ![R, H]⟩)
    (p : Fin R) (q : Fin H) :
    broadcastTo ⟨2, ![R, H]⟩ (shapeCast ⟨2, ![1, H]⟩ v h1) h2 (ix2 p q) = v (ix2 (0 : Fin 1) q) := by
  rw [shapeCast_self]
  exact broadcastTo_1b_ab_apply v h2 p q

/-- Three blocks of 128 lanes laid side by side, read at (p, k): the piece that holds lane k, at row p. -/
theorem cat3_apply {R : Nat} (a b c : (⟨2, ![R, 128]⟩ : Shape).Idx → EReal)
    (h : Shape.Concatenates [(⟨2, ![R, 128]⟩ : Shape), ⟨2, ![R, 128]⟩, ⟨2, ![R, 128]⟩] ⟨2, ![R, 384]⟩ 1)
    (p : Fin R) (k : Fin 384) :
    concatenate (⟨2, ![R, 384]⟩ : Shape) 1 [⟨⟨2, ![R, 128]⟩, a⟩, ⟨⟨2, ![R, 128]⟩, b⟩, ⟨⟨2, ![R, 128]⟩, c⟩] h (ix2 p k)
      = cat3 (row a p) (row b p) (row c p) k := by
  unfold cat3
  split
  · rename_i hk
    refine concatenate_apply_piece (t := ⟨2, ![R, 384]⟩) 1 [⟨⟨2, ![R, 128]⟩, a⟩, ⟨⟨2, ![R, 128]⟩, b⟩, ⟨⟨2, ![R, 128]⟩, c⟩] h (ix2 p k) 0 (Nat.zero_lt_succ _) ⟨2, ![R, 128]⟩ a rfl rfl 0 rfl (ix2 p ⟨k.val, hk⟩) ?_ ?_
    · intro b hb
      match b with
      | ⟨0, _⟩ => rfl
      | ⟨1, _⟩ => exact absurd rfl hb
    · show 0 + k.val = k.val
      omega
  · split
    · rename_i hk hk2
      refine concatenate_apply_piece (t := ⟨2, ![R, 384]⟩) 1 [⟨⟨2, ![R, 128]⟩, a⟩, ⟨⟨2, ![R, 128]⟩, b⟩, ⟨⟨2, ![R, 128]⟩, c⟩] h (ix2 p k) 1 (Nat.succ_lt_succ (Nat.zero_lt_succ _)) ⟨2, ![R, 128]⟩ b rfl rfl 128 rfl (ix2 p ⟨k.val - 128, by omega⟩) ?_ ?_
      · intro b hb
        match b with
        | ⟨0, _⟩ => rfl
        | ⟨1, _⟩ => exact absurd rfl hb
      · show 128 + (k.val - 128) = k.val
        omega
    · rename_i hk hk2
      refine concatenate_apply_piece (t := ⟨2, ![R, 384]⟩) 1 [⟨⟨2, ![R, 128]⟩, a⟩, ⟨⟨2, ![R, 128]⟩, b⟩, ⟨⟨2, ![R, 128]⟩, c⟩] h (ix2 p k) 2 (Nat.succ_lt_succ (Nat.succ_lt_succ (Nat.zero_lt_succ _))) ⟨2, ![R, 128]⟩ c rfl rfl 256 rfl (ix2 p ⟨k.val - 256, by omega⟩) ?_ ?_
      · intro b hb
        match b with
        | ⟨0, _⟩ => rfl
        | ⟨1, _⟩ => exact absurd rfl hb
      · show 256 + (k.val - 256) = k.val
        omega

/-- The concatenated input block of the edge kernel, read at (p, k). -/
theorem pay2_apply (x0 x1 x2 : Vec Ideal S1024x128 .f32) (p : Fin 1024) (k : Fin 384) :
    k0_pay2 x0 x1 x2 (ix2 p k) = cat3 (row x0 p) (row x1 p) (row x2 p) k := by
  unfold k0_pay2 k0_pay1
  refine (truncf_apply (ψ := .bf16) (φ := .f32) _ bitsLt_bf16_f32 (ix2 p k)).trans ?_
  rw [shapeCast_self x0, shapeCast_self x1, shapeCast_self x2]
  exact cat3_apply x0 x1 x2 _ p k

/-- The first dense layer of the edge perceptron before its positive part, read at (p, h). -/
theorem pay4_apply (x0 x1 x2 : Vec Ideal S1024x128 .f32) (x7 : Vec Ideal S384x256 .f32) (x8 : Vec Ideal S1x256 .f32)
    (p : Fin 1024) (h : Fin 256) :
    k0_pay4 x0 x1 x2 x7 x8 (ix2 p h) = dense (cat3 (row x0 p) (row x1 p) (row x2 p)) (mat x7) (row0 x8) h := by
  unfold k0_pay4
  refine (addf_apply _ _ (ix2 p h)).trans ?_
  unfold dense
  refine congrArg₂ (· + ·) ?_ ?_
  · refine (mm_apply dot_S1024x384_S384x256_S1024x256_1_0_0_1_n_n rfl rfl rfl rfl rfl rfl _ _ p h).trans ?_
    refine Finset.sum_congr rfl fun k _ => ?_
    refine congrArg₂ (· * ·) (pay2_apply x0 x1 x2 p k) rfl
  · exact bias_apply x8 _ _ p h

/-- The positive part as the kernels take it (a maximum with the splat of the zero word), read at (p, h). -/
theorem relu_apply {R H : Nat} (v : FVec Ideal ⟨2, ![R, H]⟩ .f32) (p : Fin R) (h : Fin H) :
    maximumf v (broadcast ⟨2, ![R, H]⟩ (Scalar.ofBits .f32 0x00000000#32)) (ix2 p h) = max (v (ix2 p h)) 0 := by
  refine (maximumf_apply _ _ (ix2 p h)).trans ?_
  show max (v (ix2 p h)) (Ideal.ofBits .f32 0x00000000#32) = _
  rw [Ideal.ofBits_zero_f32]

/-- The second dense layer on a hidden block: the product with the weights plus the bias row, read at (p, q). -/
theorem dense2_apply (hid : FVec Ideal S1024x256 .f32) (w : Vec Ideal S256x128 .f32) (b : Vec Ideal S1x128 .f32)
    (p : Fin 1024) (q : Fin 128) :
    addf (matmul dot_S1024x256_S256x128_S1024x128_1_0_0_1_n_n none (truncf .bf16 hid bitsLt_bf16_f32)
          (truncf .bf16 w bitsLt_bf16_f32) (constant S1024x128 .f32 0x00000000#32))
        (broadcastTo S1024x128 (shapeCast S1x128 b shapeCasts_S1x128_S1x128) broadcasts_S1x128_S1024x128) (ix2 p q)
      = dense (fun h => hid (ix2 p h)) (mat w) (row0 b) q := by
  refine (addf_apply _ _ (ix2 p q)).trans ?_
  unfold dense
  refine congrArg₂ (· + ·) ?_ (bias_apply b _ _ p q)
  exact mm_apply dot_S1024x256_S256x128_S1024x128_1_0_0_1_n_n rfl rfl rfl rfl rfl rfl _ _ p q

/-- The column of row means of a block as the kernels take it: the lane sums cast to a column and divided by the splat of a word. -/
abbrev muCol {R L : Nat} (v : FVec Ideal ⟨2, ![R, L]⟩ .f32) (w : BitVec 32)
    (hr : Shape.Reduces ⟨2, ![R, L]⟩ [1] ⟨1, ![R]⟩) (hφ : FKind.Formats .f32)
    (hacc : (0x00000000#32 : BitVec 32) = FKind.add.neutral .f32 hφ)
    (hc : (⟨1, ![R]⟩ : Shape).ShapeCasts ⟨2, ![R, 1]⟩) : FVec Ideal ⟨2, ![R, 1]⟩ .f32 :=
  divf (shapeCast ⟨2, ![R, 1]⟩ (multiReduction .add [1] ⟨1, ![R]⟩ v 0x00000000#32 hr hφ hacc) hc)
    (broadcast ⟨2, ![R, 1]⟩ (Scalar.ofBits .f32 w))

/-- The column of row means at (p, z): the mean of row p. -/
theorem muCol_apply {R L : Nat} (v : FVec Ideal ⟨2, ![R, L]⟩ .f32) (w : BitVec 32)
    (hr : Shape.Reduces ⟨2, ![R, L]⟩ [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (p : Fin R) (z : Fin 1) :
    muCol v w hr hφ hacc hc (ix2 p z) = mean (fun l => v (ix2 p l)) (Ideal.ofBits .f32 w) := by
  refine (divf_apply _ _ (ix2 p z)).trans ?_
  unfold mean
  refine congrArg₂ Ideal.div ?_ rfl
  refine (Cert.Lib.shapeCast_column_apply _ hc p z).trans ?_
  exact Cert.Lib.laneSum_apply v _ hr hφ hacc p

/-- A block with its column of row means taken off every lane. -/
abbrev centred {R L : Nat} (v : FVec Ideal ⟨2, ![R, L]⟩ .f32) (w : BitVec 32)
    (hr : Shape.Reduces ⟨2, ![R, L]⟩ [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩) :
    FVec Ideal ⟨2, ![R, L]⟩ .f32 :=
  subf v (broadcastTo ⟨2, ![R, L]⟩ (muCol v w hr hφ hacc hc) hb)

/-- The centred block at (p, l): the entry less the mean of its row. -/
theorem centred_apply {R L : Nat} (v : FVec Ideal ⟨2, ![R, L]⟩ .f32) (w : BitVec 32)
    (hr : Shape.Reduces ⟨2, ![R, L]⟩ [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩)
    (p : Fin R) (l : Fin L) :
    centred v w hr hφ hacc hc hb (ix2 p l)
      = v (ix2 p l) - mean (fun l' => v (ix2 p l')) (Ideal.ofBits .f32 w) := by
  refine (subf_apply _ _ (ix2 p l)).trans ?_
  refine congrArg (v (ix2 p l) - ·) ?_
  refine (Cert.Lib.broadcastTo_column_apply _ hb p l).trans ?_
  exact muCol_apply v w hr hφ hacc hc p 0

/-- The layer normalisation of every row of a block, as the kernels spell it, read at (p, q): the row's mean is taken
    off, the result scaled by the reciprocal root of the mean square of the centred row plus the literal, then by the
    scale row, and the bias row added. -/
theorem ln_apply {R L : Nat} (pre : FVec Ideal ⟨2, ![R, L]⟩ .f32) (sc bi : Vec Ideal ⟨2, ![1, L]⟩ .f32)
    (hr : Shape.Reduces ⟨2, ![R, L]⟩ [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩)
    (h1 : (⟨2, ![1, L]⟩ : Shape).ShapeCasts ⟨2, ![1, L]⟩) (h2 : (⟨2, ![1, L]⟩ : Shape).Broadcasts ⟨2, ![R, L]⟩)
    (p : Fin R) (q : Fin L) :
    addf
        (mulf
          (mulf (centred pre 0x43000000#32 hr hφ hacc hc hb)
            (broadcastTo ⟨2, ![R, L]⟩
              (rsqrt (addf
                (muCol (mulf (centred pre 0x43000000#32 hr hφ hacc hc hb) (centred pre 0x43000000#32 hr hφ hacc hc hb))
                  0x43000000#32 hr hφ hacc hc)
                (broadcast ⟨2, ![R, 1]⟩ (Scalar.ofBits .f32 0x358637BD#32)))) hb))
          (broadcastTo ⟨2, ![R, L]⟩ (shapeCast ⟨2, ![1, L]⟩ sc h1) h2))
        (broadcastTo ⟨2, ![R, L]⟩ (shapeCast ⟨2, ![1, L]⟩ bi h1) h2) (ix2 p q)
      = layerNorm (fun l => pre (ix2 p l)) c128 ceps (row0 sc) (row0 bi) q := by
  refine (addf_apply _ _ (ix2 p q)).trans ?_
  unfold layerNorm
  refine congrArg₂ (· + ·) ?_ (bias_apply bi h1 h2 p q)
  refine (mulf_apply _ _ (ix2 p q)).trans ?_
  refine congrArg₂ (· * ·) ?_ (bias_apply sc h1 h2 p q)
  refine (mulf_apply _ _ (ix2 p q)).trans ?_
  refine congrArg₂ (· * ·) (centred_apply pre _ hr hφ hacc hc hb p q) ?_
  refine (Cert.Lib.broadcastTo_column_apply _ hb p q).trans ?_
  show Ideal.rsqrt (muCol _ 0x43000000#32 hr hφ hacc hc (ix2 p 0) + Ideal.ofBits .f32 0x358637BD#32) = _
  refine congrArg (fun t => Ideal.rsqrt (t + ceps)) ?_
  refine (muCol_apply _ _ hr hφ hacc hc p 0).trans ?_
  refine congrArg (fun f : Fin L → EReal => mean f c128) (funext fun l => ?_)
  refine (mulf_apply _ _ (ix2 p l)).trans ?_
  exact congrArg₂ (· * ·) (centred_apply pre _ hr hφ hacc hc hb p l) (centred_apply pre _ hr hφ hacc hc hb p l)

theorem pay_msg (x0 x1 x2 : Vec Ideal S1024x128 .f32) (x3 : Vec Ideal S384x256 .f32) (x4 : Vec Ideal S1x256 .f32)
    (x5 : Vec Ideal S256x128 .f32) (x6 : Vec Ideal S1x128 .f32) (p : Fin 1024) (q : Fin 128) :
    k0_pay3 x0 x1 x2 x3 x4 x5 x6 (ix2 p q)
      = msgRow (row x0 p) (row x1 p) (row x2 p) (mat x3) (row0 x4) (mat x5) (row0 x6) q := by
  unfold k0_pay3
  refine (dense2_apply _ x5 x6 p q).trans ?_
  unfold msgRow mlp
  refine congrArg (fun v => dense v (mat x5) (row0 x6) q) (funext fun h => ?_)
  refine (relu_apply _ p h).trans ?_
  exact congrArg (max · 0) (pay4_apply x0 x1 x2 x3 x4 p h)

theorem pay_edge (x0 x1 x2 : Vec Ideal S1024x128 .f32) (x7 : Vec Ideal S384x256 .f32) (x8 : Vec Ideal S1x256 .f32)
    (x9 : Vec Ideal S256x128 .f32) (x10 : Vec Ideal S1x128 .f32) (x11 : Vec Ideal S128x128 .f32)
    (x12 x13 : Vec Ideal S1x128 .f32) (p : Fin 1024) (q : Fin 128) :
    k0_pay5 (k0_pay1 x2) (k0_pay4 x0 x1 x2 x7 x8) (Scalar.ofBits .f32 0x00000000#32) x9 x10 x11 x12 x13 (ix2 p q)
      = edgeRow (row x0 p) (row x1 p) (row x2 p) (mat x7) (row0 x8) (mat x9) (row0 x10) (mat x11) (row0 x12) (row0 x13) q := by
  unfold k0_pay5
  refine (ln_apply _ x12 x13 reduces_S1024x128_S1024 (.inl rfl) rfl shapeCasts_S1024_S1024x1
    broadcasts_S1024x1_S1024x128 shapeCasts_S1x128_S1x128 broadcasts_S1x128_S1024x128 p q).trans ?_
  unfold edgeRow
  refine congrArg (fun f : Fin 128 → EReal => layerNorm f c128 ceps (row0 x12) (row0 x13) q) (funext fun d => ?_)
  refine (addf_apply _ _ (ix2 p d)).trans ?_
  refine congrArg₂ (· + ·) ?_ ?_
  · refine (mm_apply dot_S1024x128_S128x128_S1024x128_1_0_0_1_n_n rfl rfl rfl rfl rfl rfl _ _ p d).trans ?_
    unfold proj
    refine Finset.sum_congr rfl fun k _ => ?_
    refine congrArg₂ (· * ·) ?_ rfl
    exact congrFun (shapeCast_self x2 shapeCasts_S1024x128_S1024x128) (ix2 p k)
  · refine (dense2_apply _ x9 x10 p d).trans ?_
    unfold mlp
    refine congrArg (fun v => dense v (mat x9) (row0 x10) d) (funext fun h => ?_)
    refine (relu_apply _ p h).trans ?_
    exact congrArg (max · 0) (pay4_apply x0 x1 x2 x7 x8 p h)

end Cert.KernelIdeal.EdgePay

end
-- ==== Proof.EdgeRegion.lean ====
import proofs.«113904_j32109175505235_1_alg».proof.Proof.Gen.KernelIdeal.Frame
import proofs.«113904_j32109175505235_1_alg».proof.Proof.Spec
import proofs.«113904_j32109175505235_1_alg».proof.Proof.EdgePay
import Idealize.ShloMosaic.PureOps.Ideal
import Idealize.ShloMosaic.Lib.ValueIdx
import Idealize.ShloMosaic.Lib.Pipeline.Value

/-
  The edge region, from blocks to arrays.

  The region walks 586 grid points.  At point t the three row arrays (sender, receiver and edge features, 600064 rows
  of 128 each) are seen through the block of rows 1024·t … 1024·t + 1023, the weights and biases are seen whole, and the
  two results are written back through the block of the same rows.  Entry (p, q) of what point t writes back is the
  message (first result) or the new edge feature (second result) of row 1024·t + p, at lane q: a function of row
  1024·t + p of the three row arrays and of the whole weights only.  Since 586·1024 = 600064 the blocks tile the
  results exactly (row r belongs to point r / 1024), so after the last write-back each result array holds one
  whole-array function of the arrays found at entry: all the messages, and all the new edge features.
-/

set_option maxRecDepth 16384

noncomputable section

namespace Cert.KernelIdeal.EdgeRegion

open Cert.KernelIdeal Cert.KernelIdeal.Gen Cert.Gnn Idealize.ShloMosaic Idealize.ShloMosaic.TcCoe Idealize.SL.Sem Idealize.ShloMosaic.ValueIdx

variable (V : (c : Dev nD) → (b : Ref sig .tc) → Buf (Elt Ideal) ((c : Thread nD τ).loc b))

/-! ## Where each block sits -/

/-- The offsets (0, 0) written as a literal pair are the constant-zero offsets. -/
theorem zero_offsets : (![0, 0] : Fin 2 → Nat) = fun _ => 0 :=
  funext fun a => by match a with | ⟨0, _⟩ => rfl | ⟨1, _⟩ => rfl

/-- The three row arrays and the two results are seen at block (t, 0) at point t. -/
theorem moving_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- The weights and biases are seen at block (0, 0) at every point. -/
theorem fixed_index : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The grid has 586 points. -/
theorem point_lt (t : Fin cfg0.N) : t.val < 586 := by
  have h : t.val < cfg0.N := t.isLt
  have e : cfg0.N = 586 := N_0
  omega

/-- Row p of point t's block is row 1024·t + p, one of the 600064 rows: 585·1024 + 1023 < 600064. -/
theorem row_lt (t : Fin cfg0.N) (p : Fin 1024) : 1024 * t.val + p.val < 600064 := by
  have h := point_lt t
  have hp := p.isLt
  omega

/-! ## The row blocks: row p of the block at point t is row 1024·t + p of the array -/

theorem sender_rows (c : Dev nD) (t : Fin cfg0.N) (p : Fin 1024) :
    row (iblk0 (F := Ideal) V c 0 t : Vec Ideal S1024x128 .f32) p
      = row (V c main_v14 : Vec Ideal S600064x128 .f32) ⟨1024 * t.val + p.val, row_lt t p⟩ := by
  obtain ⟨e0, e1⟩ := (moving_index t).1
  funext k
  show V c main_v14 (((cfg0.win 0).blk t).view.emb (ix2 p k)) = V c main_v14 (ix2 _ k)
  refine congrArg _ (funext fun a => Fin.ext ?_)
  match a with
  | ⟨0, _⟩ => show win0_0.index t (0 : Fin 2) * 1024 + 1 * p.val = 1024 * t.val + p.val; omega
  | ⟨1, _⟩ => show win0_0.index t (1 : Fin 2) * 128 + 1 * k.val = k.val; omega

theorem receiver_rows (c : Dev nD) (t : Fin cfg0.N) (p : Fin 1024) :
    row (iblk0 (F := Ideal) V c 1 t : Vec Ideal S1024x128 .f32) p
      = row (V c main_v15 : Vec Ideal S600064x128 .f32) ⟨1024 * t.val + p.val, row_lt t p⟩ := by
  obtain ⟨e0, e1⟩ := (moving_index t).2.1
  funext k
  show V c main_v15 (((cfg0.win 1).blk t).view.emb (ix2 p k)) = V c main_v15 (ix2 _ k)
  refine congrArg _ (funext fun a => Fin.ext ?_)
  match a with
  | ⟨0, _⟩ => show win0_1.index t (0 : Fin 2) * 1024 + 1 * p.val = 1024 * t.val + p.val; omega
  | ⟨1, _⟩ => show win0_1.index t (1 : Fin 2) * 128 + 1 * k.val = k.val; omega

theorem feature_rows (c : Dev nD) (t : Fin cfg0.N) (p : Fin 1024) :
    row (iblk0 (F := Ideal) V c 2 t : Vec Ideal S1024x128 .f32) p
      = row (V c main_v16 : Vec Ideal S600064x128 .f32) ⟨1024 * t.val + p.val, row_lt t p⟩ := by
  obtain ⟨e0, e1⟩ := (moving_index t).2.2.1
  funext k
  show V c main_v16 (((cfg0.win 2).blk t).view.emb (ix2 p k)) = V c main_v16 (ix2 _ k)
  refine congrArg _ (funext fun a => Fin.ext ?_)
  match a with
  | ⟨0, _⟩ => show win0_2.index t (0 : Fin 2) * 1024 + 1 * p.val = 1024 * t.val + p.val; omega
  | ⟨1, _⟩ => show win0_2.index t (1 : Fin 2) * 128 + 1 * k.val = k.val; omega

/-! ## The weights and biases: the one block, at offsets 0·size + coordinate, is the whole array -/

/-- First layer weights of the message perceptron, [384, 256]. -/
theorem msg_w1_whole (c : Dev nD) (t : Fin cfg0.N) :
    (iblk0 (F := Ideal) V c 3 t : Vec Ideal S384x256 .f32) = (V c main_arg4 : Vec Ideal S384x256 .f32) := by
  obtain ⟨e0, e1⟩ := (fixed_index t).1
  funext j
  show V c main_arg4 (((cfg0.win 3).blk t).view.emb j) = V c main_arg4 j
  refine congrArg _ (funext fun a => Fin.ext ?_)
  match a with
  | ⟨0, _⟩ => show win0_3.index t (0 : Fin 2) * 384 + 1 * (j 0).val = (j 0).val; omega
  | ⟨1, _⟩ => show win0_3.index t (1 : Fin 2) * 256 + 1 * (j 1).val = (j 1).val; omega

/-- First layer bias of the message perceptron, [1, 256]. -/
theorem msg_b1_whole (c : Dev nD) (t : Fin cfg0.N) :
    (iblk0 (F := Ideal) V c 4 t : Vec Ideal S1x256 .f32) = (V c main_v17 : Vec Ideal S1x256 .f32) := by
  obtain ⟨e0, e1⟩ := (fixed_index t).2.1
  funext j
  show V c main_v17 (((cfg0.win 4).blk t).view.emb j) = V c main_v17 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 256 + 1 * (j 1).val = (j 1).val; omega

/-- Second layer weights of the message perceptron, [256, 128]. -/
theorem msg_w2_whole (c : Dev nD) (t : Fin cfg0.N) :
    (iblk0 (F := Ideal) V c 5 t : Vec Ideal S256x128 .f32) = (V c main_arg6 : Vec Ideal S256x128 .f32) := by
  obtain ⟨e0, e1⟩ := (fixed_index t).2.2.1
  funext j
  show V c main_arg6 (((cfg0.win 5).blk t).view.emb j) = V c main_arg6 j
  refine congrArg _ (funext fun a => Fin.ext ?_)
  match a with
  | ⟨0, _⟩ => show win0_5.index t (0 : Fin 2) * 256 + 1 * (j 0).val = (j 0).val; omega
  | ⟨1, _⟩ => show win0_5.index t (1 : Fin 2) * 128 + 1 * (j 1).val = (j 1).val; omega

/-- Second layer bias of the message perceptron, [1, 128]. -/
theorem msg_b2_whole (c : Dev nD) (t : Fin cfg0.N) :
    (iblk0 (F := Ideal) V c 6 t : Vec Ideal S1x128 .f32) = (V c main_v18 : Vec Ideal S1x128 .f32) := by
  obtain ⟨e0, e1⟩ := (fixed_index t).2.2.2.1
  funext j
  show V c main_v18 (((cfg0.win 6).blk t).view.emb j) = V c main_v18 j
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- First layer weights of the edge perceptron, [384, 256]. -/
theorem edge_w1_whole (c : Dev nD) (t : Fin cfg0.N) :
    (iblk0 (F := Ideal) V c 7 t : Vec Ideal S384x256 .f32) = (V c main_arg12 : Vec Ideal S384x256 .f32) := by
  obtain ⟨e0, e1⟩ := (fixed_index t).2.2.2.2.1
  funext j
  show V c main_arg12 (((cfg0.win 7).blk t).view.emb j) = V c main_arg12 j
  refine congrArg _ (funext fun a => Fin.ext ?_)
  match a with
  | ⟨0, _⟩ => show win0_7.index t (0 : Fin 2) * 384 + 1 * (j 0).val = (j 0).val; omega
  | ⟨1, _⟩ => show win0_7.index t (1 : Fin 2) * 256 + 1 * (j 1).val = (j 1).val; omega

/-- First layer bias of the edge perceptron, [1, 256]. -/
theorem edge_b1_whole (c : Dev nD) (t : Fin cfg0.N) :
    (iblk0 (F := Ideal) V c 8 t : Vec Ideal S1x256 .f32) = (V c main_v19 : Vec Ideal S1x256 .f32) := by
  obtain ⟨e0, e1⟩ := (fixed_index t).2.2.2.2.2.1
  funext j
  show V c main_v19 (((cfg0.win 8).blk t).view.emb j) = V c main_v19 j
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 256 + 1 * (j 1).val = (j 1).val; omega

/-- Second layer weights of the edge perceptron, [256, 128]. -/
theorem edge_w2_whole (c : Dev nD) (t : Fin cfg0.N) :
    (iblk0 (F := Ideal) V c 9 t : Vec Ideal S256x128 .f32) = (V c main_arg14 : Vec Ideal S256x128 .f32) := by
  obtain ⟨e0, e1⟩ := (fixed_index t).2.2.2.2.2.2.1
  funext j
  show V c main_arg14 (((cfg0.win 9).blk t).view.emb j) = V c main_arg14 j
  refine congrArg _ (funext fun a => Fin.ext ?_)
  match a with
  | ⟨0, _⟩ => show win0_9.index t (0 : Fin 2) * 256 + 1 * (j 0).val = (j 0).val; omega
  | ⟨1, _⟩ => show win0_9.index t (1 : Fin 2) * 128 + 1 * (j 1).val = (j 1).val; omega

/-- Second layer bias of the edge perceptron, [1, 128]. -/
theorem edge_b2_whole (c : Dev nD) (t : Fin cfg0.N) :
    (iblk0 (F := Ideal) V c 10 t : Vec Ideal S1x128 .f32) = (V c main_v20 : Vec Ideal S1x128 .f32) := by
  obtain ⟨e0, e1⟩ := (fixed_index t).2.2.2.2.2.2.2.1
  funext j
  show V c main_v20 (((cfg0.win 10).blk t).view.emb j) = V c main_v20 j
  refine congrArg _ (funext fun a => Fin.ext ?_)
  match a with
  | ⟨0, _⟩ => show win0_10.index t (0 : Fin 2) * 1 + 1 * (j 0).val = (j 0).val; omega
  | ⟨1, _⟩ => show win0_10.index t (1 : Fin 2) * 128 + 1 * (j 1).val = (j 1).val; omega

/-- The projection of the edge row, [128, 128]. -/
theorem edge_proj_whole (c : Dev nD) (t : Fin cfg0.N) :
    (iblk0 (F := Ideal) V c 11 t : Vec Ideal S128x128 .f32) = (V c main_arg17 : Vec Ideal S128x128 .f32) := by
  obtain ⟨e0, e1⟩ := (fixed_index t).2.2.2.2.2.2.2.2.1
  funext j
  show V c main_arg17 (((cfg0.win 11).blk t).view.emb j) = V c main_arg17 j
  refine congrArg _ (funext fun a => Fin.ext ?_)
  match a with
  | ⟨0, _⟩ => show win0_11.index t (0 : Fin 2) * 128 + 1 * (j 0).val = (j 0).val; omega
  | ⟨1, _⟩ => show win0_11.index t (1 : Fin 2) * 128 + 1 * (j 1).val = (j 1).val; omega

/-- The scale of the layer normalisation, [1, 128]. -/
theorem norm_scale_whole (c : Dev nD) (t : Fin cfg0.N) :
    (iblk0 (F := Ideal) V c 12 t : Vec Ideal S1x128 .f32) = (V c main_v23 : Vec Ideal S1x128 .f32) := by
  obtain ⟨e0, e1⟩ := (fixed_index t).2.2.2.2.2.2.2.2.2.1
  funext j
  show V c main_v23 (((cfg0.win 12).blk t).view.emb j) = V c main_v23 j
  refine congrArg _ (funext fun a => Fin.ext ?_)
  match a with
  | ⟨0, _⟩ => show win0_12.index t (0 : Fin 2) * 1 + 1 * (j 0).val = (j 0).val; omega
  | ⟨1, _⟩ => show win0_12.index t (1 : Fin 2) * 128 + 1 * (j 1).val = (j 1).val; omega

/-- The bias of the layer normalisation, [1, 128]. -/
theorem norm_bias_whole (c : Dev nD) (t : Fin cfg0.N) :
    (iblk0 (F := Ideal) V c 13 t : Vec Ideal S1x128 .f32) = (V c main_v24 : Vec Ideal S1x128 .f32) := by
  obtain ⟨e0, e1⟩ := (fixed_index t).2.2.2.2.2.2.2.2.2.2
  funext j
  show V c main_v24 (((cfg0.win 13).blk t).view.emb j) = V c main_v24 j
  refine congrArg _ (funext fun a => Fin.ext ?_)
  match a with
  | ⟨0, _⟩ => show win0_13.index t (0 : Fin 2) * 1 + 1 * (j 0).val = (j 0).val; omega
  | ⟨1, _⟩ => show win0_13.index t (1 : Fin 2) * 128 + 1 * (j 1).val = (j 1).val; omega

/-! ## The messages -/

/-- Entry (p, q) of the message block at point t is entry (1024·t + p, q) of the message array. -/
theorem msg_entry (t : Fin cfg0.N) (p : Fin 1024) (q : Fin 128) :
    ((cfg0.win 14).blk t).view.emb (ix2 p q)
      = (ix2 (⟨1024 * t.val + p.val, row_lt t p⟩ : Fin 600064) q : S600064x128.Idx) := by
  obtain ⟨e0, e1⟩ := (moving_index t).2.2.2.1
  refine funext fun a => Fin.ext ?_
  match a with
  | ⟨0, _⟩ => show win0_14.index t (0 : Fin 2) * 1024 + 1 * p.val = 1024 * t.val + p.val; omega
  | ⟨1, _⟩ => show win0_14.index t (1 : Fin 2) * 128 + 1 * q.val = q.val; omega

/-- What point t writes back through the first result's block is block t of the messages of all 600064 rows:
    entry (p, q) is the message of row 1024·t + p of the three row arrays at lane q, through the whole weights. -/
theorem msg_flushed (c : Dev nD) (t : Fin cfg0.N) :
    (dat0 (F := Ideal) V c).flushed 14 t
      = ((cfg0.win 14).blk t).view.read (Elt Ideal)
          (MsgOut (R := 600064) (V c main_v14) (V c main_v15) (V c main_v16) (mat (V c main_arg4)) (row0 (V c main_v17))
            (mat (V c main_arg6)) (row0 (V c main_v18))) := by
  show (cfg0.win 14).cut (grid0.coords t) ((dat0 V c).after 14 t) = _
  rw [after0_14]
  unfold out0_14
  rw [View.canon_unit_zero zero_offsets]
  simp only [View.ld_unit_zero (S := S1024x128) zero_offsets, View.ld_unit_zero (S := S384x256) zero_offsets,
    View.ld_unit_zero (S := S1x256) zero_offsets, View.ld_unit_zero (S := S256x128) zero_offsets,
    View.ld_unit_zero (S := S1x128) zero_offsets]
  funext j
  obtain ⟨p, q, rfl⟩ : ∃ (p : Fin 1024) (q : Fin 128), j = ix2 p q := ⟨j 0, j 1, eq_ix2 j⟩
  refine (EdgePay.pay_msg _ _ _ _ _ _ _ p q).trans ?_
  show _ = MsgOut (R := 600064) _ _ _ _ _ _ _ (((cfg0.win 14).blk t).view.emb (ix2 p q))
  rw [msg_entry t p q, MsgOut_apply, sender_rows V c t p, receiver_rows V c t p, feature_rows V c t p,
    msg_w1_whole V c t, msg_b1_whole V c t, msg_w2_whole V c t, msg_b2_whole V c t]

/-- An index of the message array lies in point t's block iff each coordinate lies in the block's span on its axis. -/
theorem msg_mem (t : Fin cfg0.N) (i : S600064x128.Idx) :
    i ∈ ((cfg0.win 14).blk t).view.set
      ↔ ∀ a : Fin 2, win0_14.index t a * S1024x128.size a ≤ (i a).val
          ∧ (i a).val < win0_14.index t a * S1024x128.size a + S1024x128.size a := by
  show i ∈ ((View.whole main_v25_0).slice (win0_14.rect t)).set ↔ _
  rw [View.set_slice_whole, Rect.mem_set_unit]
  exact Iff.rfl

/-- Every index of the message array is written back by some point: row r by point r / 1024. -/
theorem msg_cover (i : S600064x128.Idx) :
    ∃ t : Fin cfg0.N, (cfg0.win 14).flush t = true ∧ i ∈ ((cfg0.win 14).blk t).view.set := by
  have hi0 : (i 0).val < 600064 := (i 0).isLt
  have hi1 : (i 1).val < 128 := (i 1).isLt
  have hN : (i 0).val / 1024 < cfg0.N := Nat.lt_of_lt_of_eq (by omega : (i 0).val / 1024 < 586) N_0.symm
  have hv : (⟨(i 0).val / 1024, hN⟩ : Fin cfg0.N).val = (i 0).val / 1024 := rfl
  obtain ⟨e0, e1⟩ := (moving_index ⟨(i 0).val / 1024, hN⟩).2.2.2.1
  refine ⟨⟨(i 0).val / 1024, hN⟩, flush0_14 _, ?_⟩
  rw [msg_mem]
  intro a
  match a with
  | ⟨0, _⟩ =>
    show win0_14.index ⟨(i 0).val / 1024, hN⟩ (0 : Fin 2) * 1024 ≤ (i 0).val
      ∧ (i 0).val < win0_14.index ⟨(i 0).val / 1024, hN⟩ (0 : Fin 2) * 1024 + 1024
    rw [e0, hv]; omega
  | ⟨1, _⟩ =>
    show win0_14.index ⟨(i 0).val / 1024, hN⟩ (1 : Fin 2) * 128 ≤ (i 1).val
      ∧ (i 1).val < win0_14.index ⟨(i 0).val / 1024, hN⟩ (1 : Fin 2) * 128 + 128
    rw [e1]; omega

theorem msg_final (c : Dev nD) :
    (dat0 (F := Ideal) V c).arrAt 14 cfg0.N
      = MsgOut (R := 600064) (V c main_v14) (V c main_v15) (V c main_v16) (mat (V c main_arg4)) (row0 (V c main_v17))
          (mat (V c main_arg6)) (row0 (V c main_v18)) :=
  (dat0 V c).arrAt_eq_of_cover 14 _ (fun t _ => msg_flushed V c t) msg_cover

/-! ## The new edge features -/

/-- Entry (p, q) of the edge block at point t is entry (1024·t + p, q) of the edge array. -/
theorem edge_entry (t : Fin cfg0.N) (p : Fin 1024) (q : Fin 128) :
    ((cfg0.win 15).blk t).view.emb (ix2 p q)
      = (ix2 (⟨1024 * t.val + p.val, row_lt t p⟩ : Fin 600064) q : S600064x128.Idx) := by
  obtain ⟨e0, e1⟩ := (moving_index t).2.2.2.2
  refine funext fun a => Fin.ext ?_
  match a with
  | ⟨0, _⟩ => show win0_15.index t (0 : Fin 2) * 1024 + 1 * p.val = 1024 * t.val + p.val; omega
  | ⟨1, _⟩ => show win0_15.index t (1 : Fin 2) * 128 + 1 * q.val = q.val; omega

/-- What point t writes back through the second result's block is block t of the new features of all 600064 rows:
    entry (p, q) is the normalised sum of the projected edge row and the perceptron of row 1024·t + p, at lane q. -/
theorem edge_flushed (c : Dev nD) (t : Fin cfg0.N) :
    (dat0 (F := Ideal) V c).flushed 15 t
      = ((cfg0.win 15).blk t).view.read (Elt Ideal)
          (EdgeOut (R := 600064) (V c main_v14) (V c main_v15) (V c main_v16) (mat (V c main_arg12)) (row0 (V c main_v19))
            (mat (V c main_arg14)) (row0 (V c main_v20)) (mat (V c main_arg17)) (row0 (V c main_v23))
            (row0 (V c main_v24))) := by
  show (cfg0.win 15).cut (grid0.coords t) ((dat0 V c).after 15 t) = _
  rw [after0_15]
  unfold out0_15
  rw [View.canon_unit_zero zero_offsets]
  simp only [View.ld_unit_zero (S := S1024x128) zero_offsets, View.ld_unit_zero (S := S384x256) zero_offsets,
    View.ld_unit_zero (S := S1x256) zero_offsets, View.ld_unit_zero (S := S256x128) zero_offsets,
    View.ld_unit_zero (S := S1x128) zero_offsets, View.ld_unit_zero (S := S128x128) zero_offsets]
  funext j
  obtain ⟨p, q, rfl⟩ : ∃ (p : Fin 1024) (q : Fin 128), j = ix2 p q := ⟨j 0, j 1, eq_ix2 j⟩
  refine (EdgePay.pay_edge _ _ _ _ _ _ _ _ _ _ p q).trans ?_
  show _ = EdgeOut (R := 600064) _ _ _ _ _ _ _ _ _ _ (((cfg0.win 15).blk t).view.emb (ix2 p q))
  rw [edge_entry t p q, EdgeOut_apply, sender_rows V c t p, receiver_rows V c t p, feature_rows V c t p,
    edge_w1_whole V c t, edge_b1_whole V c t, edge_w2_whole V c t, edge_b2_whole V c t, edge_proj_whole V c t,
    norm_scale_whole V c t, norm_bias_whole V c t]

/-- An index of the edge array lies in point t's block iff each coordinate lies in the block's span on its axis. -/
theorem edge_mem (t : Fin cfg0.N) (i : S600064x128.Idx) :
    i ∈ ((cfg0.win 15).blk t).view.set
      ↔ ∀ a : Fin 2, win0_15.index t a * S1024x128.size a ≤ (i a).val
          ∧ (i a).val < win0_15.index t a * S1024x128.size a + S1024x128.size a := by
  show i ∈ ((View.whole main_v25_1).slice (win0_15.rect t)).set ↔ _
  rw [View.set_slice_whole, Rect.mem_set_unit]
  exact Iff.rfl

/-- Every index of the edge array is written back by some point: row r by point r / 1024. -/
theorem edge_cover (i : S600064x128.Idx) :
    ∃ t : Fin cfg0.N, (cfg0.win 15).flush t = true ∧ i ∈ ((cfg0.win 15).blk t).view.set := by
  have hi0 : (i 0).val < 600064 := (i 0).isLt
  have hi1 : (i 1).val < 128 := (i 1).isLt
  have hN : (i 0).val / 1024 < cfg0.N := Nat.lt_of_lt_of_eq (by omega : (i 0).val / 1024 < 586) N_0.symm
  have hv : (⟨(i 0).val / 1024, hN⟩ : Fin cfg0.N).val = (i 0).val / 1024 := rfl
  obtain ⟨e0, e1⟩ := (moving_index ⟨(i 0).val / 1024, hN⟩).2.2.2.2
  refine ⟨⟨(i 0).val / 1024, hN⟩, flush0_15 _, ?_⟩
  rw [edge_mem]
  intro a
  match a with
  | ⟨0, _⟩ =>
    show win0_15.index ⟨(i 0).val / 1024, hN⟩ (0 : Fin 2) * 1024 ≤ (i 0).val
      ∧ (i 0).val < win0_15.index ⟨(i 0).val / 1024, hN⟩ (0 : Fin 2) * 1024 + 1024
    rw [e0, hv]; omega
  | ⟨1, _⟩ =>
    show win0_15.index ⟨(i 0).val / 1024, hN⟩ (1 : Fin 2) * 128 ≤ (i 1).val
      ∧ (i 1).val < win0_15.index ⟨(i 0).val / 1024, hN⟩ (1 : Fin 2) * 128 + 128
    rw [e1]; omega

theorem edge_final (c : Dev nD) :
    (dat0 (F := Ideal) V c).arrAt 15 cfg0.N
      = EdgeOut (R := 600064) (V c main_v14) (V c main_v15) (V c main_v16) (mat (V c main_arg12)) (row0 (V c main_v19))
          (mat (V c main_arg14)) (row0 (V c main_v20)) (mat (V c main_arg17)) (row0 (V c main_v23)) (row0 (V c main_v24)) :=
  (dat0 V c).arrAt_eq_of_cover 15 _ (fun t _ => edge_flushed V c t) edge_cover

end Cert.KernelIdeal.EdgeRegion

end
-- ==== Proof.NodePay.lean ====
/-
  The node block's stored value read at an index (p, q).  The block body concatenates the node rows and the aggregate
  rows along the lanes, applies a dense layer, the positive part and a second dense layer, adds the bias-free product
  (node rows)·Wn, and normalises every row: the row mean is the lane sum over the literal 128, the deviation is the value
  less that mean, the variance is the lane sum of the squared deviations over the same literal, and the result is
  deviation · rsqrt (variance + eps) · scale + bias.  Each operation is read here at one entry: a product into the zero
  block is the sum along the contracted axis, a one-row block broadcast over the rows is that row, the concatenation is
  the case split on the lane, and a lane sum cast to a column and broadcast back is the sum of the row.  Read this way
  the stored value at (p, q) is the specification's row function of row p of the inputs, term for term.
-/
import proofs.«113904_j32109175505235_1_alg».proof.Proof.Gen.KernelIdeal.Skeleton
import proofs.«113904_j32109175505235_1_alg».proof.Proof.Spec
import proofs.«113904_j32109175505235_1_alg».proof.Proof.LibRowOps
import proofs.«113904_j32109175505235_1_alg».proof.Proof.LibHostRead
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodePay

open Cert.KernelIdeal Cert.KernelIdeal.Gen Cert.Gnn Idealize.ShloMosaic Idealize.ShloMosaic.ValueIdx

open scoped BigOperators

/-- A product into the zero splat read at (p, q): the sum of the products along the contracted axis. -/
theorem mm_apply {N K D : Nat} {φ₁ φ₂ : FTy} (d : DotDims ⟨2, ![N, K]⟩ ⟨2, ![K, D]⟩ ⟨2, ![N, D]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![N, K]⟩ φ₁) (w : FVec Ideal ⟨2, ![K, D]⟩ φ₂) (p : Fin N) (q : Fin D) :
    matmul d none x w (constant (F := Ideal) ⟨2, ![N, D]⟩ .f32 0x00000000#32) (ix2 p q)
      = ∑ k : Fin K, x (ix2 p k) * w (ix2 k q) := by
  refine (Ideal.matmul_constant_zero_apply d none x w (ix2 p q)).trans ?_
  exact Cert.HostRead.dot_apply d hlc hrc hln hrn hlb hrb x w p q

/-- A one-row block broadcast over R rows, read at (p, q): the block at (0, q). -/
theorem bias_apply {R H : Nat} {α : Type} (b : (⟨2, ![1, H]⟩ : Shape).Idx → α)
    (hb : (⟨2, ![1, H]⟩ : Shape).Broadcasts ⟨2, ![R, H]⟩) (p : Fin R) (q : Fin H) :
    broadcastTo ⟨2, ![R, H]⟩ b hb (ix2 p q) = b (ix2 (0 : Fin 1) q) := by
  refine broadcastTo_apply b hb (ix2 p q) (ix2 (0 : Fin 1) q) fun ax => ?_
  match ax with
  | ⟨0, _⟩ => rfl
  | ⟨1, _⟩ =>
    show q.val = if H = 1 then 0 else q.val
    split
    · have := q.isLt; omega
    · rfl

/-- Two blocks of 128 lanes laid side by side, read at (p, k): the left block's row p below lane 128, the right
    block's row p from lane 128 on. -/
theorem concat2_apply {R : Nat} (a b : (⟨2, ![R, 128]⟩ : Shape).Idx → EReal)
    (h : Shape.Concatenates [(⟨2, ![R, 128]⟩ : Shape), ⟨2, ![R, 128]⟩] ⟨2, ![R, 256]⟩ 1) (p : Fin R) (k : Fin 256) :
    concatenate ⟨2, ![R, 256]⟩ 1 [⟨⟨2, ![R, 128]⟩, a⟩, ⟨⟨2, ![R, 128]⟩, b⟩] h (ix2 p k) = cat2 (row a p) (row b p) k := by
  unfold cat2 row
  by_cases hk : k.val < 128
  · rw [dif_pos hk]
    refine concatenate_pair_apply_left 1 a b h (ix2 p k) rfl (ix2 p ⟨k.val, hk⟩) fun c => ?_
    match c with
    | ⟨0, _⟩ => rfl
    | ⟨1, _⟩ => rfl
  · rw [dif_neg hk]
    refine concatenate_pair_apply_right 1 a b h (ix2 p k) rfl rfl (ix2 p ⟨k.val - 128, by omega⟩) (fun c hc => ?_) ?_
    · match c with
      | ⟨0, _⟩ => rfl
      | ⟨1, _⟩ => exact absurd rfl hc
    · show k.val - 128 + 128 = k.val
      omega

/-- The lane sum of an [R, L] block cast to a column, read at (p, 0): the sum of row p. -/
theorem colSum_apply {R L : Nat} {φ : FTy} (x : FVec Ideal ⟨2, ![R, L]⟩ φ) (acc : BitVec φ.bits)
    (h : Shape.Reduces ⟨2, ![R, L]⟩ [1] ⟨1, ![R]⟩) (hφ : FKind.Formats φ) (hacc : acc = FKind.add.neutral φ hφ)
    (hc : (⟨1, ![R]⟩ : Shape).ShapeCasts ⟨2, ![R, 1]⟩) (p : Fin R) (z : Fin 1) :
    shapeCast ⟨2, ![R, 1]⟩ (multiReduction .add [1] ⟨1, ![R]⟩ x acc h hφ hacc) hc (ix2 p z) = ∑ k : Fin L, x (ix2 p k) :=
  (Cert.Lib.shapeCast_column_apply _ hc p z).trans (Cert.Lib.laneSum_apply x acc h hφ hacc p)

/-- The stored value at (p, q) in terms of the four column blocks and the two one-row blocks it reads:
    (pre − mean) · rsqrt (sum of squares / n + eps) · scale + bias, every column read at row p and every
    one-row block at lane q. -/
theorem pay1_apply (v26 : FVec Ideal S1000x128 .f32) (v30 v35 v36 : FVec Ideal S1000x1 .f32) (v45 v49 : Vec Ideal S1x128 .f32)
    (p : Fin 1000) (q : Fin 128) :
    k1_pay1 v26 v30 v35 v36 v45 v49 (ix2 p q)
      = (v26 (ix2 p q) - v30 (ix2 p (0 : Fin 1))) * Ideal.rsqrt (Ideal.div (v35 (ix2 p (0 : Fin 1))) (v36 (ix2 p (0 : Fin 1))) + ceps)
          * v45 (ix2 (0 : Fin 1) q) + v49 (ix2 (0 : Fin 1) q) := by
  unfold k1_pay1
  simp only [addf_apply, mulf_apply, subf_apply, shapeCast_self, bias_apply, Cert.Lib.broadcastTo_column_apply]
  rfl

/-- The value before the normalisation at (p, q): (node row p)·Wn plus the perceptron of [node row p | aggregate row p]. -/
theorem pay2_apply (x0 x1 : Vec Ideal S1000x128 .f32) (x2 : Vec Ideal S256x256 .f32) (x3 : Vec Ideal S1x256 .f32)
    (x4 : Vec Ideal S256x128 .f32) (x5 : Vec Ideal S1x128 .f32) (x6 : Vec Ideal S128x128 .f32) (p : Fin 1000) (q : Fin 128) :
    k1_pay2 x0 x1 x2 x3 x4 x5 x6 (ix2 p q)
      = proj (row x0 p) (mat x6) q + mlp (cat2 (row x0 p) (row x1 p)) (mat x2) (row0 x3) (mat x4) (row0 x5) q := by
  unfold k1_pay2
  simp only [addf_apply, maximumf_apply, truncf_apply, broadcast_apply, bias_apply, shapeCast_self, concat2_apply,
    mm_apply dot_S1000x128_S128x128_S1000x128_1_0_0_1_n_n rfl rfl rfl rfl rfl rfl,
    mm_apply dot_S1000x256_S256x128_S1000x128_1_0_0_1_n_n rfl rfl rfl rfl rfl rfl,
    mm_apply dot_S1000x256_S256x256_S1000x256_1_0_0_1_n_n rfl rfl rfl rfl rfl rfl,
    Ideal.ofBits_def, Ideal.ofBits_zero_f32]
  rfl

/-- The column of row means at (p, 0): the sum of row p of the value before the normalisation, over the literal 128. -/
theorem pay3_apply (x0 x1 : Vec Ideal S1000x128 .f32) (x2 : Vec Ideal S256x256 .f32) (x3 : Vec Ideal S1x256 .f32)
    (x4 : Vec Ideal S256x128 .f32) (x5 : Vec Ideal S1x128 .f32) (x6 : Vec Ideal S128x128 .f32) (p : Fin 1000) (z : Fin 1) :
    k1_pay3 x0 x1 x2 x3 x4 x5 x6 (ix2 p z)
      = mean (fun d => proj (row x0 p) (mat x6) d + mlp (cat2 (row x0 p) (row x1 p)) (mat x2) (row0 x3) (mat x4) (row0 x5) d) c128 := by
  unfold k1_pay3
  simp only [divf_apply, broadcast_apply]
  refine congrArg₂ Ideal.div ((colSum_apply _ _ _ _ _ _ p z).trans ?_) rfl
  exact Finset.sum_congr rfl fun k _ => pay2_apply x0 x1 x2 x3 x4 x5 x6 p k

/-- The column of summed squared deviations at (p, 0): the sum over row p of (value − row mean)². -/
theorem pay4_apply (x0 x1 : Vec Ideal S1000x128 .f32) (x2 : Vec Ideal S256x256 .f32) (x3 : Vec Ideal S1x256 .f32)
    (x4 : Vec Ideal S256x128 .f32) (x5 : Vec Ideal S1x128 .f32) (x6 : Vec Ideal S128x128 .f32) (p : Fin 1000) (z : Fin 1) :
    k1_pay4 x0 x1 x2 x3 x4 x5 x6 (ix2 p z)
      = ∑ l : Fin 128,
          (proj (row x0 p) (mat x6) l + mlp (cat2 (row x0 p) (row x1 p)) (mat x2) (row0 x3) (mat x4) (row0 x5) l
            - mean (fun d => proj (row x0 p) (mat x6) d + mlp (cat2 (row x0 p) (row x1 p)) (mat x2) (row0 x3) (mat x4) (row0 x5) d) c128)
          * (proj (row x0 p) (mat x6) l + mlp (cat2 (row x0 p) (row x1 p)) (mat x2) (row0 x3) (mat x4) (row0 x5) l
            - mean (fun d => proj (row x0 p) (mat x6) d + mlp (cat2 (row x0 p) (row x1 p)) (mat x2) (row0 x3) (mat x4) (row0 x5) d) c128) := by
  unfold k1_pay4
  refine (colSum_apply _ _ _ _ _ _ p z).trans ?_
  refine Finset.sum_congr rfl fun l _ => ?_
  simp only [mulf_apply, subf_apply, Cert.Lib.broadcastTo_column_apply, pay2_apply, pay3_apply]

/-- The column of the literal 128 at any index. -/
theorem pay5_apply (i : S1000x1.Idx) : k1_pay5 (F := Ideal) i = c128 := rfl

/-- The stored value of the node block at (p, q) is the specification's new node row of row p, at lane q. -/
theorem pay_node (x0 x1 : Vec Ideal S1000x128 .f32) (x2 : Vec Ideal S256x256 .f32) (x3 : Vec Ideal S1x256 .f32)
    (x4 : Vec Ideal S256x128 .f32) (x5 : Vec Ideal S1x128 .f32) (x6 : Vec Ideal S128x128 .f32)
    (x7 x8 : Vec Ideal S1x128 .f32) (p : Fin 1000) (q : Fin 128) :
    k1_pay1 (k1_pay2 x0 x1 x2 x3 x4 x5 x6) (k1_pay3 x0 x1 x2 x3 x4 x5 x6) (k1_pay4 x0 x1 x2 x3 x4 x5 x6) (k1_pay5 (F := Ideal)) x7 x8 (ix2 p q)
      = nodeRow (row x0 p) (row x1 p) (mat x2) (row0 x3) (mat x4) (row0 x5) (mat x6) (row0 x7) (row0 x8) q := by
  rw [pay1_apply, pay2_apply, pay3_apply, pay4_apply, pay5_apply]
  rfl

end Cert.KernelIdeal.NodePay

end
-- ==== Proof.NodeRegion.lean ====
import proofs.«113904_j32109175505235_1_alg».proof.Proof.Gen.KernelIdeal.Frame
import proofs.«113904_j32109175505235_1_alg».proof.Proof.Spec
import proofs.«113904_j32109175505235_1_alg».proof.Proof.NodePay
import Idealize.ShloMosaic.PureOps.Ideal
import Idealize.ShloMosaic.Lib.ValueIdx
import Idealize.ShloMosaic.Lib.Pipeline.Value

set_option maxRecDepth 16384

noncomputable section

namespace Cert.KernelIdeal.NodeRegion

open Cert.KernelIdeal Cert.KernelIdeal.Gen Cert.Gnn Idealize.ShloMosaic Idealize.ShloMosaic.TcCoe Idealize.SL.Sem Idealize.ShloMosaic.ValueIdx

variable (V : (c : Dev nD) → (b : Ref sig .tc) → Buf (Elt Ideal) ((c : Thread nD τ).loc b))

/-- A whole-block access starts at offset zero on both axes. -/
theorem zero_offsets : (![0, 0] : Fin 2 → Nat) = fun _ => 0 := funext fun a => by
  match a with
  | ⟨0, _⟩ => rfl
  | ⟨1, _⟩ => rfl

/-- The block indices over the fifty grid points: the two row windows and the output take block (t, 0),
    every weight, bias and scale window takes block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The grid has fifty points, so row 1000 t + p of a point's block is a row of the 50000-row arrays. -/
theorem row_lt (t : Fin cfg1.N) (p : Fin 1000) : 1000 * t.val + p.val < 50000 := by
  have hN : cfg1.N = 50 := N_1
  have ht : t.val < cfg1.N := t.isLt
  have hp : p.val < 1000 := p.isLt
  omega

/-- Row p of the node features' block at point t is row 1000 t + p of the array. -/
theorem feat_rows (c : Dev nD) (t : Fin cfg1.N) (p : Fin 1000) :
    row (iblk1 (F := Ideal) V c 0 t : Vec Ideal S1000x128 .f32) p
      = row (V c main_arg0 : Vec Ideal S50000x128 .f32) ⟨1000 * t.val + p.val, row_lt t p⟩ := by
  obtain ⟨e0, e1, -⟩ := block_index t
  funext k
  show V c main_arg0 (((cfg1.win 0).blk t).view.emb (ix2 p k)) = V c main_arg0 (ix2 ⟨1000 * t.val + p.val, row_lt t p⟩ k)
  refine congrArg _ (funext fun a => Fin.ext ?_)
  match a with
  | ⟨0, _⟩ => show win1_0.index t (0 : Fin 2) * 1000 + 1 * p.val = 1000 * t.val + p.val; omega
  | ⟨1, _⟩ => show win1_0.index t (1 : Fin 2) * 128 + 1 * k.val = k.val; omega

/-- Row p of the aggregated messages' block at point t is row 1000 t + p of the array. -/
theorem aggr_rows (c : Dev nD) (t : Fin cfg1.N) (p : Fin 1000) :
    row (iblk1 (F := Ideal) V c 1 t : Vec Ideal S1000x128 .f32) p
      = row (V c main_v30 : Vec Ideal S50000x128 .f32) ⟨1000 * t.val + p.val, row_lt t p⟩ := by
  obtain ⟨-, -, e0, e1, -⟩ := block_index t
  funext k
  show V c main_v30 (((cfg1.win 1).blk t).view.emb (ix2 p k)) = V c main_v30 (ix2 ⟨1000 * t.val + p.val, row_lt t p⟩ k)
  refine congrArg _ (funext fun a => Fin.ext ?_)
  match a with
  | ⟨0, _⟩ => show win1_1.index t (0 : Fin 2) * 1000 + 1 * p.val = 1000 * t.val + p.val; omega
  | ⟨1, _⟩ => show win1_1.index t (1 : Fin 2) * 128 + 1 * k.val = k.val; omega

/-- The first layer's weights are read whole at every point. -/
theorem w1_whole (c : Dev nD) (t : Fin cfg1.N) :
    mat (iblk1 (F := Ideal) V c 2 t : Vec Ideal S256x256 .f32) = mat (V c main_arg8 : Vec Ideal S256x256 .f32) := by
  obtain ⟨-, -, -, -, e0, e1, -⟩ := block_index t
  funext k h
  show V c main_arg8 (((cfg1.win 2).blk t).view.emb (ix2 k h)) = V c main_arg8 (ix2 k h)
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * h.val = h.val; omega

/-- The first layer's bias row is read whole at every point. -/
theorem b1_whole (c : Dev nD) (t : Fin cfg1.N) :
    row0 (iblk1 (F := Ideal) V c 3 t : Vec Ideal S1x256 .f32) = row0 (V c main_v21 : Vec Ideal S1x256 .f32) := by
  obtain ⟨-, -, -, -, -, -, e0, e1, -⟩ := block_index t
  funext h
  show V c main_v21 (((cfg1.win 3).blk t).view.emb (ix2 (0 : Fin 1) h)) = V c main_v21 (ix2 (0 : Fin 1) h)
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 256 + 1 * h.val = h.val; omega

/-- The second layer's weights are read whole at every point. -/
theorem w2_whole (c : Dev nD) (t : Fin cfg1.N) :
    mat (iblk1 (F := Ideal) V c 4 t : Vec Ideal S256x128 .f32) = mat (V c main_arg10 : Vec Ideal S256x128 .f32) := by
  obtain ⟨-, -, -, -, -, -, -, -, e0, e1, -⟩ := block_index t
  funext k h
  show V c main_arg10 (((cfg1.win 4).blk t).view.emb (ix2 k h)) = V c main_arg10 (ix2 k h)
  refine congrArg _ (funext fun a => Fin.ext ?_)
  match a with
  | ⟨0, _⟩ => show win1_4.index t (0 : Fin 2) * 256 + 1 * k.val = k.val; omega
  | ⟨1, _⟩ => show win1_4.index t (1 : Fin 2) * 128 + 1 * h.val = h.val; omega

/-- The second layer's bias row is read whole at every point. -/
theorem b2_whole (c : Dev nD) (t : Fin cfg1.N) :
    row0 (iblk1 (F := Ideal) V c 5 t : Vec Ideal S1x128 .f32) = row0 (V c main_v22 : Vec Ideal S1x128 .f32) := by
  obtain ⟨-, -, -, -, -, -, -, -, -, -, e0, e1, -⟩ := block_index t
  funext h
  show V c main_v22 (((cfg1.win 5).blk t).view.emb (ix2 (0 : Fin 1) h)) = V c main_v22 (ix2 (0 : Fin 1) h)
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 128 + 1 * h.val = h.val; omega

/-- The projection's weights are read whole at every point. -/
theorem wn_whole (c : Dev nD) (t : Fin cfg1.N) :
    mat (iblk1 (F := Ideal) V c 6 t : Vec Ideal S128x128 .f32) = mat (V c main_arg16 : Vec Ideal S128x128 .f32) := by
  obtain ⟨-, -, -, -, -, -, -, -, -, -, -, -, e0, e1, -⟩ := block_index t
  funext k h
  show V c main_arg16 (((cfg1.win 6).blk t).view.emb (ix2 k h)) = V c main_arg16 (ix2 k h)
  refine congrArg _ (funext fun a => Fin.ext ?_)
  match a with
  | ⟨0, _⟩ => show win1_6.index t (0 : Fin 2) * 128 + 1 * k.val = k.val; omega
  | ⟨1, _⟩ => show win1_6.index t (1 : Fin 2) * 128 + 1 * h.val = h.val; omega

/-- The normalisation's scale row is read whole at every point. -/
theorem scale_whole (c : Dev nD) (t : Fin cfg1.N) :
    row0 (iblk1 (F := Ideal) V c 7 t : Vec Ideal S1x128 .f32) = row0 (V c main_v23 : Vec Ideal S1x128 .f32) := by
  obtain ⟨-, -, -, -, -, -, -, -, -, -, -, -, -, -, e0, e1, -⟩ := block_index t
  funext h
  show V c main_v23 (((cfg1.win 7).blk t).view.emb (ix2 (0 : Fin 1) h)) = V c main_v23 (ix2 (0 : Fin 1) h)
  refine congrArg _ (funext fun a => Fin.ext ?_)
  match a with
  | ⟨0, _⟩ => show win1_7.index t (0 : Fin 2) * 1 + 1 * (0 : Fin 1).val = (0 : Fin 1).val; omega
  | ⟨1, _⟩ => show win1_7.index t (1 : Fin 2) * 128 + 1 * h.val = h.val; omega

/-- The normalisation's bias row is read whole at every point. -/
theorem shift_whole (c : Dev nD) (t : Fin cfg1.N) :
    row0 (iblk1 (F := Ideal) V c 8 t : Vec Ideal S1x128 .f32) = row0 (V c main_v24 : Vec Ideal S1x128 .f32) := by
  obtain ⟨-, -, -, -, -, -, -, -, -, -, -, -, -, -, -, -, e0, e1, -⟩ := block_index t
  funext h
  show V c main_v24 (((cfg1.win 8).blk t).view.emb (ix2 (0 : Fin 1) h)) = V c main_v24 (ix2 (0 : Fin 1) h)
  refine congrArg _ (funext fun a => Fin.ext ?_)
  match a with
  | ⟨0, _⟩ => show win1_8.index t (0 : Fin 2) * 1 + 1 * (0 : Fin 1).val = (0 : Fin 1).val; omega
  | ⟨1, _⟩ => show win1_8.index t (1 : Fin 2) * 128 + 1 * h.val = h.val; omega

/-- The new node row is one function of its nine row and matrix arguments. -/
theorem nodeRow_congr {nd nd' ag ag' : Fin 128 → EReal} {w1 w1' : Fin 256 → Fin 256 → EReal} {b1 b1' : Fin 256 → EReal}
    {w2 w2' : Fin 256 → Fin 128 → EReal} {b2 b2' : Fin 128 → EReal} {Wn Wn' : Fin 128 → Fin 128 → EReal}
    {sc sc' bi bi' : Fin 128 → EReal} (h0 : nd = nd') (h1 : ag = ag') (h2 : w1 = w1') (h3 : b1 = b1') (h4 : w2 = w2')
    (h5 : b2 = b2') (h6 : Wn = Wn') (h7 : sc = sc') (h8 : bi = bi') (q : Fin 128) :
    nodeRow nd ag w1 b1 w2 b2 Wn sc bi q = nodeRow nd' ag' w1' b1' w2' b2' Wn' sc' bi' q := by
  rw [h0, h1, h2, h3, h4, h5, h6, h7, h8]

/-- What point t writes back is block t of the specification's node function of the arrays at the region's entry. -/
theorem node_flushed (c : Dev nD) (t : Fin cfg1.N) :
    (dat1 (F := Ideal) V c).flushed 9 t
      = ((cfg1.win 9).blk t).view.read (Elt Ideal)
          (NodeOut (R := 50000) (V c main_arg0) (V c main_v30) (mat (V c main_arg8)) (row0 (V c main_v21))
            (mat (V c main_arg10)) (row0 (V c main_v22)) (mat (V c main_arg16)) (row0 (V c main_v23)) (row0 (V c main_v24))) := by
  show (cfg1.win 9).cut (grid1.coords t) ((dat1 V c).after 9 t) = _
  rw [after1_9]
  unfold out1_9
  rw [View.canon_unit_zero zero_offsets]
  simp only [View.ld_unit_zero (S := S1000x128) zero_offsets, View.ld_unit_zero (S := S256x256) zero_offsets,
    View.ld_unit_zero (S := S1x256) zero_offsets, View.ld_unit_zero (S := S256x128) zero_offsets,
    View.ld_unit_zero (S := S1x128) zero_offsets, View.ld_unit_zero (S := S128x128) zero_offsets]
  funext j
  obtain ⟨p, q, rfl⟩ : ∃ (p : Fin 1000) (q : Fin 128), j = ix2 p q := ⟨j 0, j 1, eq_ix2 j⟩
  obtain ⟨-, -, -, -, -, -, -, -, -, -, -, -, -, -, -, -, -, -, e0, e1⟩ := block_index t
  have hemb : ((cfg1.win 9).blk t).view.emb (ix2 p q) = (ix2 ⟨1000 * t.val + p.val, row_lt t p⟩ q : S50000x128.Idx) := by
    refine funext fun a => Fin.ext ?_
    match a with
    | ⟨0, _⟩ => show win1_9.index t (0 : Fin 2) * 1000 + 1 * p.val = 1000 * t.val + p.val; omega
    | ⟨1, _⟩ => show win1_9.index t (1 : Fin 2) * 128 + 1 * q.val = q.val; omega
  refine (NodePay.pay_node (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  refine Eq.trans ?_ (congrArg (NodeOut (R := 50000) (V c main_arg0) (V c main_v30) (mat (V c main_arg8)) (row0 (V c main_v21))
            (mat (V c main_arg10)) (row0 (V c main_v22)) (mat (V c main_arg16)) (row0 (V c main_v23)) (row0 (V c main_v24))) hemb.symm)
  refine Eq.trans ?_ (NodeOut_apply _ _ _ _ _ _ _ _ _ _ _).symm
  exact nodeRow_congr (feat_rows V c t p) (aggr_rows V c t p) (w1_whole V c t) (b1_whole V c t) (w2_whole V c t)
    (b2_whole V c t) (wn_whole V c t) (scale_whole V c t) (shift_whole V c t) q

/-- An index of the output array lies in point t's block when each coordinate lies in the block's range on its axis. -/
theorem mem_block (t : Fin cfg1.N) (i : S50000x128.Idx) :
    i ∈ ((cfg1.win 9).blk t).view.set ↔ ∀ a : Fin 2, win1_9.index t a * S1000x128.size a ≤ (i a).val
      ∧ (i a).val < win1_9.index t a * S1000x128.size a + S1000x128.size a := by
  show i ∈ ((View.whole main_v31).slice (win1_9.rect t)).set ↔ _
  rw [View.set_slice_whole, Rect.mem_set_unit]
  exact Iff.rfl

/-- Fifty blocks of a thousand rows tile the 50000 rows: row r is in the block of point r / 1000. -/
theorem covered (i : S50000x128.Idx) :
    ∃ t : Fin cfg1.N, (cfg1.win 9).flush t = true ∧ i ∈ ((cfg1.win 9).blk t).view.set := by
  have hN : cfg1.N = 50 := N_1
  have h0 : (i 0).val < 50000 := (i 0).isLt
  have h1 : (i 1).val < 128 := (i 1).isLt
  obtain ⟨t, ht⟩ : ∃ t : Fin cfg1.N, t.val = (i 0).val / 1000 := ⟨⟨(i 0).val / 1000, by rw [hN]; omega⟩, rfl⟩
  obtain ⟨-, -, -, -, -, -, -, -, -, -, -, -, -, -, -, -, -, -, e0, e1⟩ := block_index t
  refine ⟨t, flush1_9 t, ?_⟩
  rw [mem_block]
  intro a
  match a with
  | ⟨0, _⟩ => show win1_9.index t (0 : Fin 2) * 1000 ≤ (i 0).val ∧ (i 0).val < win1_9.index t (0 : Fin 2) * 1000 + 1000; omega
  | ⟨1, _⟩ => show win1_9.index t (1 : Fin 2) * 128 ≤ (i 1).val ∧ (i 1).val < win1_9.index t (1 : Fin 2) * 128 + 128; omega

theorem node_final (c : Dev nD) :
    (dat1 (F := Ideal) V c).arrAt 9 cfg1.N
      = NodeOut (R := 50000) (V c main_arg0) (V c main_v30) (mat (V c main_arg8)) (row0 (V c main_v21))
          (mat (V c main_arg10)) (row0 (V c main_v22)) (mat (V c main_arg16)) (row0 (V c main_v23)) (row0 (V c main_v24)) :=
  (dat1 (F := Ideal) V c).arrAt_eq_of_cover 9 _ (fun t _ => node_flushed V c t) covered

end Cert.KernelIdeal.NodeRegion

end
-- ==== Proof.Layout.lean ====
/-
  Two layout facts the idealized kernel program leans on.

  A bias vector [C] viewed as a one-row block [1, C] reads the vector itself.  And a row function applied to arrays
  that were padded with 64 extra rows, then cut back to the first 600000 rows, is the row function of the unpadded arrays:
  a result row depends on the same row of each operand only, and the first 600000 rows of a padded array are the array's.
-/
import proofs.«113904_j32109175505235_1_alg».proof.Proof.Stretch
import proofs.«113904_j32109175505235_1_alg».proof.Proof.Spec
import Idealize.ShloMosaic.PureOps.Ideal
import Idealize.ShloMosaic.Lib.ValueIdx
import Idealize.ShloMosaic.Lib.Pipeline.Value
import Idealize.ShloMosaic.Lib.KernelVsHost

noncomputable section

namespace Cert.KernelIdeal.Bridge

open Cert.KernelIdeal Cert.KernelIdeal.Gen Cert.KernelIdeal.Stretch Cert.Gnn Idealize.ShloMosaic Idealize.ShloMosaic.ValueIdx

/-- A [256] vector viewed as a [1, 256] block reads the vector. -/
theorem row0_cast256 (b : FVec Ideal S256 .f32) : row0 (shapeCast S1x256 b shapeCasts_S256_S1x256) = vec b := by
  funext h
  show shapeCast S1x256 b shapeCasts_S256_S1x256 (ix2 (0 : Fin 1) h) = b (ix1 h)
  refine shapeCast_apply b shapeCasts_S256_S1x256 (ix2 (0 : Fin 1) h) (ix1 h) ?_
  rw [Shape.rowMajor_val_two, Shape.rowMajor_val_one]
  show h.val = 0 * 256 + h.val
  omega

/-- A [128] vector viewed as a [1, 128] block reads the vector. -/
theorem row0_cast128 (b : FVec Ideal S128 .f32) : row0 (shapeCast S1x128 b shapeCasts_S128_S1x128) = vec b := by
  funext h
  show shapeCast S1x128 b shapeCasts_S128_S1x128 (ix2 (0 : Fin 1) h) = b (ix1 h)
  refine shapeCast_apply b shapeCasts_S128_S1x128 (ix2 (0 : Fin 1) h) (ix1 h) ?_
  rw [Shape.rowMajor_val_two, Shape.rowMajor_val_one]
  show h.val = 0 * 128 + h.val
  omega

/-- The cut keeps row p of the longer array at row p. -/
theorem cutRows_apply (y : FVec Ideal S600064x128 .f32) (p : Fin 600000) (q : Fin 128) :
    cutRows y (ix2 p q) = y (ix2 (⟨p.val, by omega⟩ : Fin 600064) q) := by
  unfold cutRows
  refine extractStridedSlice_apply ![0, 0] y slices_S600064x128_S600000x128_0_0 (ix2 p q) (ix2 (⟨p.val, by omega⟩ : Fin 600064) q) fun a => ?_
  match a with
  | ⟨0, _⟩ => show p.val = 0 + p.val; omega
  | ⟨1, _⟩ => show q.val = 0 + q.val; omega

/-- Row p < 600000 of the padded array is row p of the array. -/
theorem padRows_row (x : FVec Ideal S600000x128 .f32) (p : Fin 600000) :
    row (padRows x) (⟨p.val, by omega⟩ : Fin 600064) = row x p := by
  funext k
  show padRows x (ix2 (⟨p.val, by omega⟩ : Fin 600064) k) = x (ix2 p k)
  unfold padRows
  refine pad_apply_of_inside ![0, 0] ![64, 0] ![0, 0] x _ pads_S600000x128_S600064x128_0640_000 h_S_
    (ix2 (⟨p.val, by omega⟩ : Fin 600064) k) (ix2 p k) fun a => ?_
  match a with
  | ⟨0, _⟩ => show p.val = 0 + p.val * (0 + 1); omega
  | ⟨1, _⟩ => show k.val = 0 + k.val * (0 + 1); omega

/-- The messages of the padded arrays, cut back, are the messages of the arrays. -/
theorem cut_MsgOut (S Rc E : FVec Ideal S600000x128 .f32) (w1 : Fin 384 → Fin 256 → EReal) (b1 : Fin 256 → EReal)
    (w2 : Fin 256 → Fin 128 → EReal) (b2 : Fin 128 → EReal) :
    cutRows (MsgOut (R := 600064) (padRows S) (padRows Rc) (padRows E) w1 b1 w2 b2)
      = MsgOut (R := 600000) S Rc E w1 b1 w2 b2 := by
  funext i
  obtain ⟨p, q, rfl⟩ : ∃ (p : Fin 600000) (q : Fin 128), i = ix2 p q := ⟨i 0, i 1, eq_ix2 i⟩
  rw [cutRows_apply, MsgOut_apply, MsgOut_apply, padRows_row, padRows_row, padRows_row]

/-- The new edge features of the padded arrays, cut back, are the new edge features of the arrays. -/
theorem cut_EdgeOut (S Rc E : FVec Ideal S600000x128 .f32) (w1 : Fin 384 → Fin 256 → EReal) (b1 : Fin 256 → EReal)
    (w2 : Fin 256 → Fin 128 → EReal) (b2 : Fin 128 → EReal) (We : Fin 128 → Fin 128 → EReal) (sc bi : Fin 128 → EReal) :
    cutRows (EdgeOut (R := 600064) (padRows S) (padRows Rc) (padRows E) w1 b1 w2 b2 We sc bi)
      = EdgeOut (R := 600000) S Rc E w1 b1 w2 b2 We sc bi := by
  funext i
  obtain ⟨p, q, rfl⟩ : ∃ (p : Fin 600000) (q : Fin 128), i = ix2 p q := ⟨i 0, i 1, eq_ix2 i⟩
  rw [cutRows_apply, EdgeOut_apply, EdgeOut_apply, padRows_row, padRows_row, padRows_row]

end Cert.KernelIdeal.Bridge

end
-- ==== Proof.KValue.lean ====
/-
  What the idealized kernel program returns, as two functions of its argument arrays.

  The new edge features are the edge row function of (rows of the node table gathered at the senders, at the receivers,
  the edge features): the program pads the three arrays with 64 rows, runs the edge region over 586 blocks of 1024 rows,
  and cuts the padding off; padding and cutting do not touch the first 600000 rows, and a result row reads its own row only.
  The new node features are the node row function of (node features, the messages summed per receiving node), the
  messages being the message row function of the same three arrays, again through the padded run and the cut.
-/
import proofs.«113904_j32109175505235_1_alg».proof.Proof.KernelRun
import proofs.«113904_j32109175505235_1_alg».proof.Proof.Stretch
import proofs.«113904_j32109175505235_1_alg».proof.Proof.EdgeRegion
import proofs.«113904_j32109175505235_1_alg».proof.Proof.NodeRegion
import proofs.«113904_j32109175505235_1_alg».proof.Proof.Layout

set_option maxRecDepth 16384

noncomputable section

namespace Cert.KernelIdeal.KValue

open Cert.KernelIdeal Cert.KernelIdeal.Gen Cert.KernelIdeal.Stretch Cert.KernelIdeal.Bridge Cert.Gnn
open Idealize.ShloMosaic Idealize.ShloMosaic.TcCoe Idealize.SL.Sem Idealize.ShloMosaic.ValueIdx

variable (m : (ℓ : Loc nD τ sig) → Buf (Elt Ideal) ℓ) (ρ : Dev nD → PrngReg)

/-- The messages, one row per edge. -/
def messages (c : Dev nD) : FVec Ideal S600000x128 .f32 :=
  MsgOut (R := 600000) (gath (m ((c : Thread nD τ).loc main_arg0)) (m ((c : Thread nD τ).loc main_arg2))) (gath (m ((c : Thread nD τ).loc main_arg0)) (m ((c : Thread nD τ).loc main_arg3))) (m ((c : Thread nD τ).loc main_arg1))
    (mat (m ((c : Thread nD τ).loc main_arg4))) (vec (m ((c : Thread nD τ).loc main_arg5))) (mat (m ((c : Thread nD τ).loc main_arg6))) (vec (m ((c : Thread nD τ).loc main_arg7)))

/-- The new node features. -/
def nodesNew (c : Dev nD) : FVec Ideal S50000x128 .f32 :=
  NodeOut (R := 50000) (m ((c : Thread nD τ).loc main_arg0)) (aggregate (m ((c : Thread nD τ).loc main_arg3)) (messages m c))
    (mat (m ((c : Thread nD τ).loc main_arg8))) (vec (m ((c : Thread nD τ).loc main_arg9))) (mat (m ((c : Thread nD τ).loc main_arg10))) (vec (m ((c : Thread nD τ).loc main_arg11))) (mat (m ((c : Thread nD τ).loc main_arg16))) (vec (m ((c : Thread nD τ).loc main_arg18))) (vec (m ((c : Thread nD τ).loc main_arg19)))

/-- The new edge features. -/
def edgesNew (c : Dev nD) : FVec Ideal S600000x128 .f32 :=
  EdgeOut (R := 600000) (gath (m ((c : Thread nD τ).loc main_arg0)) (m ((c : Thread nD τ).loc main_arg2))) (gath (m ((c : Thread nD τ).loc main_arg0)) (m ((c : Thread nD τ).loc main_arg3))) (m ((c : Thread nD τ).loc main_arg1))
    (mat (m ((c : Thread nD τ).loc main_arg12))) (vec (m ((c : Thread nD τ).loc main_arg13))) (mat (m ((c : Thread nD τ).loc main_arg14))) (vec (m ((c : Thread nD τ).loc main_arg15))) (mat (m ((c : Thread nD τ).loc main_arg17))) (vec (m ((c : Thread nD τ).loc main_arg18))) (vec (m ((c : Thread nD τ).loc main_arg19)))

/-- The edge region's first output, cut back, is the messages. -/
theorem cut_msgs (c : Dev nD) : cutRows ((dat0 (V7 m ρ) c).arrAt 14 cfg0.N) = messages m c := by
  rw [EdgeRegion.msg_final (V7 m ρ) c, V7_v14, V7_v15, V7_v16, V7_arg4, V7_v17, V7_arg6, V7_v18,
    row0_cast256, row0_cast128, cut_MsgOut]
  rfl

/-- The edge features' buffer at the last boundary. -/
theorem v27_eq (c : Dev nD) : W10 m ρ c (Proc.devRef .tc main_v27) = edgesNew m c := by
  rw [W10_v27, EdgeRegion.edge_final (V7 m ρ) c, V7_v14, V7_v15, V7_v16, V7_arg12, V7_v19, V7_arg14, V7_v20, V7_arg17,
    V7_v23, V7_v24, row0_cast256, row0_cast128, row0_cast128, row0_cast128, cut_EdgeOut]
  rfl

/-- The node features' buffer at the last boundary. -/
theorem v31_eq (c : Dev nD) : W10 m ρ c (Proc.devRef .tc main_v31) = nodesNew m c := by
  rw [W10_v31, NodeRegion.node_final (V9 m ρ) c, V9_arg0, V9_v30, cut_msgs, V9_arg8, V9_v21, V9_arg10, V9_v22, V9_arg16,
    V9_v23, V9_v24, row0_cast256, row0_cast128, row0_cast128, row0_cast128]
  rfl

/-- Every weakly fair execution of the idealized kernel program ends with the two results at these functions of the
    arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v31) = nodesNew m c
      ∧ r.2.mem ((c.tc : Thread nD τ).loc main_v27) = edgesNew m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run (defs (F := Ideal)) _ _).mono
    (fun r h c => ⟨(h c).1.trans (v31_eq m ρ c), (h c).2.1.trans (v27_eq m ρ c), (h c).2.2⟩)
    (Cert.KernelIdeal.GenP.run_results m ρ)

end Cert.KernelIdeal.KValue

end
-- ==== Proof.RefSpec.lean ====
import proofs.«113904_j32109175505235_1_alg».proof.Proof.Gen.ReferenceIdeal.Run
import proofs.«113904_j32109175505235_1_alg».proof.Proof.Gen.ReferenceIdeal.Read
import proofs.«113904_j32109175505235_1_alg».proof.Proof.Spec
import proofs.«113904_j32109175505235_1_alg».proof.Proof.LibHostRead
import Idealize.ShloMosaic.PureOps.Ideal.Laws
import Idealize.ShloMosaic.Lib.ValueIdx
import Idealize.ShloMosaic.Lib.Pipeline.Value

set_option maxRecDepth 16384

noncomputable section

namespace Cert.ReferenceIdeal.RefSpec

open Cert.ReferenceIdeal Cert.ReferenceIdeal.Gen Cert.Gnn Idealize.ShloMosaic Idealize.ShloMosaic.TcCoe Idealize.SL.Sem Idealize.ShloMosaic.ValueIdx

/-- The column of row numbers a table is read at: a negative word counts from the table's end (50000 is added),
    any other word is kept; the words are then laid as an [M, 1] column. -/
def idxCol (x : IVec S600000 32) : IVec S600000x1 32 :=
  broadcastInDim S600000x1 ![0] bcast_S600000_S600000x1_0
    (select (cmpi .slt x (broadcastInDim S600000 ![] bcast_S_S600000 (constantI S_ 32 0#32)))
      (addi x (broadcastInDim S600000 ![] bcast_S_S600000 (constantI S_ 32 50000#32))) x)

/-- The node table's rows at the row numbers of a word vector. -/
def gath (nodes : FVec Ideal S50000x128 .f32) (x : IVec S600000 32) : FVec Ideal S600000x128 .f32 :=
  Host.gather gather_S50000x128_S600000x1_S600000x128_1_0_n_n_0_1_1128 nodes (idxCol x)

/-- The messages added up per receiving node: the accumulating scatter of the message rows into an all-zero table. -/
def aggregate (recv : IVec S600000 32) (msgs : FVec Ideal S600000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 recv) msgs

variable (m : (ℓ : Loc nD τ sig) → Buf (Elt Ideal) ℓ)

/-- The messages, one row per edge. -/
def messages (c : Dev nD) : FVec Ideal S600000x128 .f32 :=
  MsgOut (R := 600000) (gath (m ((c.tc : Thread nD τ).loc main_arg0)) (m ((c.tc : Thread nD τ).loc main_arg2))) (gath (m ((c.tc : Thread nD τ).loc main_arg0)) (m ((c.tc : Thread nD τ).loc main_arg3))) (m ((c.tc : Thread nD τ).loc main_arg1))
    (mat (m ((c.tc : Thread nD τ).loc main_arg4))) (vec (m ((c.tc : Thread nD τ).loc main_arg5))) (mat (m ((c.tc : Thread nD τ).loc main_arg6))) (vec (m ((c.tc : Thread nD τ).loc main_arg7)))

/-- The new node features. -/
def nodesNew (c : Dev nD) : FVec Ideal S50000x128 .f32 :=
  NodeOut (R := 50000) (m ((c.tc : Thread nD τ).loc main_arg0)) (aggregate (m ((c.tc : Thread nD τ).loc main_arg3)) (messages m c))
    (mat (m ((c.tc : Thread nD τ).loc main_arg8))) (vec (m ((c.tc : Thread nD τ).loc main_arg9))) (mat (m ((c.tc : Thread nD τ).loc main_arg10))) (vec (m ((c.tc : Thread nD τ).loc main_arg11))) (mat (m ((c.tc : Thread nD τ).loc main_arg16))) (vec (m ((c.tc : Thread nD τ).loc main_arg18))) (vec (m ((c.tc : Thread nD τ).loc main_arg19)))

/-- The new edge features. -/
def edgesNew (c : Dev nD) : FVec Ideal S600000x128 .f32 :=
  EdgeOut (R := 600000) (gath (m ((c.tc : Thread nD τ).loc main_arg0)) (m ((c.tc : Thread nD τ).loc main_arg2))) (gath (m ((c.tc : Thread nD τ).loc main_arg0)) (m ((c.tc : Thread nD τ).loc main_arg3))) (m ((c.tc : Thread nD τ).loc main_arg1))
    (mat (m ((c.tc : Thread nD τ).loc main_arg12))) (vec (m ((c.tc : Thread nD τ).loc main_arg13))) (mat (m ((c.tc : Thread nD τ).loc main_arg14))) (vec (m ((c.tc : Thread nD τ).loc main_arg15))) (mat (m ((c.tc : Thread nD τ).loc main_arg17))) (vec (m ((c.tc : Thread nD τ).loc main_arg18))) (vec (m ((c.tc : Thread nD τ).loc main_arg19)))

/-! ## The two concatenations read at an index

Both join whole rows along the feature axis, so row p of the joined array is the pieces' rows p laid end to end:
column k falls in the piece whose range of columns holds k, at k less the widths before it. -/

/-- Row p of [a | b | c] (three blocks of 128 columns) is the three rows laid end to end. -/
theorem cat3_read (a b c : FVec Ideal S600000x128 .f32) (p : Fin 600000) (k : Fin 384) :
    concatenate S600000x384 1 [⟨S600000x128, a⟩, ⟨S600000x128, b⟩, ⟨S600000x128, c⟩]
      concatenates_S600000x128_S600000x128_S600000x128_S600000x384_d1 (ix2 p k)
    = cat3 (row a p) (row b p) (row c p) k := by
  unfold cat3 row
  by_cases h1 : k.val < 128
  · rw [dif_pos h1]
    refine concatenate_apply_piece (1 : Fin 2) [⟨S600000x128, a⟩, ⟨S600000x128, b⟩, ⟨S600000x128, c⟩] _ (ix2 p k) 0
      (by show 0 < 3; omega) S600000x128 a rfl rfl 0 rfl (ix2 p ⟨k.val, h1⟩) ?_ ?_
    · intro b' hb
      match b', hb with
      | ⟨0, _⟩, _ => rfl
      | ⟨1, _⟩, hb => exact absurd rfl hb
    · show 0 + k.val = k.val
      omega
  · rw [dif_neg h1]
    by_cases h2 : k.val < 256
    · rw [dif_pos h2]
      refine concatenate_apply_piece (1 : Fin 2) [⟨S600000x128, a⟩, ⟨S600000x128, b⟩, ⟨S600000x128, c⟩] _ (ix2 p k) 1
        (by show 1 < 3; omega) S600000x128 b rfl rfl 128 rfl (ix2 p ⟨k.val - 128, by omega⟩) ?_ ?_
      · intro b' hb
        match b', hb with
        | ⟨0, _⟩, _ => rfl
        | ⟨1, _⟩, hb => exact absurd rfl hb
      · show 128 + (k.val - 128) = k.val
        omega
    · rw [dif_neg h2]
      refine concatenate_apply_piece (1 : Fin 2) [⟨S600000x128, a⟩, ⟨S600000x128, b⟩, ⟨S600000x128, c⟩] _ (ix2 p k) 2
        (by show 2 < 3; omega) S600000x128 c rfl rfl 256 rfl (ix2 p ⟨k.val - 256, by omega⟩) ?_ ?_
      · intro b' hb
        match b', hb with
        | ⟨0, _⟩, _ => rfl
        | ⟨1, _⟩, hb => exact absurd rfl hb
      · show 256 + (k.val - 256) = k.val
        omega

/-- Row p of [a | b] (two blocks of 128 columns) is the two rows laid end to end. -/
theorem cat2_read (a b : FVec Ideal S50000x128 .f32) (p : Fin 50000) (k : Fin 256) :
    concatenate S50000x256 1 [⟨S50000x128, a⟩, ⟨S50000x128, b⟩]
      concatenates_S50000x128_S50000x128_S50000x256_d1 (ix2 p k)
    = cat2 (row a p) (row b p) k := by
  unfold cat2 row
  by_cases h1 : k.val < 128
  · rw [dif_pos h1]
    refine concatenate_pair_apply_left (1 : Fin 2) a b _ (ix2 p k) rfl (ix2 p ⟨k.val, h1⟩) ?_
    intro b'
    match b' with
    | ⟨0, _⟩ => rfl
    | ⟨1, _⟩ => rfl
  · rw [dif_neg h1]
    refine concatenate_pair_apply_right (1 : Fin 2) a b _ (ix2 p k) rfl rfl (ix2 p ⟨k.val - 128, by omega⟩) ?_ ?_
    · intro b' hb
      match b', hb with
      | ⟨0, _⟩, _ => rfl
      | ⟨1, _⟩, hb => exact absurd rfl hb
    · show (k.val - 128) + 128 = k.val
      omega

section Stages

variable (x0 : (⟨S50000x128, .f32⟩ : BufTy).Contents (Elt Ideal))
  (x1 : (⟨S600000x128, .f32⟩ : BufTy).Contents (Elt Ideal))
  (x2 x3 : (⟨S600000, .i32⟩ : BufTy).Contents (Elt Ideal))
  (x4 : (⟨S384x256, .f32⟩ : BufTy).Contents (Elt Ideal))
  (x5 : (⟨S256, .f32⟩ : BufTy).Contents (Elt Ideal))
  (x6 : (⟨S256x128, .f32⟩ : BufTy).Contents (Elt Ideal))
  (x7 : (⟨S128, .f32⟩ : BufTy).Contents (Elt Ideal))
  (x8 : (⟨S256x256, .f32⟩ : BufTy).Contents (Elt Ideal))
  (x9 : (⟨S256, .f32⟩ : BufTy).Contents (Elt Ideal))
  (x10 : (⟨S256x128, .f32⟩ : BufTy).Contents (Elt Ideal))
  (x11 : (⟨S128, .f32⟩ : BufTy).Contents (Elt Ideal))
  (x12 : (⟨S384x256, .f32⟩ : BufTy).Contents (Elt Ideal))
  (x13 : (⟨S256, .f32⟩ : BufTy).Contents (Elt Ideal))
  (x14 : (⟨S256x128, .f32⟩ : BufTy).Contents (Elt Ideal))
  (x15 : (⟨S128, .f32⟩ : BufTy).Contents (Elt Ideal))
  (x16 x17 : (⟨S128x128, .f32⟩ : BufTy).Contents (Elt Ideal))
  (x18 x19 : (⟨S128, .f32⟩ : BufTy).Contents (Elt Ideal))

/-! ## The messages

A message row is the second dense layer of the positive part of the first dense layer of the joined row
[sender | receiver | edge]; each stage below is the program's array at (p, column) as the specification's row function. -/

/-- Row p of the joined array is [sender row | receiver row | edge row]. -/
theorem joined_apply (p : Fin 600000) (k : Fin 384) :
    Read.val_main_v14 (F := Ideal) x0 x1 x2 x3 (ix2 p k)
      = cat3 (row (gath x0 x2) p) (row (gath x0 x3) p) (row x1 p) k :=
  cat3_read (gath x0 x2) (gath x0 x3) x1 p k

/-- The first bias of the message perceptron, spread over the rows, is the bias at the column. -/
theorem msgBias1_apply (p : Fin 600000) (h : Fin 256) :
    Read.val_main_v17 (F := Ideal) x5 (ix2 p h) = vec x5 h := by
  rw [Read.val_main_v17_apply, Read.val_main_v16_apply]
  exact congrArg x5 (funext fun a => Fin.ext (by match a with | ⟨0, _⟩ => rfl))

/-- The first dense layer of the message perceptron on row p. -/
theorem msgHidden_apply (p : Fin 600000) (h : Fin 256) :
    Read.val_main_v18 (F := Ideal) x0 x1 x2 x3 x4 x5 (ix2 p h)
      = dense (cat3 (row (gath x0 x2) p) (row (gath x0 x3) p) (row x1 p)) (mat x4) (vec x5) h := by
  rw [Read.val_main_v18_apply, Read.val_main_v15_apply, msgBias1_apply]
  show ((∑ k : Fin 384, _) + _ : EReal) = (∑ k : Fin 384, _) + _
  refine congrArg (fun s : EReal => s + _) (Finset.sum_congr rfl fun k _ => ?_)
  have e1 : Read.lidx_main_v15 (ix2 p h) k = ix2 p k :=
    funext fun a => Fin.ext (by match a with | ⟨0, _⟩ => rfl | ⟨1, _⟩ => rfl)
  have e2 : Read.ridx_main_v15 (ix2 p h) k = ix2 k h :=
    funext fun a => Fin.ext (by match a with | ⟨0, _⟩ => rfl | ⟨1, _⟩ => rfl)
  rw [e1, e2, joined_apply]
  rfl

/-- Its positive part: the maximum with the splat of the zero word is the maximum with 0. -/
theorem msgAct_apply (p : Fin 600000) (h : Fin 256) :
    Read.val_main_v19 (F := Ideal) x0 x1 x2 x3 x4 x5 (ix2 p h)
      = relu (dense (cat3 (row (gath x0 x2) p) (row (gath x0 x3) p) (row x1 p)) (mat x4) (vec x5)) h := by
  rw [Read.val_main_v19_apply, Read.val_main_call0_v0_apply, Read.val_main_call0_cst_apply, msgHidden_apply]
  show max _ (Ideal.ofBits .f32 0x00000000#32) = max _ (0 : EReal)
  rw [Ideal.ofBits_zero_f32]

/-- The second bias of the message perceptron at the column. -/
theorem msgBias2_apply (p : Fin 600000) (q : Fin 128) :
    Read.val_main_v22 (F := Ideal) x7 (ix2 p q) = vec x7 q := by
  rw [Read.val_main_v22_apply, Read.val_main_v21_apply]
  exact congrArg x7 (funext fun a => Fin.ext (by match a with | ⟨0, _⟩ => rfl))

/-- The message of edge p at column q. -/
theorem msg_apply (p : Fin 600000) (q : Fin 128) :
    Read.val_main_v23 (F := Ideal) x0 x1 x2 x3 x4 x5 x6 x7 (ix2 p q)
      = msgRow (row (gath x0 x2) p) (row (gath x0 x3) p) (row x1 p) (mat x4) (vec x5) (mat x6) (vec x7) q := by
  rw [Read.val_main_v23_apply, Read.val_main_v20_apply, msgBias2_apply]
  show ((∑ k : Fin 256, _) + _ : EReal) = (∑ k : Fin 256, _) + _
  refine congrArg (fun s : EReal => s + _) (Finset.sum_congr rfl fun k _ => ?_)
  have e1 : Read.lidx_main_v20 (ix2 p q) k = ix2 p k :=
    funext fun a => Fin.ext (by match a with | ⟨0, _⟩ => rfl | ⟨1, _⟩ => rfl)
  have e2 : Read.ridx_main_v20 (ix2 p q) k = ix2 k q :=
    funext fun a => Fin.ext (by match a with | ⟨0, _⟩ => rfl | ⟨1, _⟩ => rfl)
  rw [e1, e2, msgAct_apply]
  rfl

/-- The message array is the specification's, as a whole array. -/
theorem msgs_eq :
    Read.val_main_v23 (F := Ideal) x0 x1 x2 x3 x4 x5 x6 x7
      = MsgOut (R := 600000) (gath x0 x2) (gath x0 x3) x1 (mat x4) (vec x5) (mat x6) (vec x7) := by
  funext i
  obtain ⟨p, q, rfl⟩ : ∃ (p : Fin 600000) (q : Fin 128), i = ix2 p q := ⟨i 0, i 1, eq_ix2 i⟩
  rw [msg_apply, MsgOut_apply]

/-- The aggregated array is the accumulating scatter of the specification's messages: the scatter's other two
    operands (the all-zero table and the column of receiver words) are the ones aggregate names. -/
theorem aggregated_eq :
    Read.val_main_v26 (F := Ideal) x0 x1 x2 x3 x4 x5 x6 x7
      = aggregate x3 (MsgOut (R := 600000) (gath x0 x2) (gath x0 x3) x1 (mat x4) (vec x5) (mat x6) (vec x7)) :=
  (show Read.val_main_v26 (F := Ideal) x0 x1 x2 x3 x4 x5 x6 x7
      = aggregate x3 (Read.val_main_v23 (F := Ideal) x0 x1 x2 x3 x4 x5 x6 x7) from rfl).trans
    (congrArg (aggregate x3) (msgs_eq x0 x1 x2 x3 x4 x5 x6 x7))

/-! ## The new node features

The node perceptron reads the joined row [node row | aggregated row]; the pre-normalisation row is the node row's
projection plus the perceptron; the layer normalisation then takes the row's mean (the row sum, started from the
zero word, over the literal 128), the centred row, the mean of its squares, and scales by the reciprocal root. -/

/-- Row p of the joined array is [node row | aggregated row]. -/
theorem nodeJoined_apply (p : Fin 50000) (k : Fin 256) :
    Read.val_main_v27 (F := Ideal) x0 x1 x2 x3 x4 x5 x6 x7 (ix2 p k)
      = cat2 (row x0 p) (row (Read.val_main_v26 (F := Ideal) x0 x1 x2 x3 x4 x5 x6 x7) p) k :=
  cat2_read x0 (Read.val_main_v26 (F := Ideal) x0 x1 x2 x3 x4 x5 x6 x7) p k

/-- The first bias of the node perceptron at the column. -/
theorem nodeBias1_apply (p : Fin 50000) (h : Fin 256) :
    Read.val_main_v30 (F := Ideal) x9 (ix2 p h) = vec x9 h := by
  rw [Read.val_main_v30_apply, Read.val_main_v29_apply]
  exact congrArg x9 (funext fun a => Fin.ext (by match a with | ⟨0, _⟩ => rfl))

/-- The first dense layer of the node perceptron on row p. -/
theorem nodeHidden_apply (p : Fin 50000) (h : Fin 256) :
    Read.val_main_v31 (F := Ideal) x0 x1 x2 x3 x4 x5 x6 x7 x8 x9 (ix2 p h)
      = dense (cat2 (row x0 p) (row (Read.val_main_v26 (F := Ideal) x0 x1 x2 x3 x4 x5 x6 x7) p)) (mat x8) (vec x9) h := by
  rw [Read.val_main_v31_apply, Read.val_main_v28_apply, nodeBias1_apply]
  show ((∑ k : Fin 256, _) + _ : EReal) = (∑ k : Fin 256, _) + _
  refine congrArg (fun s : EReal => s + _) (Finset.sum_congr rfl fun k _ => ?_)
  have e1 : Read.lidx_main_v28 (ix2 p h) k = ix2 p k :=
    funext fun a => Fin.ext (by match a with | ⟨0, _⟩ => rfl | ⟨1, _⟩ => rfl)
  have e2 : Read.ridx_main_v28 (ix2 p h) k = ix2 k h :=
    funext fun a => Fin.ext (by match a with | ⟨0, _⟩ => rfl | ⟨1, _⟩ => rfl)
  rw [e1, e2, nodeJoined_apply]
  rfl

/-- Its positive part. -/
theorem nodeAct_apply (p : Fin 50000) (h : Fin 256) :
    Read.val_main_v32 (F := Ideal) x0 x1 x2 x3 x4 x5 x6 x7 x8 x9 (ix2 p h)
      = relu (dense (cat2 (row x0 p) (row (Read.val_main_v26 (F := Ideal) x0 x1 x2 x3 x4 x5 x6 x7) p)) (mat x8) (vec x9)) h := by
  rw [Read.val_main_v32_apply, Read.val_main_call1_v0_apply, Read.val_main_call1_cst_apply, nodeHidden_apply]
  show max _ (Ideal.ofBits .f32 0x00000000#32) = max _ (0 : EReal)
  rw [Ideal.ofBits_zero_f32]

/-- The second bias of the node perceptron at the column. -/
theorem nodeBias2_apply (p : Fin 50000) (q : Fin 128) :
    Read.val_main_v35 (F := Ideal) x11 (ix2 p q) = vec x11 q := by
  rw [Read.val_main_v35_apply, Read.val_main_v34_apply]
  exact congrArg x11 (funext fun a => Fin.ext (by match a with | ⟨0, _⟩ => rfl))

/-- The node perceptron on row p at column q. -/
theorem nodeMlp_apply (p : Fin 50000) (q : Fin 128) :
    Read.val_main_v36 (F := Ideal) x0 x1 x2 x3 x4 x5 x6 x7 x8 x9 x10 x11 (ix2 p q)
      = mlp (cat2 (row x0 p) (row (Read.val_main_v26 (F := Ideal) x0 x1 x2 x3 x4 x5 x6 x7) p))
          (mat x8) (vec x9) (mat x10) (vec x11) q := by
  rw [Read.val_main_v36_apply, Read.val_main_v33_apply, nodeBias2_apply]
  show ((∑ k : Fin 256, _) + _ : EReal) = (∑ k : Fin 256, _) + _
  refine congrArg (fun s : EReal => s + _) (Finset.sum_congr rfl fun k _ => ?_)
  have e1 : Read.lidx_main_v33 (ix2 p q) k = ix2 p k :=
    funext fun a => Fin.ext (by match a with | ⟨0, _⟩ => rfl | ⟨1, _⟩ => rfl)
  have e2 : Read.ridx_main_v33 (ix2 p q) k = ix2 k q :=
    funext fun a => Fin.ext (by match a with | ⟨0, _⟩ => rfl | ⟨1, _⟩ => rfl)
  rw [e1, e2, nodeAct_apply]
  rfl

/-- The node row's projection at column q. -/
theorem nodeProj_apply (p : Fin 50000) (q : Fin 128) :
    Read.val_main_v37 (F := Ideal) x0 x16 (ix2 p q) = proj (row x0 p) (mat x16) q := by
  rw [Read.val_main_v37_apply]
  refine Finset.sum_congr rfl fun k _ => ?_
  have e1 : Read.lidx_main_v37 (ix2 p q) k = ix2 p k :=
    funext fun a => Fin.ext (by match a with | ⟨0, _⟩ => rfl | ⟨1, _⟩ => rfl)
  have e2 : Read.ridx_main_v37 (ix2 p q) k = ix2 k q :=
    funext fun a => Fin.ext (by match a with | ⟨0, _⟩ => rfl | ⟨1, _⟩ => rfl)
  rw [e1, e2]
  rfl

/-- The pre-normalisation node row: projection plus perceptron. -/
theorem nodePre_apply (p : Fin 50000) (q : Fin 128) :
    Read.val_main_v38 (F := Ideal) x0 x1 x2 x3 x4 x5 x6 x7 x8 x9 x10 x11 x16 (ix2 p q)
      = proj (row x0 p) (mat x16) q
        + mlp (cat2 (row x0 p) (row (Read.val_main_v26 (F := Ideal) x0 x1 x2 x3 x4 x5 x6 x7) p))
            (mat x8) (vec x9) (mat x10) (vec x11) q := by
  rw [Read.val_main_v38_apply, nodeProj_apply, nodeMlp_apply]
  rfl

/-- The mean of the pre-normalisation node row p. -/
theorem nodeMean_apply (p : Fin 50000) :
    Read.val_main_v42 (F := Ideal) x0 x1 x2 x3 x4 x5 x6 x7 x8 x9 x10 x11 x16 (ix2 p (0 : Fin 1))
      = mean (row (Read.val_main_v38 (F := Ideal) x0 x1 x2 x3 x4 x5 x6 x7 x8 x9 x10 x11 x16) p) c128 := by
  have e40 : Read.idx_main_v40 (ix2 p (0 : Fin 1)) = ix1 p :=
    funext fun a => Fin.ext (by match a with | ⟨0, _⟩ => rfl)
  rw [Read.val_main_v42_apply, Read.val_main_v40_apply, e40, Read.val_main_v39_apply, Read.val_main_cst_3_apply,
    Read.val_main_v41_apply, Read.val_main_cst_4_apply]
  show Ideal.div (Ideal.ofBits .f32 0x00000000#32 + ∑ k : Fin 128, _) (Ideal.ofBits .f32 0x43000000#32)
    = Ideal.div (∑ l : Fin 128, _) (Ideal.ofBits .f32 0x43000000#32)
  rw [Ideal.ofBits_zero_f32, zero_add]
  refine congrArg (fun s : EReal => Ideal.div s _) (Finset.sum_congr rfl fun k _ => ?_)
  have e39 : Read.idx_main_v39 (ix1 p) k = ix2 p k :=
    funext fun a => Fin.ext (by match a with | ⟨0, _⟩ => rfl | ⟨1, _⟩ => rfl)
  rw [e39]
  rfl

/-- The centred node row (the copy the variance squares). -/
theorem nodeCentred_apply (p : Fin 50000) (q : Fin 128) :
    Read.val_main_v44 (F := Ideal) x0 x1 x2 x3 x4 x5 x6 x7 x8 x9 x10 x11 x16 (ix2 p q)
      = row (Read.val_main_v38 (F := Ideal) x0 x1 x2 x3 x4 x5 x6 x7 x8 x9 x10 x11 x16) p q
        - mean (row (Read.val_main_v38 (F := Ideal) x0 x1 x2 x3 x4 x5 x6 x7 x8 x9 x10 x11 x16) p) c128 := by
  have e43 : Read.idx_main_v43 (ix2 p q) = ix2 p (0 : Fin 1) :=
    funext fun a => Fin.ext (by match a with | ⟨0, _⟩ => rfl | ⟨1, _⟩ => rfl)
  rw [Read.val_main_v44_apply, Read.val_main_v43_apply, e43, nodeMean_apply]
  rfl

/-- The centred node row (the copy the result scales). -/
theorem nodeCentred2_apply (p : Fin 50000) (q : Fin 128) :
    Read.val_main_v51 (F := Ideal) x0 x1 x2 x3 x4 x5 x6 x7 x8 x9 x10 x11 x16 (ix2 p q)
      = row (Read.val_main_v38 (F := Ideal) x0 x1 x2 x3 x4 x5 x6 x7 x8 x9 x10 x11 x16) p q
        - mean (row (Read.val_main_v38 (F := Ideal) x0 x1 x2 x3 x4 x5 x6 x7 x8 x9 x10 x11 x16) p) c128 := by
  have e50 : Read.idx_main_v50 (ix2 p q) = ix2 p (0 : Fin 1) :=
    funext fun a => Fin.ext (by match a with | ⟨0, _⟩ => rfl | ⟨1, _⟩ => rfl)
  rw [Read.val_main_v51_apply, Read.val_main_v50_apply, e50, nodeMean_apply]
  rfl

/-- The variance of the pre-normalisation node row p: the mean of the squares of the centred row. -/
theorem nodeVar_apply (p : Fin 50000) :
    Read.val_main_v49 (F := Ideal) x0 x1 x2 x3 x4 x5 x6 x7 x8 x9 x10 x11 x16 (ix2 p (0 : Fin 1))
      = mean (fun l =>
          (row (Read.val_main_v38 (F := Ideal) x0 x1 x2 x3 x4 x5 x6 x7 x8 x9 x10 x11 x16) p l
            - mean (row (Read.val_main_v38 (F := Ideal) x0 x1 x2 x3 x4 x5 x6 x7 x8 x9 x10 x11 x16) p) c128)
          * (row (Read.val_main_v38 (F := Ideal) x0 x1 x2 x3 x4 x5 x6 x7 x8 x9 x10 x11 x16) p l
            - mean (row (Read.val_main_v38 (F := Ideal) x0 x1 x2 x3 x4 x5 x6 x7 x8 x9 x10 x11 x16) p) c128)) c128 := by
  have e47 : Read.idx_main_v47 (ix2 p (0 : Fin 1)) = ix1 p :=
    funext fun a => Fin.ext (by match a with | ⟨0, _⟩ => rfl)
  rw [Read.val_main_v49_apply, Read.val_main_v47_apply, e47, Read.val_main_v46_apply, Read.val_main_cst_5_apply,
    Read.val_main_v48_apply, Read.val_main_cst_6_apply]
  show Ideal.div (Ideal.ofBits .f32 0x00000000#32 + ∑ k : Fin 128, _) (Ideal.ofBits .f32 0x43000000#32)
    = Ideal.div (∑ l : Fin 128, _) (Ideal.ofBits .f32 0x43000000#32)
  rw [Ideal.ofBits_zero_f32, zero_add]
  refine congrArg (fun s : EReal => Ideal.div s _) (Finset.sum_congr rfl fun k _ => ?_)
  have e46 : Read.idx_main_v46 (ix1 p) k = ix2 p k :=
    funext fun a => Fin.ext (by match a with | ⟨0, _⟩ => rfl | ⟨1, _⟩ => rfl)
  rw [e46, Read.val_main_v45_apply, nodeCentred_apply]
  rfl

/-- The scale of the normalisation at the column. -/
theorem nodeScale_apply (p : Fin 50000) (q : Fin 128) :
    Read.val_main_v58 (F := Ideal) x18 (ix2 p q) = vec x18 q := by
  rw [Read.val_main_v58_apply, Read.val_main_v57_apply]
  exact congrArg x18 (funext fun a => Fin.ext (by match a with | ⟨0, _⟩ => rfl))

/-- The shift of the normalisation at the column. -/
theorem nodeShift_apply (p : Fin 50000) (q : Fin 128) :
    Read.val_main_v61 (F := Ideal) x19 (ix2 p q) = vec x19 q := by
  rw [Read.val_main_v61_apply, Read.val_main_v60_apply]
  exact congrArg x19 (funext fun a => Fin.ext (by match a with | ⟨0, _⟩ => rfl))

/-- The first result at (p, q) is the layer normalisation of the pre-normalisation node row p. -/
theorem nodeNorm_apply (p : Fin 50000) (q : Fin 128) :
    Read.val_main_v62 (F := Ideal) x0 x1 x2 x3 x4 x5 x6 x7 x8 x9 x10 x11 x16 x18 x19 (ix2 p q)
      = layerNorm (row (Read.val_main_v38 (F := Ideal) x0 x1 x2 x3 x4 x5 x6 x7 x8 x9 x10 x11 x16) p) c128 ceps
          (vec x18) (vec x19) q := by
  have e55 : Read.idx_main_v55 (ix2 p q) = ix2 p (0 : Fin 1) :=
    funext fun a => Fin.ext (by match a with | ⟨0, _⟩ => rfl | ⟨1, _⟩ => rfl)
  rw [Read.val_main_v62_apply, Read.val_main_v59_apply, Read.val_main_v56_apply, nodeCentred2_apply,
    Read.val_main_v55_apply, e55, Read.val_main_v54_apply, Read.val_main_v53_apply, nodeVar_apply,
    Read.val_main_v52_apply, Read.val_main_cst_7_apply, nodeScale_apply, nodeShift_apply]
  rfl

/-- The first result is the specification's new node features of the node table and the aggregated messages. -/
theorem node_eq :
    Read.val_main_v62 (F := Ideal) x0 x1 x2 x3 x4 x5 x6 x7 x8 x9 x10 x11 x16 x18 x19
      = NodeOut (R := 50000) x0
          (aggregate x3 (MsgOut (R := 600000) (gath x0 x2) (gath x0 x3) x1 (mat x4) (vec x5) (mat x6) (vec x7)))
          (mat x8) (vec x9) (mat x10) (vec x11) (mat x16) (vec x18) (vec x19) := by
  rw [← aggregated_eq x0 x1 x2 x3 x4 x5 x6 x7]
  funext i
  obtain ⟨p, q, rfl⟩ : ∃ (p : Fin 50000) (q : Fin 128), i = ix2 p q := ⟨i 0, i 1, eq_ix2 i⟩
  rw [nodeNorm_apply, NodeOut_apply]
  have hP : row (Read.val_main_v38 (F := Ideal) x0 x1 x2 x3 x4 x5 x6 x7 x8 x9 x10 x11 x16) p
      = fun d => proj (row x0 p) (mat x16) d
          + mlp (cat2 (row x0 p) (row (Read.val_main_v26 (F := Ideal) x0 x1 x2 x3 x4 x5 x6 x7) p))
              (mat x8) (vec x9) (mat x10) (vec x11) d :=
    funext fun d => nodePre_apply x0 x1 x2 x3 x4 x5 x6 x7 x8 x9 x10 x11 x16 p d
  rw [hP]
  rfl

/-! ## The new edge features

The edge perceptron reads the same joined row [sender | receiver | edge] with its own weights; the
pre-normalisation row is the edge row's projection plus the perceptron, and the layer normalisation is the one
of the node side on rows of the edge list. -/

/-- The first bias of the edge perceptron at the column. -/
theorem edgeBias1_apply (p : Fin 600000) (h : Fin 256) :
    Read.val_main_v65 (F := Ideal) x13 (ix2 p h) = vec x13 h := by
  rw [Read.val_main_v65_apply, Read.val_main_v64_apply]
  exact congrArg x13 (funext fun a => Fin.ext (by match a with | ⟨0, _⟩ => rfl))

/-- The first dense layer of the edge perceptron on row p. -/
theorem edgeHidden_apply (p : Fin 600000) (h : Fin 256) :
    Read.val_main_v66 (F := Ideal) x0 x1 x2 x3 x12 x13 (ix2 p h)
      = dense (cat3 (row (gath x0 x2) p) (row (gath x0 x3) p) (row x1 p)) (mat x12) (vec x13) h := by
  rw [Read.val_main_v66_apply, Read.val_main_v63_apply, edgeBias1_apply]
  show ((∑ k : Fin 384, _) + _ : EReal) = (∑ k : Fin 384, _) + _
  refine congrArg (fun s : EReal => s + _) (Finset.sum_congr rfl fun k _ => ?_)
  have e1 : Read.lidx_main_v63 (ix2 p h) k = ix2 p k :=
    funext fun a => Fin.ext (by match a with | ⟨0, _⟩ => rfl | ⟨1, _⟩ => rfl)
  have e2 : Read.ridx_main_v63 (ix2 p h) k = ix2 k h :=
    funext fun a => Fin.ext (by match a with | ⟨0, _⟩ => rfl | ⟨1, _⟩ => rfl)
  rw [e1, e2, joined_apply]
  rfl

/-- Its positive part. -/
theorem edgeAct_apply (p : Fin 600000) (h : Fin 256) :
    Read.val_main_v67 (F := Ideal) x0 x1 x2 x3 x12 x13 (ix2 p h)
      = relu (dense (cat3 (row (gath x0 x2) p) (row (gath x0 x3) p) (row x1 p)) (mat x12) (vec x13)) h := by
  rw [Read.val_main_v67_apply, Read.val_main_call2_v0_apply, Read.val_main_call2_cst_apply, edgeHidden_apply]
  show max _ (Ideal.ofBits .f32 0x00000000#32) = max _ (0 : EReal)
  rw [Ideal.ofBits_zero_f32]

/-- The second bias of the edge perceptron at the column. -/
theorem edgeBias2_apply (p : Fin 600000) (q : Fin 128) :
    Read.val_main_v70 (F := Ideal) x15 (ix2 p q) = vec x15 q := by
  rw [Read.val_main_v70_apply, Read.val_main_v69_apply]
  exact congrArg x15 (funext fun a => Fin.ext (by match a with | ⟨0, _⟩ => rfl))

/-- The edge perceptron on row p at column q. -/
theorem edgeMlp_apply (p : Fin 600000) (q : Fin 128) :
    Read.val_main_v71 (F := Ideal) x0 x1 x2 x3 x12 x13 x14 x15 (ix2 p q)
      = mlp (cat3 (row (gath x0 x2) p) (row (gath x0 x3) p) (row x1 p)) (mat x12) (vec x13) (mat x14) (vec x15) q := by
  rw [Read.val_main_v71_apply, Read.val_main_v68_apply, edgeBias2_apply]
  show ((∑ k : Fin 256, _) + _ : EReal) = (∑ k : Fin 256, _) + _
  refine congrArg (fun s : EReal => s + _) (Finset.sum_congr rfl fun k _ => ?_)
  have e1 : Read.lidx_main_v68 (ix2 p q) k = ix2 p k :=
    funext fun a => Fin.ext (by match a with | ⟨0, _⟩ => rfl | ⟨1, _⟩ => rfl)
  have e2 : Read.ridx_main_v68 (ix2 p q) k = ix2 k q :=
    funext fun a => Fin.ext (by match a with | ⟨0, _⟩ => rfl | ⟨1, _⟩ => rfl)
  rw [e1, e2, edgeAct_apply]
  rfl

/-- The edge row's projection at column q. -/
theorem edgeProj_apply (p : Fin 600000) (q : Fin 128) :
    Read.val_main_v72 (F := Ideal) x1 x17 (ix2 p q) = proj (row x1 p) (mat x17) q := by
  rw [Read.val_main_v72_apply]
  refine Finset.sum_congr rfl fun k _ => ?_
  have e1 : Read.lidx_main_v72 (ix2 p q) k = ix2 p k :=
    funext fun a => Fin.ext (by match a with | ⟨0, _⟩ => rfl | ⟨1, _⟩ => rfl)
  have e2 : Read.ridx_main_v72 (ix2 p q) k = ix2 k q :=
    funext fun a => Fin.ext (by match a with | ⟨0, _⟩ => rfl | ⟨1, _⟩ => rfl)
  rw [e1, e2]
  rfl

/-- The pre-normalisation edge row: projection plus perceptron. -/
theorem edgePre_apply (p : Fin 600000) (q : Fin 128) :
    Read.val_main_v73 (F := Ideal) x0 x1 x2 x3 x12 x13 x14 x15 x17 (ix2 p q)
      = proj (row x1 p) (mat x17) q
        + mlp (cat3 (row (gath x0 x2) p) (row (gath x0 x3) p) (row x1 p)) (mat x12) (vec x13) (mat x14) (vec x15) q := by
  rw [Read.val_main_v73_apply, edgeProj_apply, edgeMlp_apply]
  rfl

/-- The mean of the pre-normalisation edge row p. -/
theorem edgeMean_apply (p : Fin 600000) :
    Read.val_main_v77 (F := Ideal) x0 x1 x2 x3 x12 x13 x14 x15 x17 (ix2 p (0 : Fin 1))
      = mean (row (Read.val_main_v73 (F := Ideal) x0 x1 x2 x3 x12 x13 x14 x15 x17) p) c128 := by
  have e75 : Read.idx_main_v75 (ix2 p (0 : Fin 1)) = ix1 p :=
    funext fun a => Fin.ext (by match a with | ⟨0, _⟩ => rfl)
  rw [Read.val_main_v77_apply, Read.val_main_v75_apply, e75, Read.val_main_v74_apply, Read.val_main_cst_8_apply,
    Read.val_main_v76_apply, Read.val_main_cst_9_apply]
  show Ideal.div (Ideal.ofBits .f32 0x00000000#32 + ∑ k : Fin 128, _) (Ideal.ofBits .f32 0x43000000#32)
    = Ideal.div (∑ l : Fin 128, _) (Ideal.ofBits .f32 0x43000000#32)
  rw [Ideal.ofBits_zero_f32, zero_add]
  refine congrArg (fun s : EReal => Ideal.div s _) (Finset.sum_congr rfl fun k _ => ?_)
  have e74 : Read.idx_main_v74 (ix1 p) k = ix2 p k :=
    funext fun a => Fin.ext (by match a with | ⟨0, _⟩ => rfl | ⟨1, _⟩ => rfl)
  rw [e74]
  rfl

/-- The centred edge row (the copy the variance squares). -/
theorem edgeCentred_apply (p : Fin 600000) (q : Fin 128) :
    Read.val_main_v79 (F := Ideal) x0 x1 x2 x3 x12 x13 x14 x15 x17 (ix2 p q)
      = row (Read.val_main_v73 (F := Ideal) x0 x1 x2 x3 x12 x13 x14 x15 x17) p q
        - mean (row (Read.val_main_v73 (F := Ideal) x0 x1 x2 x3 x12 x13 x14 x15 x17) p) c128 := by
  have e78 : Read.idx_main_v78 (ix2 p q) = ix2 p (0 : Fin 1) :=
    funext fun a => Fin.ext (by match a with | ⟨0, _⟩ => rfl | ⟨1, _⟩ => rfl)
  rw [Read.val_main_v79_apply, Read.val_main_v78_apply, e78, edgeMean_apply]
  rfl

/-- The centred edge row (the copy the result scales). -/
theorem edgeCentred2_apply (p : Fin 600000) (q : Fin 128) :
    Read.val_main_v86 (F := Ideal) x0 x1 x2 x3 x12 x13 x14 x15 x17 (ix2 p q)
      = row (Read.val_main_v73 (F := Ideal) x0 x1 x2 x3 x12 x13 x14 x15 x17) p q
        - mean (row (Read.val_main_v73 (F := Ideal) x0 x1 x2 x3 x12 x13 x14 x15 x17) p) c128 := by
  have e85 : Read.idx_main_v85 (ix2 p q) = ix2 p (0 : Fin 1) :=
    funext fun a => Fin.ext (by match a with | ⟨0, _⟩ => rfl | ⟨1, _⟩ => rfl)
  rw [Read.val_main_v86_apply, Read.val_main_v85_apply, e85, edgeMean_apply]
  rfl

/-- The variance of the pre-normalisation edge row p: the mean of the squares of the centred row. -/
theorem edgeVar_apply (p : Fin 600000) :
    Read.val_main_v84 (F := Ideal) x0 x1 x2 x3 x12 x13 x14 x15 x17 (ix2 p (0 : Fin 1))
      = mean (fun l =>
          (row (Read.val_main_v73 (F := Ideal) x0 x1 x2 x3 x12 x13 x14 x15 x17) p l
            - mean (row (Read.val_main_v73 (F := Ideal) x0 x1 x2 x3 x12 x13 x14 x15 x17) p) c128)
          * (row (Read.val_main_v73 (F := Ideal) x0 x1 x2 x3 x12 x13 x14 x15 x17) p l
            - mean (row (Read.val_main_v73 (F := Ideal) x0 x1 x2 x3 x12 x13 x14 x15 x17) p) c128)) c128 := by
  have e82 : Read.idx_main_v82 (ix2 p (0 : Fin 1)) = ix1 p :=
    funext fun a => Fin.ext (by match a with | ⟨0, _⟩ => rfl)
  rw [Read.val_main_v84_apply, Read.val_main_v82_apply, e82, Read.val_main_v81_apply, Read.val_main_cst_10_apply,
    Read.val_main_v83_apply, Read.val_main_cst_11_apply]
  show Ideal.div (Ideal.ofBits .f32 0x00000000#32 + ∑ k : Fin 128, _) (Ideal.ofBits .f32 0x43000000#32)
    = Ideal.div (∑ l : Fin 128, _) (Ideal.ofBits .f32 0x43000000#32)
  rw [Ideal.ofBits_zero_f32, zero_add]
  refine congrArg (fun s : EReal => Ideal.div s _) (Finset.sum_congr rfl fun k _ => ?_)
  have e81 : Read.idx_main_v81 (ix1 p) k = ix2 p k :=
    funext fun a => Fin.ext (by match a with | ⟨0, _⟩ => rfl | ⟨1, _⟩ => rfl)
  rw [e81, Read.val_main_v80_apply, edgeCentred_apply]
  rfl

/-- The scale of the normalisation at the column, on the edge list. -/
theorem edgeScale_apply (p : Fin 600000) (q : Fin 128) :
    Read.val_main_v93 (F := Ideal) x18 (ix2 p q) = vec x18 q := by
  rw [Read.val_main_v93_apply, Read.val_main_v92_apply]
  exact congrArg x18 (funext fun a => Fin.ext (by match a with | ⟨0, _⟩ => rfl))

/-- The shift of the normalisation at the column, on the edge list. -/
theorem edgeShift_apply (p : Fin 600000) (q : Fin 128) :
    Read.val_main_v96 (F := Ideal) x19 (ix2 p q) = vec x19 q := by
  rw [Read.val_main_v96_apply, Read.val_main_v95_apply]
  exact congrArg x19 (funext fun a => Fin.ext (by match a with | ⟨0, _⟩ => rfl))

/-- The second result at (p, q) is the layer normalisation of the pre-normalisation edge row p. -/
theorem edgeNorm_apply (p : Fin 600000) (q : Fin 128) :
    Read.val_main_v97 (F := Ideal) x0 x1 x2 x3 x12 x13 x14 x15 x17 x18 x19 (ix2 p q)
      = layerNorm (row (Read.val_main_v73 (F := Ideal) x0 x1 x2 x3 x12 x13 x14 x15 x17) p) c128 ceps
          (vec x18) (vec x19) q := by
  have e90 : Read.idx_main_v90 (ix2 p q) = ix2 p (0 : Fin 1) :=
    funext fun a => Fin.ext (by match a with | ⟨0, _⟩ => rfl | ⟨1, _⟩ => rfl)
  rw [Read.val_main_v97_apply, Read.val_main_v94_apply, Read.val_main_v91_apply, edgeCentred2_apply,
    Read.val_main_v90_apply, e90, Read.val_main_v89_apply, Read.val_main_v88_apply, edgeVar_apply,
    Read.val_main_v87_apply, Read.val_main_cst_12_apply, edgeScale_apply, edgeShift_apply]
  rfl

/-- The second result is the specification's new edge features of the gathered rows and the edge rows. -/
theorem edge_eq :
    Read.val_main_v97 (F := Ideal) x0 x1 x2 x3 x12 x13 x14 x15 x17 x18 x19
      = EdgeOut (R := 600000) (gath x0 x2) (gath x0 x3) x1 (mat x12) (vec x13) (mat x14) (vec x15) (mat x17)
          (vec x18) (vec x19) := by
  funext i
  obtain ⟨p, q, rfl⟩ : ∃ (p : Fin 600000) (q : Fin 128), i = ix2 p q := ⟨i 0, i 1, eq_ix2 i⟩
  rw [edgeNorm_apply, EdgeOut_apply]
  have hP : row (Read.val_main_v73 (F := Ideal) x0 x1 x2 x3 x12 x13 x14 x15 x17) p
      = fun d => proj (row x1 p) (mat x17) d
          + mlp (cat3 (row (gath x0 x2) p) (row (gath x0 x3) p) (row x1 p)) (mat x12) (vec x13) (mat x14) (vec x15) d :=
    funext fun d => edgePre_apply x0 x1 x2 x3 x12 x13 x14 x15 x17 p d
  rw [hP]
  rfl

end Stages

theorem res_v62_eq (c : Dev nD) : Value.res_main_v62 (F := Ideal) m c = nodesNew m c :=
  (Read.val_main_v62_eq (F := Ideal) m c).trans (node_eq _ _ _ _ _ _ _ _ _ _ _ _ _ _ _)

theorem res_v97_eq (c : Dev nD) : Value.res_main_v97 (F := Ideal) m c = edgesNew m c :=
  (Read.val_main_v97_eq (F := Ideal) m c).trans (edge_eq _ _ _ _ _ _ _ _ _ _ _)

end Cert.ReferenceIdeal.RefSpec

end
-- ==== Proof.lean ====
/-
  One message-passing layer of a graph network: the kernel program against its reference, over the extended reals.

  Both programs gather the node table's rows at the senders and at the receivers of 600000 edges. A message is a two-layer
  perceptron of [sender row | receiver row | edge row]; the messages are summed per receiving node; a new node row is the
  layer normalisation of (node row)·Wn + perceptron([node row | summed messages]); a new edge row is the layer
  normalisation of (edge row)·We + perceptron([sender row | receiver row | edge row]).  The kernel program pads the
  three edge-side arrays by 64 rows, computes messages and new edge rows in 586 blocks of 1024 rows, cuts the padding off,
  sums the messages with the same accumulating scatter as the reference, and computes the new node rows in 50 blocks of
  1000 rows.  Every result row is the same function, spelt in the same order, of the same rows on both sides (a change of
  float format is the identity on the extended reals, a product accumulated from zero is the sum of the products, a
  lane sum is the sum over the row), so the two results agree entry by entry and no law of the extended reals beyond
  reading each operation at an index is needed; the precondition is never opened.
  The frames of the two kernel programs are the generated ones; the reference's frame is its generated run with the
  results dropped; the idealization rewrote no operation.
-/
import proofs.«113904_j32109175505235_1_alg».proof.Defs
import proofs.«113904_j32109175505235_1_alg».proof.Proof.Gen.Kernel
import proofs.«113904_j32109175505235_1_alg».proof.Proof.Gen.Kernel.Skeleton
import proofs.«113904_j32109175505235_1_alg».proof.Proof.Gen.Kernel.Launch
import proofs.«113904_j32109175505235_1_alg».proof.Proof.Gen.Kernel.Points
import proofs.«113904_j32109175505235_1_alg».proof.Proof.Gen.Kernel.Frame
import proofs.«113904_j32109175505235_1_alg».proof.Proof.Gen.KernelIdeal
import proofs.«113904_j32109175505235_1_alg».proof.Proof.Gen.KernelIdeal.Skeleton
import proofs.«113904_j32109175505235_1_alg».proof.Proof.Gen.KernelIdeal.Launch
import proofs.«113904_j32109175505235_1_alg».proof.Proof.Gen.KernelIdeal.Points
import proofs.«113904_j32109175505235_1_alg».proof.Proof.Gen.KernelIdeal.Frame
import proofs.«113904_j32109175505235_1_alg».proof.Proof.Gen.ReferenceIdeal
import proofs.«113904_j32109175505235_1_alg».proof.Proof.Gen.Pre_finite_inputs
import proofs.«113904_j32109175505235_1_alg».proof.Proof.Gen.ReferenceIdeal.Run
import proofs.«113904_j32109175505235_1_alg».proof.Proof.Gen.ReferenceIdeal.Read
import proofs.«113904_j32109175505235_1_alg».proof.Proof.KValue
import proofs.«113904_j32109175505235_1_alg».proof.Proof.RefSpec
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the same two arrays: the reference's two result
    terms are the node and edge functions of its arguments, the kernel program's two result buffers hold the same
    functions of its own, and the arguments agree. -/
theorem algebraic : Cert.algebraic_KernelIdeal_ReferenceIdeal := by
  intro m ρ m' ρ' _ hagree
  refine ⟨fun c => Cert.KernelIdeal.KValue.nodesNew m c, fun c => Cert.KernelIdeal.KValue.edgesNew m c,
    Cert.KernelIdeal.KValue.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19⟩ := hagree c
    rw [Cert.ReferenceIdeal.RefSpec.res_v62_eq]
    unfold Cert.ReferenceIdeal.RefSpec.nodesNew Cert.ReferenceIdeal.RefSpec.messages
    rw [h0, h1, h2, h3, h4, h5, h6, h7, h8, h9, h10, h11, h16, h18, h19]
    rfl
  · obtain ⟨h0, h1, h2, h3, h4, h5, h6, h7, h8, h9, h10, h11, h12, h13, h14, h15, h16, h17, h18, h19⟩ := hagree c
    rw [Cert.ReferenceIdeal.RefSpec.res_v97_eq]
    unfold Cert.ReferenceIdeal.RefSpec.edgesNew
    rw [h0, h1, h2, h3, h12, h13, h14, h15, h17, h18, h19]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
